-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x64 : Shape := ⟨2, ![128, 64]⟩
abbrev S128x1 : Shape := ⟨2, ![128, 1]⟩
abbrev S64x64 : Shape := ⟨2, ![64, 64]⟩
abbrev S1x64 : Shape := ⟨2, ![1, 64]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S128x64 : S_.BroadcastsInDim S128x64 (![] : Fin 0 → Fin S128x64.rank)
  reducesTo_S128x64_S_d0_1 : S128x64.ReducesTo [0, 1] S_
  bcast_S_S128x1 : S_.BroadcastsInDim S128x1 (![] : Fin 0 → Fin S128x1.rank)
  reducesTo_S128x1_S_d0_1 : S128x1.ReducesTo [0, 1] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg7 : FVec F S1x64 .f32) (main_v33 : IVec S_ 1) : IVec S_ 1 :=
  let main_v34 : FVec F S1x64 .f32 := Host.absf main_arg7
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  main_v38

def fn_part1 {F : FTy → Type} [FloatOps F] (main_arg4 : FVec F S64x64 .f32) (main_arg5 : FVec F S128x1 .f32) (main_arg6 : FVec F S64x64 .f32) (main_arg7 : FVec F S1x64 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S128x1 .f32 := Host.absf main_arg5
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_v33

def fn {F : FTy → Type} [FloatOps F] (main_arg0 : FVec F S4096x128 .f32) (main_arg1 : FVec F S4096x4096 .f32) (main_arg2 : FVec F S128x64 .f32) (main_arg3 : FVec F S128x1 .f32) (main_arg4 : FVec F S64x64 .f32) (main_arg5 : FVec F S128x1 .f32) (main_arg6 : FVec F S64x64 .f32) (main_arg7 : FVec F S1x64 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128x1 .f32 := Host.absf main_arg3
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg4 main_arg5 main_arg6 main_arg7 main_v13 main_v16
-- ==== Kernel.lean ====
abbrev S4096x128 : Shape := ⟨2, ![4096, 128]⟩
abbrev S4096x4096 : Shape := ⟨2, ![4096, 4096]⟩
abbrev S128x64 : Shape := ⟨2, ![128, 64]⟩
abbrev S128x1 : Shape := ⟨2, ![128, 1]⟩
abbrev S64x64 : Shape := ⟨2, ![64, 64]⟩
abbrev S1x64 : Shape := ⟨2, ![1, 64]⟩
abbrev S4096x64 : Shape := ⟨2, ![4096, 64]⟩
abbrev S4096x1 : Shape := ⟨2, ![4096, 1]⟩
abbrev S1x4096 : Shape := ⟨2, ![1, 4096]⟩
abbrev S64x1 : Shape := ⟨2, ![64, 1]⟩
abbrev S256x4096 : Shape := ⟨2, ![256, 4096]⟩
abbrev S256x1 : Shape := ⟨2, ![256, 1]⟩
abbrev S256x64 : Shape := ⟨2, ![256, 64]⟩
abbrev S256 : Shape := ⟨1, ![256]⟩

abbrev nBuf : Space → Nat
  | .hbm => 17
  | .vmem => 32
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S128x1, .f32⟩
  | .hbm, ⟨4, _⟩ => ⟨S64x64, .f32⟩
  | .hbm, ⟨5, _⟩ => ⟨S128x1, .f32⟩
  | .hbm, ⟨6, _⟩ => ⟨S64x64, .f32⟩
  | .hbm, ⟨7, _⟩ => ⟨S1x64, .f32⟩
  | .hbm, ⟨8, _⟩ => ⟨S4096x64, .f32⟩
  | .hbm, ⟨9, _⟩ => ⟨S4096x1, .f32⟩
  | .hbm, ⟨10, _⟩ => ⟨S1x4096, .f32⟩
  | .hbm, ⟨11, _⟩ => ⟨S4096x64, .f32⟩
  | .hbm, ⟨12, _⟩ => ⟨S4096x64, .f32⟩
  | .hbm, ⟨13, _⟩ => ⟨S4096x1, .f32⟩
  | .hbm, ⟨14, _⟩ => ⟨S1x4096, .f32⟩
  | .hbm, ⟨15, _⟩ => ⟨S4096x4096, .f32⟩
  | .hbm, ⟨16, _⟩ => ⟨S4096x64, .f32⟩
  | .local _ .vmem, ⟨0, _⟩ => ⟨S4096x128, .f32⟩
  | .local _ .vmem, ⟨1, _⟩ => ⟨S128x64, .f32⟩
  | .local _ .vmem, ⟨2, _⟩ => ⟨S128x1, .f32⟩
  | .local _ .vmem, ⟨3, _⟩ => ⟨S4096x64, .f32⟩
  | .local _ .vmem, ⟨4, _⟩ => ⟨S4096x1, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S4096x64, .f32⟩
  | .local _ .vmem, ⟨9, _⟩ => ⟨S256x1, .f32⟩
  | .local _ .vmem, ⟨10, _⟩ => ⟨S256x1, .f32⟩
  | .local _ .vmem, ⟨11, _⟩ => ⟨S1x4096, .f32⟩
  | .local _ .vmem, ⟨12, _⟩ => ⟨S256x64, .f32⟩
  | .local _ .vmem, ⟨13, _⟩ => ⟨S256x64, .f32⟩
  | .local _ .vmem, ⟨14, _⟩ => ⟨S4096x64, .f32⟩
  | .local _ .vmem, ⟨15, _⟩ => ⟨S64x64, .f32⟩
  | .local _ .vmem, ⟨16, _⟩ => ⟨S128x1, .f32⟩
  | .local _ .vmem, ⟨17, _⟩ => ⟨S4096x64, .f32⟩
  | .local _ .vmem, ⟨18, _⟩ => ⟨S4096x1, .f32⟩
  | .local _ .vmem, ⟨19, _⟩ => ⟨S1x4096, .f32⟩
  | .local _ .vmem, ⟨20, _⟩ => ⟨S256x4096, .f32⟩
  | .local _ .vmem, ⟨21, _⟩ => ⟨S256x4096, .f32⟩
  | .local _ .vmem, ⟨22, _⟩ => ⟨S4096x64, .f32⟩
  | .local _ .vmem, ⟨23, _⟩ => ⟨S256x1, .f32⟩
  | .local _ .vmem, ⟨24, _⟩ => ⟨S256x1, .f32⟩
  | .local _ .vmem, ⟨25, _⟩ => ⟨S1x4096, .f32⟩
  | .local _ .vmem, ⟨26, _⟩ => ⟨S64x64, .f32⟩
  | .local _ .vmem, ⟨27, _⟩ => ⟨S1x64, .f32⟩
  | .local _ .vmem, ⟨28, _⟩ => ⟨S256x4096, .f32⟩
  | .local _ .vmem, ⟨29, _⟩ => ⟨S256x4096, .f32⟩
  | .local _ .vmem, ⟨30, _⟩ => ⟨S256x64, .f32⟩
  | .local _ .vmem, ⟨31, _⟩ => ⟨S256x64, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0_0 : Ref sig .tc := ⟨.hbm, 8, rfl⟩
abbrev main_call0_v0_1 : Ref sig .tc := ⟨.hbm, 9, rfl⟩
abbrev main_call0_v0_2 : Ref sig .tc := ⟨.hbm, 10, rfl⟩
abbrev main_v0_1 : Ref sig .tc := ⟨.hbm, 11, rfl⟩
abbrev main_call0_v2_0 : Ref sig .tc := ⟨.hbm, 12, rfl⟩
abbrev main_call0_v2_1 : Ref sig .tc := ⟨.hbm, 13, rfl⟩
abbrev main_call0_v2_2 : Ref sig .tc := ⟨.hbm, 14, rfl⟩
abbrev main_v0_2 : Ref sig .tc := ⟨.hbm, 15, rfl⟩
abbrev main_v0_0 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg5_0 : Ref sig .tc := ⟨.vmem, 27, rfl⟩
abbrev cc3_stg6_0 : Ref sig .tc := ⟨.vmem, 28, rfl⟩
abbrev cc3_stg6_1 : Ref sig .tc := ⟨.vmem, 29, rfl⟩
abbrev cc3_stg7_0 : Ref sig .tc := ⟨.vmem, 30, rfl⟩
abbrev cc3_stg7_1 : Ref sig .tc := ⟨.vmem, 31, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem5_0 : DmaSem sig := 27
abbrev cc3_sem6_0 : DmaSem sig := 28
abbrev cc3_sem6_1 : DmaSem sig := 29
abbrev cc3_sem7_0 : DmaSem sig := 30
abbrev cc3_sem7_1 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S4096x64 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4096x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S4096x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x4096 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S256x4096 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S256x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  inb_S4096x128_S4096x128_0_0 : ∀ a, (![0, 0] : Fin 2 → Nat) a + S4096x128.size a ≤ S4096x128.size a
  h_S4096x128 : 0 < S4096x128.numel
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  inb_S128x1_S64x1_0_0 : ∀ a, (![0, 0] : Fin 2 → Nat) a + S64x1.size a ≤ S128x1.size a
  h_S64x1 : 0 < S64x1.numel
  inb_S4096x1_S4096x1_0_0 : ∀ a, (![0, 0] : Fin 2 → Nat) a + S4096x1.size a ≤ S4096x1.size a
  h_S4096x1 : 0 < S4096x1.numel
  inb_S128x1_S64x1_64_0 : ∀ a, (![64, 0] : Fin 2 → Nat) a + S64x1.size a ≤ S128x1.size a
  inb_S1x4096_S1x4096_0_0 : ∀ a, (![0, 0] : Fin 2 → Nat) a + S1x4096.size a ≤ S1x4096.size a
  h_S1x4096 : 0 < S1x4096.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  shapeCasts_S1x4096_S1x4096 : S1x4096.ShapeCasts S1x4096
  broadcasts_S256x1_S256x4096 : S256x1.Broadcasts S256x4096
  broadcasts_S1x4096_S256x4096 : S1x4096.Broadcasts S256x4096
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  shapeCasts_S4096x64_S4096x64 : S4096x64.ShapeCasts S4096x64
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  broadcasts_S1x64_S256x64 : S1x64.Broadcasts S256x64
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S64x1_S4096x64_S1x4096_0_1_1_0_n_n_wf : DotDims.WF S64x1 S4096x64 S1x4096 [0] [1] [1] [0] [] []
  dot_S256x4096_S4096x64_S256x64_1_0_0_1_n_n_wf : DotDims.WF S256x4096 S4096x64 S256x64 [1] [0] [0] [1] [] []
  dot_S4096x64_S64x64_S4096x64_1_0_0_1_n_n_wf : DotDims.WF S4096x64 S64x64 S4096x64 [1] [0] [0] [1] [] []
  dot_S256x64_S64x64_S256x64_1_0_0_1_n_n_wf : DotDims.WF S256x64 S64x64 S256x64 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S4096x128.size a
  hwx0_0 : ∀ i : grid0.Coords, EltTy.bits .f32 = 32 ∨ (Rect.block (s := S4096x128) S4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S4096x64.size a
  hwx0_3 : ∀ i : grid0.Coords, EltTy.bits .f32 = 32 ∨ (Rect.block (s := S4096x64) S4096x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1.size a ≤ S4096x1.size a
  hwx0_4 : ∀ i : grid0.Coords, EltTy.bits .f32 = 32 ∨ (Rect.block (s := S4096x1) S4096x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .f32 = 32 ∨ (Rect.block (s := S4096x4096) S256x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x64.size a ≤ S4096x64.size a
  hwx1_1 : ∀ i : grid1.Coords, EltTy.bits .f32 = 32 ∨ (Rect.block (s := S4096x64) S4096x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x1.size a ≤ S4096x1.size a
  hwx1_2 : ∀ i : grid1.Coords, EltTy.bits .f32 = 32 ∨ (Rect.block (s := S4096x1) S256x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4096.size a ≤ S1x4096.size a
  hwx1_3 : ∀ i : grid1.Coords, EltTy.bits .f32 = 32 ∨ (Rect.block (s := S1x4096) S1x4096.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S4096x64.size a
  hwx1_4 : ∀ i : grid1.Coords, EltTy.bits .f32 = 32 ∨ (Rect.block (s := S4096x64) S256x64.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S4096x64.size a
  hwx2_0 : ∀ i : grid2.Coords, EltTy.bits .f32 = 32 ∨ (Rect.block (s := S4096x64) S4096x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S128x1.size a
  hwx2_2 : ∀ i : grid2.Coords, EltTy.bits .f32 = 32 ∨ (Rect.block (s := S128x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x64.size a ≤ S4096x64.size a
  hwx2_3 : ∀ i : grid2.Coords, EltTy.bits .f32 = 32 ∨ (Rect.block (s := S4096x64) S4096x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x1.size a ≤ S4096x1.size a
  hwx2_4 : ∀ i : grid2.Coords, EltTy.bits .f32 = 32 ∨ (Rect.block (s := S4096x1) S4096x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x4096.size a ≤ S1x4096.size a
  hwx2_5 : ∀ i : grid2.Coords, EltTy.bits .f32 = 32 ∨ (Rect.block (s := S1x4096) S1x4096.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S4096x4096.size a
  hwx3_0 : ∀ i : grid3.Coords, EltTy.bits .f32 = 32 ∨ (Rect.block (s := S4096x4096) S256x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S4096x64.size a ≤ S4096x64.size a
  hwx3_1 : ∀ i : grid3.Coords, EltTy.bits .f32 = 32 ∨ (Rect.block (s := S4096x64) S4096x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S4096x1.size a
  hwx3_2 : ∀ i : grid3.Coords, EltTy.bits .f32 = 32 ∨ (Rect.block (s := S4096x1) S256x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x4096.size a ≤ S1x4096.size a
  hwx3_3 : ∀ i : grid3.Coords, EltTy.bits .f32 = 32 ∨ (Rect.block (s := S1x4096) S1x4096.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S256x4096.size a ≤ S4096x4096.size a
  hwx3_6 : ∀ i : grid3.Coords, EltTy.bits .f32 = 32 ∨ (Rect.block (s := S4096x4096) S256x4096.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S256x64.size a ≤ S4096x64.size a
  hwx3_7 : ∀ i : grid3.Coords, EltTy.bits .f32 = 32 ∨ (Rect.block (s := S4096x64) S256x64.size (cc3_transform_7 i) (hinb3_7 i)).WholeWords (EltTy.packing .f32)

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S64x1_S4096x64_S1x4096_0_1_1_0_n_n : DotDims S64x1 S4096x64 S1x4096 where
  lhsContracting := [0]
  rhsContracting := [1]
  lhsNonContracting := [1]
  rhsNonContracting := [0]
  lhsBatch := []
  rhsBatch := []
  wf := dot_S64x1_S4096x64_S1x4096_0_1_1_0_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf
def dot_S256x64_S64x64_S256x64_1_0_0_1_n_n : DotDims S256x64 S64x64 S256x64 where
  lhsContracting := [1]
  rhsContracting := [0]
  lhsNonContracting := [0]
  rhsNonContracting := [1]
  lhsBatch := []
  rhsBatch := []
  wf := dot_S256x64_S64x64_S256x64_1_0_0_1_n_n_wf

abbrev win0_0 : Pipeline.Window sig grid0 :=
  Pipeline.Window.ofSpec (Memref.whole main_arg0) S4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0_0) S4096x64.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v0_1) S4096x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v0_2) S1x4096.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg1) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v0_0) S4096x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v0_1) S256x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v0_2) S1x4096.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0_1) S256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v0_1) S4096x64.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v2_0) S4096x64.size cc2_transform_3 reads2_3 true true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v2_1) S4096x1.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v2_2) S1x4096.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_arg1) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v2_0) S4096x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_call0_v2_1) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v2_2) S1x4096.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg7) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v0_2) S256x4096.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v0_0) S256x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x64 : Shape := ⟨2, ![128, 64]⟩
abbrev S128x1 : Shape := ⟨2, ![128, 1]⟩
abbrev S64x64 : Shape := ⟨2, ![64, 64]⟩
abbrev S1x64 : Shape := ⟨2, ![1, 64]⟩
abbrev S4096x64 : Shape := ⟨2, ![4096, 64]⟩
abbrev S64x1 : Shape := ⟨2, ![64, 1]⟩
abbrev S4096x1 : Shape := ⟨2, ![4096, 1]⟩
abbrev S1x4096 : Shape := ⟨2, ![1, 4096]⟩
abbrev S_ : Shape := ⟨0, ![]⟩
abbrev S4096 : Shape := ⟨1, ![4096]⟩

abbrev nBuf : Space → Nat
  | .hbm => 90
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x4096, .f32⟩
  | .hbm, ⟨2, _⟩ => ⟨S128x64, .f32⟩
  | .hbm, ⟨3, _⟩ => ⟨S128x1, .f32⟩
  | .hbm, ⟨4, _⟩ => ⟨S64x64, .f32⟩
  | .hbm, ⟨5, _⟩ => ⟨S128x1, .f32⟩
  | .hbm, ⟨6, _⟩ => ⟨S64x64, .f32⟩
  | .hbm, ⟨7, _⟩ => ⟨S1x64, .f32⟩
  | .hbm, ⟨8, _⟩ => ⟨S4096x64, .f32⟩
  | .hbm, ⟨9, _⟩ => ⟨S64x1, .f32⟩
  | .hbm, ⟨10, _⟩ => ⟨S4096x1, .f32⟩
  | .hbm, ⟨11, _⟩ => ⟨S64x1, .f32⟩
  | .hbm, ⟨12, _⟩ => ⟨S4096x1, .f32⟩
  | .hbm, ⟨13, _⟩ => ⟨S1x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .i1⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x4096, .f32⟩
  | .hbm, ⟨27, _⟩ => ⟨S4096x4096, .i1⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x4096, .f32⟩
  | .hbm, ⟨44, _⟩ => ⟨S4096x4096, .f32⟩
  | .hbm, ⟨45, _⟩ => ⟨S4096x64, .f32⟩
  | .hbm, ⟨46, _⟩ => ⟨S_, .f32⟩
  | .hbm, ⟨47, _⟩ => ⟨S4096x64, .f32⟩
  | .hbm, ⟨48, _⟩ => ⟨S4096x64, .f32⟩
  | .hbm, ⟨49, _⟩ => ⟨S4096x64, .f32⟩
  | .hbm, ⟨50, _⟩ => ⟨S64x1, .f32⟩
  | .hbm, ⟨51, _⟩ => ⟨S4096x1, .f32⟩
  | .hbm, ⟨52, _⟩ => ⟨S64x1, .f32⟩
  | .hbm, ⟨53, _⟩ => ⟨S4096x1, .f32⟩
  | .hbm, ⟨54, _⟩ => ⟨S1x4096, .f32⟩
  | .hbm, ⟨55, _⟩ => ⟨S4096x4096, .f32⟩
  | .hbm, ⟨56, _⟩ => ⟨S4096x4096, .f32⟩
  | .hbm, ⟨57, _⟩ => ⟨S4096x4096, .f32⟩
  | .hbm, ⟨58, _⟩ => ⟨S_, .f32⟩
  | .hbm, ⟨59, _⟩ => ⟨S_, .f32⟩
  | .hbm, ⟨60, _⟩ => ⟨S4096x4096, .f32⟩
  | .hbm, ⟨61, _⟩ => ⟨S4096x4096, .i1⟩
  | .hbm, ⟨62, _⟩ => ⟨S_, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S_, .f32⟩
  | .hbm, ⟨67, _⟩ => ⟨S4096x4096, .f32⟩
  | .hbm, ⟨68, _⟩ => ⟨S4096x4096, .i1⟩
  | .hbm, ⟨69, _⟩ => ⟨S_, .f32⟩
  | .hbm, ⟨70, _⟩ => ⟨S4096x4096, .f32⟩
  | .hbm, ⟨71, _⟩ => ⟨S4096x4096, .f32⟩
  | .hbm, ⟨72, _⟩ => ⟨S_, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096x1, .f32⟩
  | .hbm, ⟨78, _⟩ => ⟨S4096x4096, .f32⟩
  | .hbm, ⟨79, _⟩ => ⟨S4096x4096, .f32⟩
  | .hbm, ⟨80, _⟩ => ⟨S4096x4096, .f32⟩
  | .hbm, ⟨81, _⟩ => ⟨S_, .f32⟩
  | .hbm, ⟨82, _⟩ => ⟨S4096, .f32⟩
  | .hbm, ⟨83, _⟩ => ⟨S4096x1, .f32⟩
  | .hbm, ⟨84, _⟩ => ⟨S4096x4096, .f32⟩
  | .hbm, ⟨85, _⟩ => ⟨S4096x4096, .f32⟩
  | .hbm, ⟨86, _⟩ => ⟨S4096x64, .f32⟩
  | .hbm, ⟨87, _⟩ => ⟨S4096x64, .f32⟩
  | .hbm, ⟨88, _⟩ => ⟨S4096x64, .f32⟩
  | .hbm, ⟨89, _⟩ => ⟨S4096x64, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v9 : Ref sig .tc := ⟨.hbm, 24, rfl⟩
abbrev main_cst_0 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_call1_v0 : Ref sig .tc := ⟨.hbm, 29, rfl⟩
abbrev main_v12 : Ref sig .tc := ⟨.hbm, 30, rfl⟩
abbrev main_cst_2 : Ref sig .tc := ⟨.hbm, 31, rfl⟩
abbrev main_v13 : Ref sig .tc := ⟨.hbm, 32, rfl⟩
abbrev main_cst_3 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_cst_4 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_call2_cst : Ref sig .tc := ⟨.hbm, 46, rfl⟩
abbrev main_call2_v0 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_5 : Ref sig .tc := ⟨.hbm, 58, rfl⟩
abbrev main_call3_cst : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v35 : Ref sig .tc := ⟨.hbm, 65, rfl⟩
abbrev main_cst_6 : Ref sig .tc := ⟨.hbm, 66, rfl⟩
abbrev main_v36 : Ref sig .tc := ⟨.hbm, 67, rfl⟩
abbrev main_v37 : Ref sig .tc := ⟨.hbm, 68, rfl⟩
abbrev main_cst_7 : Ref sig .tc := ⟨.hbm, 69, rfl⟩
abbrev main_call4_v0 : Ref sig .tc := ⟨.hbm, 70, rfl⟩
abbrev main_v38 : Ref sig .tc := ⟨.hbm, 71, rfl⟩
abbrev main_cst_8 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_10 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩

abbrev nD : Nat := 1
abbrev τ : Topo := Topo.v7x

variable {F : FTy → Type} [FloatOps F]

class Facts₀ : Prop where
  slices_S128x1_S64x1_0_0 : S128x1.Slices ![0, 0] S64x1
  slices_S128x1_S64x1_64_0 : S128x1.Slices ![64, 0] S64x1
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S_S4096x64 : S_.BroadcastsInDim S4096x64 (![] : Fin 0 → Fin S4096x64.rank)
  bcast_S1x64_S4096x64_0_1 : S1x64.BroadcastsInDim S4096x64 (![0, 1] : Fin 2 → Fin S4096x64.rank)
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  dot_S4096x4096_S4096x64_S4096x64_1_0_0_1_n_n_wf : DotDims.WF S4096x4096 S4096x64 S4096x64 [1] [0] [0] [1] [] []
  dot_S4096x64_S64x64_S4096x64_1_0_0_1_n_n_wf : DotDims.WF S4096x64 S64x64 S4096x64 [1] [0] [0] [1] [] []

variable [Facts₀]

def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf
def dot_S4096x64_S64x64_S4096x64_1_0_0_1_n_n : DotDims S4096x64 S64x64 S4096x64 where
  lhsContracting := [1]
  rhsContracting := [0]
  lhsNonContracting := [0]
  rhsNonContracting := [1]
  lhsBatch := []
  rhsBatch := []
  wf := dot_S4096x64_S64x64_S4096x64_1_0_0_1_n_n_wf

class Facts : Prop extends Facts₀ where

variable [Facts]
-- ==== Proof.Spec.lean ====
/-
  The mathematics of a two-layer dense graph-attention network over 4096 nodes, stated once on the extended reals,
  entry by entry, with no program in sight.

  One layer, from node features `x`, a weight matrix `W`, an attention vector `a = [a_src; a_dst]` (128 entries) and an
  adjacency matrix `adj`:
    h        = x · W                                       (4096 × 64)
    src p    = Σ_k h[p,k] · a[k]                            (the first 64 entries of `a`)
    dst q    = Σ_k a[64+k] · h[q,k]                         (the last 64 entries of `a`)
    e[p,q]   = leaky (src p + dst q)        where adj[p,q] > 0,   the large negative stand-in elsewhere
    att[p,·] = softmax of row p of e       (exp (e − row maximum) over its row sum)
    out      = att · h
  Layer one ends in `max (·, 0)`; layer two returns its attention matrix and `out · C + bias`.
  Every float literal is kept as its bit pattern: both programs spell the same words.
-/
import Idealize.ShloMosaic.PureOps.Ideal
import Idealize.ShloMosaic.Lib.ValueIdx

noncomputable section

open scoped BigOperators

namespace Cert.Gat

open Idealize.ShloMosaic Idealize.ShloMosaic.ValueIdx

/-- A rank-2 array from its entries by coordinates. -/
def arr2 {a b : Nat} (f : Fin a → Fin b → EReal) : (⟨2, ![a, b]⟩ : Shape).Idx → EReal := fun i => f (i 0) (i 1)

theorem arr2_ix2 {a b : Nat} (f : Fin a → Fin b → EReal) (p : Fin a) (q : Fin b) : arr2 f (ix2 p q) = f p q := rfl

/-- The first half of the attention vector's row positions. -/
def lo (k : Fin 64) : Fin 128 := ⟨k.val, by omega⟩
/-- The second half. -/
def hi (k : Fin 64) : Fin 128 := ⟨64 + k.val, by omega⟩

/-- `x · W` for 128 input features. -/
def proj128 (x : (⟨2, ![4096, 128]⟩ : Shape).Idx → EReal) (w : (⟨2, ![128, 64]⟩ : Shape).Idx → EReal)
    (p : Fin 4096) (q : Fin 64) : EReal := ∑ k : Fin 128, x (ix2 p k) * w (ix2 k q)

/-- `x · W` for 64 input features. -/
def proj64 (x : (⟨2, ![4096, 64]⟩ : Shape).Idx → EReal) (w : (⟨2, ![64, 64]⟩ : Shape).Idx → EReal)
    (p : Fin 4096) (q : Fin 64) : EReal := ∑ k : Fin 64, x (ix2 p k) * w (ix2 k q)

/-- The source term of node `p`: its features against the first half of the attention vector. -/
def srcScore (h : (⟨2, ![4096, 64]⟩ : Shape).Idx → EReal) (a : (⟨2, ![128, 1]⟩ : Shape).Idx → EReal) (p : Fin 4096) : EReal :=
  ∑ k : Fin 64, h (ix2 p k) * a (ix2 (lo k) (0 : Fin 1))

/-- The destination term of node `q`: the second half of the attention vector against its features. -/
def dstScore (h : (⟨2, ![4096, 64]⟩ : Shape).Idx → EReal) (a : (⟨2, ![128, 1]⟩ : Shape).Idx → EReal) (q : Fin 4096) : EReal :=
  ∑ k : Fin 64, a (ix2 (hi k) (0 : Fin 1)) * h (ix2 q k)

/-- The source terms as a column, the destination terms as a row. -/
def srcCol (h : (⟨2, ![4096, 64]⟩ : Shape).Idx → EReal) (a : (⟨2, ![128, 1]⟩ : Shape).Idx → EReal) :
    (⟨2, ![4096, 1]⟩ : Shape).Idx → EReal := arr2 fun p _ => srcScore h a p
def dstRow (h : (⟨2, ![4096, 64]⟩ : Shape).Idx → EReal) (a : (⟨2, ![128, 1]⟩ : Shape).Idx → EReal) :
    (⟨2, ![1, 4096]⟩ : Shape).Idx → EReal := arr2 fun _ q => dstScore h a q

/-- The leaky rectifier with slope 0.2 (as its f32 word). -/
def leaky (e : EReal) : EReal :=
  Scalar.select (FloatOps.cmpf (F := Ideal) (φ := .f32) .oge e (Ideal.ofBits .f32 0x00000000#32)) e
    (e * Ideal.ofBits .f32 0x3E4CCCCD#32)

/-- One attention logit: the rectified sum where the edge is present, the stand-in for minus infinity elsewhere. -/
def logitEntry (adjv f1v f2v : EReal) : EReal :=
  Scalar.select (FloatOps.cmpf (F := Ideal) (φ := .f32) .ogt adjv (Ideal.ofBits .f32 0x00000000#32)) (leaky (f1v + f2v))
    (Ideal.ofBits .f32 0xD9FFCB9E#32)

/-- A row's maximum, folded from minus infinity. -/
def rowMax (z : Fin 4096 → EReal) : EReal :=
  (Finset.univ : Finset (Fin 4096)).fold max (Ideal.ofBits .f32 0xFF800000#32) z

/-- The softmax of one row. -/
def softmaxRow (z : Fin 4096 → EReal) (q : Fin 4096) : EReal :=
  Ideal.div (Ideal.exp (z q - rowMax z)) (∑ j : Fin 4096, Ideal.exp (z j - rowMax z))

/-- Row `p` of the logits. -/
def logitRow (adj : (⟨2, ![4096, 4096]⟩ : Shape).Idx → EReal) (f1 : (⟨2, ![4096, 1]⟩ : Shape).Idx → EReal)
    (f2 : (⟨2, ![1, 4096]⟩ : Shape).Idx → EReal) (p : Fin 4096) : Fin 4096 → EReal :=
  fun j => logitEntry (adj (ix2 p j)) (f1 (ix2 p (0 : Fin 1))) (f2 (ix2 (0 : Fin 1) j))

/-- The attention coefficients. -/
def attention (adj : (⟨2, ![4096, 4096]⟩ : Shape).Idx → EReal) (f1 : (⟨2, ![4096, 1]⟩ : Shape).Idx → EReal)
    (f2 : (⟨2, ![1, 4096]⟩ : Shape).Idx → EReal) (p q : Fin 4096) : EReal :=
  softmaxRow (logitRow adj f1 f2 p) q

/-- `att · h`. -/
def aggregate (att : Fin 4096 → Fin 4096 → EReal) (h : (⟨2, ![4096, 64]⟩ : Shape).Idx → EReal) (p : Fin 4096) (q : Fin 64) : EReal :=
  ∑ j : Fin 4096, att p j * h (ix2 j q)

/-- Layer one's output: the aggregated features, rectified. -/
def hidden (adj : (⟨2, ![4096, 4096]⟩ : Shape).Idx → EReal) (h : (⟨2, ![4096, 64]⟩ : Shape).Idx → EReal)
    (f1 : (⟨2, ![4096, 1]⟩ : Shape).Idx → EReal) (f2 : (⟨2, ![1, 4096]⟩ : Shape).Idx → EReal) :
    (⟨2, ![4096, 64]⟩ : Shape).Idx → EReal :=
  arr2 fun p q => max (aggregate (attention adj f1 f2) h p q) (Ideal.ofBits .f32 0x00000000#32)

/-- Layer two's class scores: the aggregated features through the classifier, plus the bias row. -/
def scores (adj : (⟨2, ![4096, 4096]⟩ : Shape).Idx → EReal) (g : (⟨2, ![4096, 64]⟩ : Shape).Idx → EReal)
    (g1 : (⟨2, ![4096, 1]⟩ : Shape).Idx → EReal) (g2 : (⟨2, ![1, 4096]⟩ : Shape).Idx → EReal)
    (cls : (⟨2, ![64, 64]⟩ : Shape).Idx → EReal) (bias : (⟨2, ![1, 64]⟩ : Shape).Idx → EReal) :
    (⟨2, ![4096, 64]⟩ : Shape).Idx → EReal :=
  arr2 fun p q => (∑ k : Fin 64, aggregate (attention adj g1 g2) g p k * cls (ix2 k q)) + bias (ix2 (0 : Fin 1) q)

/-! ## The network -/

section Net
variable (ft : (⟨2, ![4096, 128]⟩ : Shape).Idx → EReal) (adj : (⟨2, ![4096, 4096]⟩ : Shape).Idx → EReal)
  (W1 : (⟨2, ![128, 64]⟩ : Shape).Idx → EReal) (a1 : (⟨2, ![128, 1]⟩ : Shape).Idx → EReal)
  (W2 : (⟨2, ![64, 64]⟩ : Shape).Idx → EReal) (a2 : (⟨2, ![128, 1]⟩ : Shape).Idx → EReal)
  (cls : (⟨2, ![64, 64]⟩ : Shape).Idx → EReal) (bias : (⟨2, ![1, 64]⟩ : Shape).Idx → EReal)

/-- Layer one's projected features. -/
def feat1 : (⟨2, ![4096, 64]⟩ : Shape).Idx → EReal := arr2 (proj128 ft W1)
/-- The embedding: layer one's output. -/
def embd : (⟨2, ![4096, 64]⟩ : Shape).Idx → EReal :=
  hidden adj (feat1 ft W1) (srcCol (feat1 ft W1) a1) (dstRow (feat1 ft W1) a1)
/-- Layer two's projected features. -/
def feat2 : (⟨2, ![4096, 64]⟩ : Shape).Idx → EReal := arr2 (proj64 (embd ft adj W1 a1) W2)
/-- Layer two's attention matrix. -/
def att2 : (⟨2, ![4096, 4096]⟩ : Shape).Idx → EReal :=
  arr2 (attention adj (srcCol (feat2 ft adj W1 a1 W2) a2) (dstRow (feat2 ft adj W1 a1 W2) a2))
/-- The class scores. -/
def logits : (⟨2, ![4096, 64]⟩ : Shape).Idx → EReal :=
  scores adj (feat2 ft adj W1 a1 W2) (srcCol (feat2 ft adj W1 a1 W2) a2) (dstRow (feat2 ft adj W1 a1 W2) a2) cls bias
end Net

end Cert.Gat

end
-- ==== Proof.KernelPrep1.lean ====
/-
  The first projection region read as whole arrays: from the node features `x`, the weights `W` and the attention
  vector `a` as the region finds them, its three output arrays end at `x · W`, at the column of source terms and at the
  row of destination terms of that product.
-/
import proofs.«141706_g69887707840728_cont_9to1c4b_820_3_alg».proof.Proof.Gen.KernelIdeal.Frame
import proofs.«141706_g69887707840728_cont_9to1c4b_820_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Prep1

open Cert.KernelIdeal Cert.KernelIdeal.Gen Cert.Gat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The three products at an index -/

/-- `x · W`: the left operand is read at (row of the result, contracted position), -/
private theorem lhs_xw_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide),
    dif_pos (show (0 : Fin S4096x128.rank) ∈ dot_S4096x128_S128x64_S4096x64_1_0_0_1_n_n.lhsNonContracting by decide)]
  rfl
private theorem lhs_xw_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
/-- the right operand at (contracted position, column of the result). -/
private theorem rhs_xw_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
private theorem rhs_xw_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide),
    dif_pos (show (1 : Fin S128x64.rank) ∈ dot_S4096x128_S128x64_S4096x64_1_0_0_1_n_n.rhsNonContracting by decide)]
  rfl

/-- The projected features at an entry: the row of `x` against the column of `W`. -/
theorem proj_apply (x0 : Vec Ideal S4096x128 .f32) (x1 : Vec Ideal S128x64 .f32) (p : Fin 4096) (q : Fin 64) :
    k0_pay1 x0 x1 (ix2 p q) = ∑ k : Fin 128, x0 (ix2 p k) * x1 (ix2 k q) := by
  unfold k0_pay1
  simp only [matmul]
  rw [Ideal.matmul_constant_zero_apply,
    ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p q)
      ((contrEquiv1 dot_S4096x128_S128x64_S4096x64_1_0_0_1_n_n 128 rfl rfl).symm k) = ix2 p k :=
    funext fun a => Fin.ext (by
      match a with
      | ⟨0, _⟩ => exact lhs_xw_0 _ _
      | ⟨1, _⟩ => exact (lhs_xw_1 _ _).trans hk)
  have er : dot_S4096x128_S128x64_S4096x64_1_0_0_1_n_n.rhsIdx (ix2 p q)
      ((contrEquiv1 dot_S4096x128_S128x64_S4096x64_1_0_0_1_n_n 128 rfl rfl).symm k) = ix2 k q :=
    funext fun a => Fin.ext (by
      match a with
      | ⟨0, _⟩ => exact (rhs_xw_0 _ _).trans hk
      | ⟨1, _⟩ => exact rhs_xw_1 _ _)
  rw [el, er]

/-- `h · a[0:64]`: the left operand is read at (row of the result, contracted position), -/
private theorem lhs_ha_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl
private theorem lhs_ha_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
/-- the right operand at (contracted position, the result's one column). -/
private theorem rhs_ha_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
private theorem rhs_ha_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-- A column of 64 entries against the rows of a 4096 × 64 array, at an entry. -/
theorem col_apply (h : FVec Ideal S4096x64 .f32) (v : FVec Ideal S64x1 .f32) (p : Fin 4096) (z : Fin 1) :
    FloatOps.matmul dot_S4096x64_S64x1_S4096x1_1_0_0_1_n_n none h v (constant (F := Ideal) S4096x1 .f32 0x00000000#32) (ix2 p z)
      = ∑ k : Fin 64, h (ix2 p k) * v (ix2 k z) := by
  rw [Ideal.matmul_constant_zero_apply,
    ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 p z)
      ((contrEquiv1 dot_S4096x64_S64x1_S4096x1_1_0_0_1_n_n 64 rfl rfl).symm k) = ix2 p k :=
    funext fun a => Fin.ext (by
      match a with
      | ⟨0, _⟩ => exact lhs_ha_0 _ _
      | ⟨1, _⟩ => exact (lhs_ha_1 _ _).trans hk)
  have er : dot_S4096x64_S64x1_S4096x1_1_0_0_1_n_n.rhsIdx (ix2 p z)
      ((contrEquiv1 dot_S4096x64_S64x1_S4096x1_1_0_0_1_n_n 64 rfl rfl).symm k) = ix2 k z :=
    funext fun a => Fin.ext (by
      match a with
      | ⟨0, _⟩ => exact (rhs_ha_0 _ _).trans hk
      | ⟨1, _⟩ => exact rhs_ha_1 _ _)
  rw [el, er]

/-- `a[64:128]` against the feature axis of `h`: the left operand is read at (contracted position, the result's one row), -/
private theorem lhs_ah_0 (i : S1x4096.Idx) (q : dot_S64x1_S4096x64_S1x4096_0_1_1_0_n_n.contr.Idx) :
    (dot_S64x1_S4096x64_S1x4096_0_1_1_0_n_n.lhsIdx i q 0).val = (q ⟨0, by decide⟩).val :=
  dot_S64x1_S4096x64_S1x4096_0_1_1_0_n_n.lhsIdx_val_of_single rfl i q
private theorem lhs_ah_1 (i : S1x4096.Idx) (q : dot_S64x1_S4096x64_S1x4096_0_1_1_0_n_n.contr.Idx) :
    (dot_S64x1_S4096x64_S1x4096_0_1_1_0_n_n.lhsIdx i q 1).val = (i 0).val := by
  unfold DotDims.lhsIdx
  rw [dif_neg (show ¬(1 : Fin S64x1.rank) ∈ dot_S64x1_S4096x64_S1x4096_0_1_1_0_n_n.lhsBatch by decide),
    dif_pos (show (1 : Fin S64x1.rank) ∈ dot_S64x1_S4096x64_S1x4096_0_1_1_0_n_n.lhsNonContracting by decide)]
  rfl
/-- the right operand at (column of the result, contracted position). -/
private theorem rhs_ah_0 (i : S1x4096.Idx) (q : dot_S64x1_S4096x64_S1x4096_0_1_1_0_n_n.contr.Idx) :
    (dot_S64x1_S4096x64_S1x4096_0_1_1_0_n_n.rhsIdx i q 0).val = (i 1).val := by
  unfold DotDims.rhsIdx
  rw [dif_neg (show ¬(0 : Fin S4096x64.rank) ∈ dot_S64x1_S4096x64_S1x4096_0_1_1_0_n_n.rhsBatch by decide),
    dif_pos (show (0 : Fin S4096x64.rank) ∈ dot_S64x1_S4096x64_S1x4096_0_1_1_0_n_n.rhsNonContracting by decide)]
  rfl
private theorem rhs_ah_1 (i : S1x4096.Idx) (q : dot_S64x1_S4096x64_S1x4096_0_1_1_0_n_n.contr.Idx) :
    (dot_S64x1_S4096x64_S1x4096_0_1_1_0_n_n.rhsIdx i q 1).val = (q ⟨0, by decide⟩).val :=
  dot_S64x1_S4096x64_S1x4096_0_1_1_0_n_n.rhsIdx_val_of_single rfl i q

/-- A column of 64 entries contracted with the feature axis of a 4096 × 64 array, as a row, at an entry. -/
theorem row_apply (v : FVec Ideal S64x1 .f32) (h : FVec Ideal S4096x64 .f32) (z : Fin 1) (q : Fin 4096) :
    FloatOps.matmul dot_S64x1_S4096x64_S1x4096_0_1_1_0_n_n none v h (constant (F := Ideal) S1x4096 .f32 0x00000000#32) (ix2 z q)
      = ∑ k : Fin 64, v (ix2 k z) * h (ix2 q k) := by
  rw [Ideal.matmul_constant_zero_apply,
    ← Equiv.sum_comp (contrEquiv1 dot_S64x1_S4096x64_S1x4096_0_1_1_0_n_n 64 rfl rfl).symm]
  refine Finset.sum_congr rfl fun k _ => ?_
  have hk := contrEquiv1_symm_val dot_S64x1_S4096x64_S1x4096_0_1_1_0_n_n 64 rfl rfl k
  have el : dot_S64x1_S4096x64_S1x4096_0_1_1_0_n_n.lhsIdx (ix2 z q)
      ((contrEquiv1 dot_S64x1_S4096x64_S1x4096_0_1_1_0_n_n 64 rfl rfl).symm k) = ix2 k z :=
    funext fun a => Fin.ext (by
      match a with
      | ⟨0, _⟩ => exact (lhs_ah_0 _ _).trans hk
      | ⟨1, _⟩ => exact lhs_ah_1 _ _)
  have er : dot_S64x1_S4096x64_S1x4096_0_1_1_0_n_n.rhsIdx (ix2 z q)
      ((contrEquiv1 dot_S64x1_S4096x64_S1x4096_0_1_1_0_n_n 64 rfl rfl).symm k) = ix2 q k :=
    funext fun a => Fin.ext (by
      match a with
      | ⟨0, _⟩ => exact rhs_ah_0 _ _
      | ⟨1, _⟩ => exact (rhs_ah_1 _ _).trans hk)
  rw [el, er]

/-! ## The halves of the attention vector as the body loads them -/

/-- The first 64 entries of the 128 × 1 block. -/
theorem ld_lo (x2 : Vec Ideal S128x1 .f32) (k : Fin 64) (z : Fin 1) : View.ld x2 r0_3 (ix2 k z) = x2 (ix2 (Gat.lo k) (0 : Fin 1)) := by
  show x2 (r0_3.idx (ix2 k z)) = _
  congr 1
  funext a; apply Fin.ext
  match a with
  | ⟨0, _⟩ => show 0 + 1 * k.val = k.val; omega
  | ⟨1, _⟩ => show 0 + 1 * z.val = 0; omega

/-- The last 64. -/
theorem ld_hi (x2 : Vec Ideal S128x1 .f32) (k : Fin 64) (z : Fin 1) : View.ld x2 r0_5 (ix2 k z) = x2 (ix2 (Gat.hi k) (0 : Fin 1)) := by
  show x2 (r0_5.idx (ix2 k z)) = _
  congr 1
  funext a; apply Fin.ext
  match a with
  | ⟨0, _⟩ => show 64 + 1 * k.val = 64 + k.val; omega
  | ⟨1, _⟩ => show 0 + 1 * z.val = 0; omega

/-! ## The three payloads as the specification's functions of the blocks -/

/-- The projected features. -/
theorem feat_block (x0 : Vec Ideal S4096x128 .f32) (x1 : Vec Ideal S128x64 .f32) :
    (k0_pay1 x0 x1 : S4096x64.Idx → EReal) = Gat.arr2 (Gat.proj128 x0 x1) := by
  funext j
  obtain ⟨p, q, rfl⟩ : ∃ (p : Fin 4096) (q : Fin 64), j = ix2 p q := ⟨j 0, j 1, eq_ix2 j⟩
  rw [proj_apply, Gat.arr2_ix2]
  rfl

/-- The source terms. -/
theorem src_block (x0 : Vec Ideal S4096x128 .f32) (x1 : Vec Ideal S128x64 .f32) (x2 : Vec Ideal S128x1 .f32) :
    (k0_pay2 x0 x1 (View.ld x2 r0_3) : S4096x1.Idx → EReal) = Gat.srcCol (Gat.arr2 (Gat.proj128 x0 x1)) x2 := by
  funext j
  obtain ⟨p, z, rfl⟩ : ∃ (p : Fin 4096) (z : Fin 1), j = ix2 p z := ⟨j 0, j 1, eq_ix2 j⟩
  unfold k0_pay2
  simp only [matmul]
  rw [col_apply, feat_block]
  show _ = Gat.srcScore _ _ p
  unfold Gat.srcScore
  exact Finset.sum_congr rfl fun k _ => by rw [ld_lo]

/-- The destination terms. -/
theorem dst_block (x0 : Vec Ideal S4096x128 .f32) (x1 : Vec Ideal S128x64 .f32) (x2 : Vec Ideal S128x1 .f32) :
    (k0_pay3 x0 x1 (View.ld x2 r0_5) : S1x4096.Idx → EReal) = Gat.dstRow (Gat.arr2 (Gat.proj128 x0 x1)) x2 := by
  funext j
  obtain ⟨z, q, rfl⟩ : ∃ (z : Fin 1) (q : Fin 4096), j = ix2 z q := ⟨j 0, j 1, eq_ix2 j⟩
  unfold k0_pay3
  simp only [matmul]
  rw [row_apply, feat_block]
  show _ = Gat.dstScore _ _ q
  unfold Gat.dstScore
  exact Finset.sum_congr rfl fun k _ => by rw [ld_hi]

/-! ## From the one point's blocks to the arrays -/

theorem hz : (![0, 0] : Fin 2 → Nat) = fun _ => 0 := funext fun a => by fin_cases a <;> rfl

/-- Every window's block index is zero on both axes at the grid's one point (decided): each block is its whole array. -/
theorem idx_zero : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

/-- So an array read through a window's block is the array: the node features, -/
theorem read_blk0 (t : Fin cfg0.N) (G : S4096x128.Idx → EReal) : ((cfg0.win 0).blk t).view.read (Elt Ideal) G = G := by
  obtain ⟨⟨e0, e1⟩, -⟩ := idx_zero t
  have hz' : (fun a => win0_0.index t a * S4096x128.size a) = fun _ => 0 := funext fun a => by
    match a with
    | ⟨0, _⟩ => show win0_0.index t (0 : Fin 2) * 4096 = 0; omega
    | ⟨1, _⟩ => show win0_0.index t (1 : Fin 2) * 128 = 0; omega
  exact Memref.read_access_unit_zero (Elt Ideal) main_arg0 hz' _ G
/-- the weights, -/
theorem read_blk1 (t : Fin cfg0.N) (G : S128x64.Idx → EReal) : ((cfg0.win 1).blk t).view.read (Elt Ideal) G = G := by
  obtain ⟨-, ⟨e0, e1⟩, -⟩ := idx_zero t
  have hz' : (fun a => win0_1.index t a * S128x64.size a) = fun _ => 0 := funext fun a => by
    match a with
    | ⟨0, _⟩ => show win0_1.index t (0 : Fin 2) * 128 = 0; omega
    | ⟨1, _⟩ => show win0_1.index t (1 : Fin 2) * 64 = 0; omega
  exact Memref.read_access_unit_zero (Elt Ideal) main_arg2 hz' _ G
/-- the attention vector, -/
theorem read_blk2 (t : Fin cfg0.N) (G : S128x1.Idx → EReal) : ((cfg0.win 2).blk t).view.read (Elt Ideal) G = G := by
  obtain ⟨-, -, ⟨e0, e1⟩, -⟩ := idx_zero t
  have hz' : (fun a => win0_2.index t a * S128x1.size a) = fun _ => 0 := funext fun a => by
    match a with
    | ⟨0, _⟩ => show win0_2.index t (0 : Fin 2) * 128 = 0; omega
    | ⟨1, _⟩ => show win0_2.index t (1 : Fin 2) * 1 = 0; omega
  exact Memref.read_access_unit_zero (Elt Ideal) main_arg3 hz' _ G
/-- and the three results. -/
theorem read_blk3 (t : Fin cfg0.N) (G : S4096x64.Idx → EReal) : ((cfg0.win 3).blk t).view.read (Elt Ideal) G = G := by
  obtain ⟨-, -, -, ⟨e0, e1⟩, -⟩ := idx_zero t
  have hz' : (fun a => win0_3.index t a * S4096x64.size a) = fun _ => 0 := funext fun a => by
    match a with
    | ⟨0, _⟩ => show win0_3.index t (0 : Fin 2) * 4096 = 0; omega
    | ⟨1, _⟩ => show win0_3.index t (1 : Fin 2) * 64 = 0; omega
  exact Memref.read_access_unit_zero (Elt Ideal) main_call0_v0_0 hz' _ G
theorem read_blk4 (t : Fin cfg0.N) (G : S4096x1.Idx → EReal) : ((cfg0.win 4).blk t).view.read (Elt Ideal) G = G := by
  obtain ⟨-, -, -, -, ⟨e0, e1⟩, -⟩ := idx_zero t
  have hz' : (fun a => win0_4.index t a * S4096x1.size a) = fun _ => 0 := funext fun a => by
    match a with
    | ⟨0, _⟩ => show win0_4.index t (0 : Fin 2) * 4096 = 0; omega
    | ⟨1, _⟩ => show win0_4.index t (1 : Fin 2) * 1 = 0; omega
  exact Memref.read_access_unit_zero (Elt Ideal) main_call0_v0_1 hz' _ G
theorem read_blk5 (t : Fin cfg0.N) (G : S1x4096.Idx → EReal) : ((cfg0.win 5).blk t).view.read (Elt Ideal) G = G := by
  obtain ⟨-, -, -, -, -, e0, e1⟩ := idx_zero t
  have hz' : (fun a => win0_5.index t a * S1x4096.size a) = fun _ => 0 := funext fun a => by
    match a with
    | ⟨0, _⟩ => show win0_5.index t (0 : Fin 2) * 1 = 0; omega
    | ⟨1, _⟩ => show win0_5.index t (1 : Fin 2) * 4096 = 0; omega
  exact Memref.read_access_unit_zero (Elt Ideal) main_call0_v0_2 hz' _ G

/-- The input blocks at the point are the arrays the region found. -/
theorem iblk_x (c : Dev nD) (t : Fin cfg0.N) : (iblk0 V c 0 t : S4096x128.Idx → EReal) = V c main_arg0 := read_blk0 t _
theorem iblk_w (c : Dev nD) (t : Fin cfg0.N) : (iblk0 V c 1 t : S128x64.Idx → EReal) = V c main_arg2 := read_blk1 t _
theorem iblk_a (c : Dev nD) (t : Fin cfg0.N) : (iblk0 V c 2 t : S128x1.Idx → EReal) = V c main_arg3 := read_blk2 t _

/-- What the point writes back to the features' array is that array's specification, read through the block. -/
theorem flushed_feat (c : Dev nD) (t : Fin cfg0.N) :
    (dat0 V c).flushed 3 t
      = ((cfg0.win 3).blk t).view.read (Elt Ideal) (Gat.arr2 (Gat.proj128 (V c main_arg0) (V c main_arg2))) := by
  show (cfg0.win 3).cut (grid0.coords t) ((dat0 V c).after 3 t) = _
  rw [after0_3]
  unfold out0_3
  rw [View.canon_unit_zero hz]
  simp only [View.ld_unit_zero (S := S4096x128) hz, View.ld_unit_zero (S := S128x64) hz]
  rw [read_blk3]
  show (k0_pay1 (iblk0 V c 0 t) (iblk0 V c 1 t) : S4096x64.Idx → EReal) = _
  rw [iblk_x, iblk_w, feat_block]

/-- Likewise the column of source terms, -/
theorem flushed_src (c : Dev nD) (t : Fin cfg0.N) :
    (dat0 V c).flushed 4 t
      = ((cfg0.win 4).blk t).view.read (Elt Ideal)
          (Gat.srcCol (Gat.arr2 (Gat.proj128 (V c main_arg0) (V c main_arg2))) (V c main_arg3)) := by
  show (cfg0.win 4).cut (grid0.coords t) ((dat0 V c).after 4 t) = _
  rw [after0_4]
  unfold out0_4
  rw [View.canon_unit_zero hz]
  simp only [View.ld_unit_zero (S := S4096x128) hz, View.ld_unit_zero (S := S128x64) hz]
  rw [read_blk4]
  show (k0_pay2 (iblk0 V c 0 t) (iblk0 V c 1 t) (View.ld (iblk0 V c 2 t) r0_3) : S4096x1.Idx → EReal) = _
  rw [iblk_x, iblk_w, iblk_a, src_block]

/-- and the row of destination terms. -/
theorem flushed_dst (c : Dev nD) (t : Fin cfg0.N) :
    (dat0 V c).flushed 5 t
      = ((cfg0.win 5).blk t).view.read (Elt Ideal)
          (Gat.dstRow (Gat.arr2 (Gat.proj128 (V c main_arg0) (V c main_arg2))) (V c main_arg3)) := by
  show (cfg0.win 5).cut (grid0.coords t) ((dat0 V c).after 5 t) = _
  rw [after0_5]
  unfold out0_5
  rw [View.canon_unit_zero hz]
  simp only [View.ld_unit_zero (S := S4096x128) hz, View.ld_unit_zero (S := S128x64) hz]
  rw [read_blk5]
  show (k0_pay3 (iblk0 V c 0 t) (iblk0 V c 1 t) (View.ld (iblk0 V c 2 t) r0_5) : S1x4096.Idx → EReal) = _
  rw [iblk_x, iblk_w, iblk_a, dst_block]

/-- Every entry of each result array is in the one point's block. -/
theorem mem_blk3 (t : Fin cfg0.N) (i : S4096x64.Idx) : i ∈ ((cfg0.win 3).blk t).view.set := by
  obtain ⟨-, -, -, ⟨e0, e1⟩, -⟩ := idx_zero t
  show i ∈ ((View.whole main_call0_v0_0).slice (win0_3.rect t)).set
  rw [View.set_slice_whole, Rect.mem_set_unit]
  intro a
  match a with
  | ⟨0, _⟩ => show win0_3.index t (0 : Fin 2) * 4096 ≤ (i 0).val ∧ (i 0).val < win0_3.index t (0 : Fin 2) * 4096 + 4096
              have hi : (i 0).val < 4096 := (i 0).isLt; omega
  | ⟨1, _⟩ => show win0_3.index t (1 : Fin 2) * 64 ≤ (i 1).val ∧ (i 1).val < win0_3.index t (1 : Fin 2) * 64 + 64
              have hi : (i 1).val < 64 := (i 1).isLt; omega
theorem mem_blk4 (t : Fin cfg0.N) (i : S4096x1.Idx) : i ∈ ((cfg0.win 4).blk t).view.set := by
  obtain ⟨-, -, -, -, ⟨e0, e1⟩, -⟩ := idx_zero t
  show i ∈ ((View.whole main_call0_v0_1).slice (win0_4.rect t)).set
  rw [View.set_slice_whole, Rect.mem_set_unit]
  intro a
  match a with
  | ⟨0, _⟩ => show win0_4.index t (0 : Fin 2) * 4096 ≤ (i 0).val ∧ (i 0).val < win0_4.index t (0 : Fin 2) * 4096 + 4096
              have hi : (i 0).val < 4096 := (i 0).isLt; omega
  | ⟨1, _⟩ => show win0_4.index t (1 : Fin 2) * 1 ≤ (i 1).val ∧ (i 1).val < win0_4.index t (1 : Fin 2) * 1 + 1
              have hi : (i 1).val < 1 := (i 1).isLt; omega
theorem mem_blk5 (t : Fin cfg0.N) (i : S1x4096.Idx) : i ∈ ((cfg0.win 5).blk t).view.set := by
  obtain ⟨-, -, -, -, -, e0, e1⟩ := idx_zero t
  show i ∈ ((View.whole main_call0_v0_2).slice (win0_5.rect t)).set
  rw [View.set_slice_whole, Rect.mem_set_unit]
  intro a
  match a with
  | ⟨0, _⟩ => show win0_5.index t (0 : Fin 2) * 1 ≤ (i 0).val ∧ (i 0).val < win0_5.index t (0 : Fin 2) * 1 + 1
              have hi : (i 0).val < 1 := (i 0).isLt; omega
  | ⟨1, _⟩ => show win0_5.index t (1 : Fin 2) * 4096 ≤ (i 1).val ∧ (i 1).val < win0_5.index t (1 : Fin 2) * 4096 + 4096
              have hi : (i 1).val < 4096 := (i 1).isLt; omega

/-- The projected features. -/
theorem feat (c : Dev nD) : (dat0 V c).arrAt 3 cfg0.N = Gat.arr2 (Gat.proj128 (V c main_arg0) (V c main_arg2)) :=
  (dat0 V c).arrAt_eq_of_cover 3 _ (fun t _ => flushed_feat V c t) fun i => ⟨t0_0, flush0_3 t0_0, mem_blk3 t0_0 i⟩

/-- The source terms, a column. -/
theorem src (c : Dev nD) :
    (dat0 V c).arrAt 4 cfg0.N = Gat.srcCol (Gat.arr2 (Gat.proj128 (V c main_arg0) (V c main_arg2))) (V c main_arg3) :=
  (dat0 V c).arrAt_eq_of_cover 4 _ (fun t _ => flushed_src V c t) fun i => ⟨t0_0, flush0_4 t0_0, mem_blk4 t0_0 i⟩

/-- The destination terms, a row. -/
theorem dst (c : Dev nD) :
    (dat0 V c).arrAt 5 cfg0.N = Gat.dstRow (Gat.arr2 (Gat.proj128 (V c main_arg0) (V c main_arg2))) (V c main_arg3) :=
  (dat0 V c).arrAt_eq_of_cover 5 _ (fun t _ => flushed_dst V c t) fun i => ⟨t0_0, flush0_5 t0_0, mem_blk5 t0_0 i⟩

end Cert.KernelIdeal.Prep1

end
-- ==== Proof.KernelPrep2.lean ====
/-
  The second projection region read as whole arrays: from layer one's output `x`, the weights `W` and the attention
  vector `a` as the region finds them, its three output arrays end at `x · W`, at the column of source terms and at the
  row of destination terms of that product.
-/
import proofs.«141706_g69887707840728_cont_9to1c4b_820_3_alg».proof.Proof.Gen.KernelIdeal.Frame
import proofs.«141706_g69887707840728_cont_9to1c4b_820_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Prep2

open Cert.KernelIdeal Cert.KernelIdeal.Gen Cert.Gat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

open scoped BigOperators

/-! ## The three matrix products at an entry

Each product contracts one axis: its entry is the sum over that axis's coordinate of the left operand's entry times the
right operand's. Per product: the operand indices' coordinates, then the sum re-indexed from the one-axis contraction
index to its coordinate. -/

/-! ### `x · W`: rows of 64 against a 64 × 64 matrix -/

private theorem lhsW_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
private theorem lhsW_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
private theorem rhsW_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
private theorem rhsW_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- The projection at an entry: 64 terms. -/
private theorem proj_apply (v0 : Vec Ideal S4096x64 .f32) (v2 : Vec Ideal S64x64 .f32) (p : Fin 4096) (q : Fin 64) :
    k2_pay1 (F := Ideal) v0 v2 (ix2 p q) = ∑ k : Fin 64, v0 (ix2 p k) * v2 (ix2 k q) := by
  unfold k2_pay1
  rw [shapeCast_self]
  refine (Ideal.matmul_constant_zero_apply dot_S4096x64_S64x64_S4096x64_1_0_0_1_n_n none v0 v2 (ix2 p q)).trans ?_
  rw [← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q)
      ((contrEquiv1 dot_S4096x64_S64x64_S4096x64_1_0_0_1_n_n 64 rfl rfl).symm k) = ix2 p k :=
    funext fun a => Fin.ext (by
      match a with
      | ⟨0, _⟩ => exact lhsW_0 _ _
      | ⟨1, _⟩ => exact (lhsW_1 _ _).trans hk)
  have er : dot_S4096x64_S64x64_S4096x64_1_0_0_1_n_n.rhsIdx (ix2 p q)
      ((contrEquiv1 dot_S4096x64_S64x64_S4096x64_1_0_0_1_n_n 64 rfl rfl).symm k) = ix2 k q :=
    funext fun a => Fin.ext (by
      match a with
      | ⟨0, _⟩ => exact (rhsW_0 _ _).trans hk
      | ⟨1, _⟩ => exact rhsW_1 _ _)
  rw [el, er]

/-! ### `h · a_src`: rows of 64 against a column of 64 -/

private theorem lhsS_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl
private theorem lhsS_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
private theorem rhsS_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
private theorem rhsS_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-- The column of source terms at an entry: the projected row against the column. -/
private theorem srcProd_apply (v0 : Vec Ideal S4096x64 .f32) (v2 : Vec Ideal S64x64 .f32) (v5 : Vec Ideal S64x1 .f32)
    (p : Fin 4096) (z : Fin 1) :
    k2_pay2 (F := Ideal) v0 v2 v5 (ix2 p z) = ∑ k : Fin 64, k2_pay1 (F := Ideal) v0 v2 (ix2 p k) * v5 (ix2 k z) := by
  unfold k2_pay2
  refine (Ideal.matmul_constant_zero_apply dot_S4096x64_S64x1_S4096x1_1_0_0_1_n_n none (k2_pay1 (F := Ideal) v0 v2) v5
    (ix2 p z)).trans ?_
  rw [← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 p z)
      ((contrEquiv1 dot_S4096x64_S64x1_S4096x1_1_0_0_1_n_n 64 rfl rfl).symm k) = ix2 p k :=
    funext fun a => Fin.ext (by
      match a with
      | ⟨0, _⟩ => exact lhsS_0 _ _
      | ⟨1, _⟩ => exact (lhsS_1 _ _).trans hk)
  have er : dot_S4096x64_S64x1_S4096x1_1_0_0_1_n_n.rhsIdx (ix2 p z)
      ((contrEquiv1 dot_S4096x64_S64x1_S4096x1_1_0_0_1_n_n 64 rfl rfl).symm k) = ix2 k z :=
    funext fun a => Fin.ext (by
      match a with
      | ⟨0, _⟩ => exact (rhsS_0 _ _).trans hk
      | ⟨1, _⟩ => exact rhsS_1 _ _)
  rw [el, er]

/-! ### `a_dstᵀ · hᵀ`: a column of 64, contracted along its rows, against rows of 64, contracted along their columns -/

private theorem lhsD_0 (i : S1x4096.Idx) (q : dot_S64x1_S4096x64_S1x4096_0_1_1_0_n_n.contr.Idx) :
    (dot_S64x1_S4096x64_S1x4096_0_1_1_0_n_n.lhsIdx i q 0).val = (q ⟨0, by decide⟩).val :=
  dot_S64x1_S4096x64_S1x4096_0_1_1_0_n_n.lhsIdx_val_of_single rfl i q
private theorem lhsD_1 (i : S1x4096.Idx) (q : dot_S64x1_S4096x64_S1x4096_0_1_1_0_n_n.contr.Idx) :
    (dot_S64x1_S4096x64_S1x4096_0_1_1_0_n_n.lhsIdx i q 1).val = (i 0).val := by
  unfold DotDims.lhsIdx
  rw [dif_neg (show ¬(1 : Fin S64x1.rank) ∈ dot_S64x1_S4096x64_S1x4096_0_1_1_0_n_n.lhsBatch by decide),
    dif_pos (show (1 : Fin S64x1.rank) ∈ dot_S64x1_S4096x64_S1x4096_0_1_1_0_n_n.lhsNonContracting by decide)]
  rfl
private theorem rhsD_0 (i : S1x4096.Idx) (q : dot_S64x1_S4096x64_S1x4096_0_1_1_0_n_n.contr.Idx) :
    (dot_S64x1_S4096x64_S1x4096_0_1_1_0_n_n.rhsIdx i q 0).val = (i 1).val := by
  unfold DotDims.rhsIdx
  rw [dif_neg (show ¬(0 : Fin S4096x64.rank) ∈ dot_S64x1_S4096x64_S1x4096_0_1_1_0_n_n.rhsBatch by decide),
    dif_pos (show (0 : Fin S4096x64.rank) ∈ dot_S64x1_S4096x64_S1x4096_0_1_1_0_n_n.rhsNonContracting by decide)]
  rfl
private theorem rhsD_1 (i : S1x4096.Idx) (q : dot_S64x1_S4096x64_S1x4096_0_1_1_0_n_n.contr.Idx) :
    (dot_S64x1_S4096x64_S1x4096_0_1_1_0_n_n.rhsIdx i q 1).val = (q ⟨0, by decide⟩).val :=
  dot_S64x1_S4096x64_S1x4096_0_1_1_0_n_n.rhsIdx_val_of_single rfl i q

/-- The row of destination terms at an entry: the column against the projected row. -/
private theorem dstProd_apply (v0 : Vec Ideal S4096x64 .f32) (v2 : Vec Ideal S64x64 .f32) (v8 : Vec Ideal S64x1 .f32)
    (z : Fin 1) (q : Fin 4096) :
    k2_pay3 (F := Ideal) v0 v2 v8 (ix2 z q) = ∑ k : Fin 64, v8 (ix2 k z) * k2_pay1 (F := Ideal) v0 v2 (ix2 q k) := by
  unfold k2_pay3
  refine (Ideal.matmul_constant_zero_apply dot_S64x1_S4096x64_S1x4096_0_1_1_0_n_n none v8 (k2_pay1 (F := Ideal) v0 v2)
    (ix2 z q)).trans ?_
  rw [← Equiv.sum_comp (contrEquiv1 dot_S64x1_S4096x64_S1x4096_0_1_1_0_n_n 64 rfl rfl).symm]
  refine Finset.sum_congr rfl fun k _ => ?_
  have hk := contrEquiv1_symm_val dot_S64x1_S4096x64_S1x4096_0_1_1_0_n_n 64 rfl rfl k
  have el : dot_S64x1_S4096x64_S1x4096_0_1_1_0_n_n.lhsIdx (ix2 z q)
      ((contrEquiv1 dot_S64x1_S4096x64_S1x4096_0_1_1_0_n_n 64 rfl rfl).symm k) = ix2 k z :=
    funext fun a => Fin.ext (by
      match a with
      | ⟨0, _⟩ => exact (lhsD_0 _ _).trans hk
      | ⟨1, _⟩ => exact lhsD_1 _ _)
  have er : dot_S64x1_S4096x64_S1x4096_0_1_1_0_n_n.rhsIdx (ix2 z q)
      ((contrEquiv1 dot_S64x1_S4096x64_S1x4096_0_1_1_0_n_n 64 rfl rfl).symm k) = ix2 q k :=
    funext fun a => Fin.ext (by
      match a with
      | ⟨0, _⟩ => exact rhsD_0 _ _
      | ⟨1, _⟩ => exact (rhsD_1 _ _).trans hk)
  rw [el, er]

/-! ## From the one block to the arrays

The region's grid has one point, and every window's block there is its whole array. -/

/-- The zero offsets of a whole-buffer access, as the constant function. -/
private theorem zeroOffsets : (![0, 0] : Fin 2 → Nat) = fun _ => 0 := funext fun a => by fin_cases a <;> rfl

/-- The windows' index maps over the grid: every block index is zero on both axes. -/
private theorem blockIndices : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-- The grid's one point. -/
private def thePoint : Fin cfg2.N := ⟨0, lt_of_lt_of_eq Nat.zero_lt_one N_2.symm⟩

/-- The input features' window is the whole array. -/
private theorem x_block (c : Dev nD) (t : Fin cfg2.N) (p : Fin 4096) (k : Fin 64) :
    (iblk2 V c 0 t : Vec Ideal S4096x64 .f32) (ix2 p k) = (V c main_v0_1 : S4096x64.Idx → EReal) (ix2 p k) := by
  obtain ⟨i0, i1, -⟩ := blockIndices t
  unfold iblk2
  rw [View.read_apply]
  show V c main_v0_1 _ = V c main_v0_1 _
  congr 1
  funext a
  apply Fin.ext
  match a with
  | ⟨0, _⟩ => show win2_0.index t (0 : Fin 2) * 4096 + 1 * p.val = p.val; rw [i0]; omega
  | ⟨1, _⟩ => show win2_0.index t (1 : Fin 2) * 64 + 1 * k.val = k.val; rw [i1]; omega

/-- The weights' window is the whole matrix. -/
private theorem w_block (c : Dev nD) (t : Fin cfg2.N) (k : Fin 64) (q : Fin 64) :
    (iblk2 V c 1 t : Vec Ideal S64x64 .f32) (ix2 k q) = (V c main_arg4 : S64x64.Idx → EReal) (ix2 k q) := by
  obtain ⟨-, -, i0, i1, -⟩ := blockIndices t
  unfold iblk2
  rw [View.read_apply]
  show V c main_arg4 _ = V c main_arg4 _
  congr 1
  funext a
  apply Fin.ext
  match a with
  | ⟨0, _⟩ => show win2_1.index t (0 : Fin 2) * 64 + 1 * k.val = k.val; rw [i0]; omega
  | ⟨1, _⟩ => show win2_1.index t (1 : Fin 2) * 64 + 1 * q.val = q.val; rw [i1]; omega

/-- The attention vector's window is the whole column. -/
private theorem a_block (c : Dev nD) (t : Fin cfg2.N) (k : Fin 128) (z : Fin 1) :
    (iblk2 V c 2 t : Vec Ideal S128x1 .f32) (ix2 k z) = (V c main_arg5 : S128x1.Idx → EReal) (ix2 k z) := by
  obtain ⟨-, -, -, -, i0, i1, -⟩ := blockIndices t
  unfold iblk2
  rw [View.read_apply]
  show V c main_arg5 _ = V c main_arg5 _
  congr 1
  funext a
  apply Fin.ext
  match a with
  | ⟨0, _⟩ => show win2_2.index t (0 : Fin 2) * 128 + 1 * k.val = k.val; rw [i0]; omega
  | ⟨1, _⟩ => show win2_2.index t (1 : Fin 2) * 1 + 1 * z.val = z.val; rw [i1]; omega

/-- The load of rows 0 … 63 of the attention vector reads its first half. -/
private theorem ld_lo (x2 : Vec Ideal S128x1 .f32) (k : Fin 64) :
    (View.ld x2 r2_2 : Vec Ideal S64x1 .f32) (ix2 k (0 : Fin 1)) = x2 (ix2 (Gat.lo k) (0 : Fin 1)) := by
  show x2 (r2_2.emb (ix2 k (0 : Fin 1))) = _
  congr 1
  funext a
  apply Fin.ext
  match a with
  | ⟨0, _⟩ => rw [Rect.emb_apply]; show 0 + 1 * k.val = k.val; omega
  | ⟨1, _⟩ => rw [Rect.emb_apply]; rfl

/-- The load of rows 64 … 127 reads its second half. -/
private theorem ld_hi (x2 : Vec Ideal S128x1 .f32) (k : Fin 64) :
    (View.ld x2 r2_4 : Vec Ideal S64x1 .f32) (ix2 k (0 : Fin 1)) = x2 (ix2 (Gat.hi k) (0 : Fin 1)) := by
  show x2 (r2_4.emb (ix2 k (0 : Fin 1))) = _
  congr 1
  funext a
  apply Fin.ext
  match a with
  | ⟨0, _⟩ => rw [Rect.emb_apply]; show 64 + 1 * k.val = 64 + k.val; omega
  | ⟨1, _⟩ => rw [Rect.emb_apply]; rfl

/-- One entry of the projection, from blocks that are the whole arrays. -/
private theorem feat_entry (x0 : Vec Ideal S4096x64 .f32) (x1 : Vec Ideal S64x64 .f32)
    (x : S4096x64.Idx → EReal) (W : S64x64.Idx → EReal) (p : Fin 4096) (q : Fin 64)
    (e0 : ∀ k : Fin 64, x0 (ix2 p k) = x (ix2 p k)) (e1 : ∀ k : Fin 64, x1 (ix2 k q) = W (ix2 k q)) :
    k2_pay1 (F := Ideal) x0 x1 (ix2 p q) = Gat.arr2 (Gat.proj64 x W) (ix2 p q) := by
  rw [proj_apply]
  show _ = ∑ k : Fin 64, x (ix2 p k) * W (ix2 k q)
  exact Finset.sum_congr rfl fun k _ => by rw [e0, e1]

/-- One source term: the projected row of node `p` against the first half of the attention vector. -/
private theorem src_entry (x0 : Vec Ideal S4096x64 .f32) (x1 : Vec Ideal S64x64 .f32) (x2 : Vec Ideal S128x1 .f32)
    (x : S4096x64.Idx → EReal) (W : S64x64.Idx → EReal) (a : S128x1.Idx → EReal) (p : Fin 4096)
    (e0 : ∀ k : Fin 64, x0 (ix2 p k) = x (ix2 p k)) (e1 : ∀ k q : Fin 64, x1 (ix2 k q) = W (ix2 k q))
    (e2 : ∀ k : Fin 128, x2 (ix2 k (0 : Fin 1)) = a (ix2 k (0 : Fin 1))) :
    k2_pay2 (F := Ideal) x0 x1 (View.ld x2 r2_2) (ix2 p (0 : Fin 1))
      = Gat.srcCol (Gat.arr2 (Gat.proj64 x W)) a (ix2 p (0 : Fin 1)) := by
  rw [srcProd_apply]
  show _ = ∑ k : Fin 64, Gat.arr2 (Gat.proj64 x W) (ix2 p k) * a (ix2 (Gat.lo k) (0 : Fin 1))
  refine Finset.sum_congr rfl fun k _ => ?_
  rw [feat_entry x0 x1 x W p k e0 (fun k' => e1 k' k), ld_lo, e2]

/-- One destination term: the second half of the attention vector against the projected row of node `q`. -/
private theorem dst_entry (x0 : Vec Ideal S4096x64 .f32) (x1 : Vec Ideal S64x64 .f32) (x2 : Vec Ideal S128x1 .f32)
    (x : S4096x64.Idx → EReal) (W : S64x64.Idx → EReal) (a : S128x1.Idx → EReal) (q : Fin 4096)
    (e0 : ∀ k : Fin 64, x0 (ix2 q k) = x (ix2 q k)) (e1 : ∀ k k' : Fin 64, x1 (ix2 k k') = W (ix2 k k'))
    (e2 : ∀ k : Fin 128, x2 (ix2 k (0 : Fin 1)) = a (ix2 k (0 : Fin 1))) :
    k2_pay3 (F := Ideal) x0 x1 (View.ld x2 r2_4) (ix2 (0 : Fin 1) q)
      = Gat.dstRow (Gat.arr2 (Gat.proj64 x W)) a (ix2 (0 : Fin 1) q) := by
  rw [dstProd_apply]
  show _ = ∑ k : Fin 64, a (ix2 (Gat.hi k) (0 : Fin 1)) * Gat.arr2 (Gat.proj64 x W) (ix2 q k)
  refine Finset.sum_congr rfl fun k _ => ?_
  rw [feat_entry x0 x1 x W q k e0 (fun k' => e1 k' k), ld_hi, e2]

/-- What the point writes back to the features' array is the projection, read through its one block. -/
private theorem feat_flushed (c : Dev nD) (t : Fin cfg2.N) :
    (dat2 V c).flushed 3 t = ((cfg2.win 3).blk t).view.read (Elt Ideal)
      (Gat.arr2 (Gat.proj64 (V c main_v0_1) (V c main_arg4))) := by
  show (cfg2.win 3).cut (grid2.coords t) ((dat2 V c).after 3 t) = _
  rw [after2_3]
  unfold out2_3
  rw [View.canon_unit_zero zeroOffsets]
  simp only [View.ld_unit_zero (S := S4096x64) zeroOffsets, View.ld_unit_zero (S := S64x64) zeroOffsets]
  obtain ⟨-, -, -, -, -, -, i0, i1, -⟩ := blockIndices t
  funext y
  obtain ⟨p, q, rfl⟩ : ∃ (p : Fin 4096) (q : Fin 64), y = ix2 p q := ⟨y 0, y 1, eq_ix2 y⟩
  have hemb : (((cfg2.win 3).blk t).view.emb (ix2 p q) : S4096x64.Idx) = ix2 p q := by
    funext a
    apply Fin.ext
    match a with
    | ⟨0, _⟩ => show win2_3.index t (0 : Fin 2) * 4096 + 1 * p.val = p.val; rw [i0]; omega
    | ⟨1, _⟩ => show win2_3.index t (1 : Fin 2) * 64 + 1 * q.val = q.val; rw [i1]; omega
  show k2_pay1 (F := Ideal) (iblk2 V c 0 t) (iblk2 V c 1 t) (ix2 p q)
    = Gat.arr2 (Gat.proj64 (V c main_v0_1) (V c main_arg4)) (((cfg2.win 3).blk t).view.emb (ix2 p q))
  rw [hemb]
  exact feat_entry _ _ _ _ p q (fun k => x_block V c t p k) (fun k => w_block V c t k q)

/-- What the point writes back to the source terms' array is the column of source terms. -/
private theorem src_flushed (c : Dev nD) (t : Fin cfg2.N) :
    (dat2 V c).flushed 4 t = ((cfg2.win 4).blk t).view.read (Elt Ideal)
      (Gat.srcCol (Gat.arr2 (Gat.proj64 (V c main_v0_1) (V c main_arg4))) (V c main_arg5)) := by
  show (cfg2.win 4).cut (grid2.coords t) ((dat2 V c).after 4 t) = _
  rw [after2_4]
  unfold out2_4
  rw [View.canon_unit_zero zeroOffsets]
  simp only [View.ld_unit_zero (S := S4096x64) zeroOffsets, View.ld_unit_zero (S := S64x64) zeroOffsets]
  obtain ⟨-, -, -, -, -, -, -, -, i0, i1, -⟩ := blockIndices t
  funext y
  obtain ⟨p, z, rfl⟩ : ∃ (p : Fin 4096) (z : Fin 1), y = ix2 p z := ⟨y 0, y 1, eq_ix2 y⟩
  obtain rfl : z = 0 := Subsingleton.elim _ _
  have hemb : (((cfg2.win 4).blk t).view.emb (ix2 p (0 : Fin 1)) : S4096x1.Idx) = ix2 p (0 : Fin 1) := by
    funext a
    apply Fin.ext
    match a with
    | ⟨0, _⟩ => show win2_4.index t (0 : Fin 2) * 4096 + 1 * p.val = p.val; rw [i0]; omega
    | ⟨1, _⟩ => show win2_4.index t (1 : Fin 2) * 1 + 1 * 0 = 0; rw [i1]
  show k2_pay2 (F := Ideal) (iblk2 V c 0 t) (iblk2 V c 1 t) (View.ld (iblk2 V c 2 t) r2_2) (ix2 p (0 : Fin 1))
    = Gat.srcCol (Gat.arr2 (Gat.proj64 (V c main_v0_1) (V c main_arg4))) (V c main_arg5)
        (((cfg2.win 4).blk t).view.emb (ix2 p (0 : Fin 1)))
  rw [hemb]
  exact src_entry _ _ _ _ _ _ p (fun k => x_block V c t p k) (fun k q => w_block V c t k q)
    (fun k => a_block V c t k 0)

/-- What the point writes back to the destination terms' array is the row of destination terms. -/
private theorem dst_flushed (c : Dev nD) (t : Fin cfg2.N) :
    (dat2 V c).flushed 5 t = ((cfg2.win 5).blk t).view.read (Elt Ideal)
      (Gat.dstRow (Gat.arr2 (Gat.proj64 (V c main_v0_1) (V c main_arg4))) (V c main_arg5)) := by
  show (cfg2.win 5).cut (grid2.coords t) ((dat2 V c).after 5 t) = _
  rw [after2_5]
  unfold out2_5
  rw [View.canon_unit_zero zeroOffsets]
  simp only [View.ld_unit_zero (S := S4096x64) zeroOffsets, View.ld_unit_zero (S := S64x64) zeroOffsets]
  obtain ⟨-, -, -, -, -, -, -, -, -, -, i0, i1⟩ := blockIndices t
  funext y
  obtain ⟨z, q, rfl⟩ : ∃ (z : Fin 1) (q : Fin 4096), y = ix2 z q := ⟨y 0, y 1, eq_ix2 y⟩
  obtain rfl : z = 0 := Subsingleton.elim _ _
  have hemb : (((cfg2.win 5).blk t).view.emb (ix2 (0 : Fin 1) q) : S1x4096.Idx) = ix2 (0 : Fin 1) q := by
    funext a
    apply Fin.ext
    match a with
    | ⟨0, _⟩ => show win2_5.index t (0 : Fin 2) * 1 + 1 * 0 = 0; rw [i0]
    | ⟨1, _⟩ => show win2_5.index t (1 : Fin 2) * 4096 + 1 * q.val = q.val; rw [i1]; omega
  show k2_pay3 (F := Ideal) (iblk2 V c 0 t) (iblk2 V c 1 t) (View.ld (iblk2 V c 2 t) r2_4) (ix2 (0 : Fin 1) q)
    = Gat.dstRow (Gat.arr2 (Gat.proj64 (V c main_v0_1) (V c main_arg4))) (V c main_arg5)
        (((cfg2.win 5).blk t).view.emb (ix2 (0 : Fin 1) q))
  rw [hemb]
  exact dst_entry _ _ _ _ _ _ q (fun k => x_block V c t q k) (fun k k' => w_block V c t k k')
    (fun k => a_block V c t k 0)

/-- The one block covers the features' array. -/
private theorem feat_covered (i : S4096x64.Idx) :
    ∃ t : Fin cfg2.N, (cfg2.win 3).flush t = true ∧ i ∈ ((cfg2.win 3).blk t).view.set := by
  have hi0 : (i 0).val < 4096 := (i 0).isLt
  have hi1 : (i 1).val < 64 := (i 1).isLt
  obtain ⟨-, -, -, -, -, -, i0, i1, -⟩ := blockIndices thePoint
  refine ⟨thePoint, flush2_3 thePoint, ?_⟩
  show i ∈ ((View.whole main_call0_v2_0).slice (win2_3.rect thePoint)).set
  rw [View.set_slice_whole, Rect.mem_set_unit]
  intro a
  match a with
  | ⟨0, _⟩ =>
    show win2_3.index thePoint (0 : Fin 2) * 4096 ≤ (i 0).val ∧ (i 0).val < win2_3.index thePoint (0 : Fin 2) * 4096 + 4096
    rw [i0]; omega
  | ⟨1, _⟩ =>
    show win2_3.index thePoint (1 : Fin 2) * 64 ≤ (i 1).val ∧ (i 1).val < win2_3.index thePoint (1 : Fin 2) * 64 + 64
    rw [i1]; omega

/-- The one block covers the source terms' array. -/
private theorem src_covered (i : S4096x1.Idx) :
    ∃ t : Fin cfg2.N, (cfg2.win 4).flush t = true ∧ i ∈ ((cfg2.win 4).blk t).view.set := by
  have hi0 : (i 0).val < 4096 := (i 0).isLt
  have hi1 : (i 1).val < 1 := (i 1).isLt
  obtain ⟨-, -, -, -, -, -, -, -, i0, i1, -⟩ := blockIndices thePoint
  refine ⟨thePoint, flush2_4 thePoint, ?_⟩
  show i ∈ ((View.whole main_call0_v2_1).slice (win2_4.rect thePoint)).set
  rw [View.set_slice_whole, Rect.mem_set_unit]
  intro a
  match a with
  | ⟨0, _⟩ =>
    show win2_4.index thePoint (0 : Fin 2) * 4096 ≤ (i 0).val ∧ (i 0).val < win2_4.index thePoint (0 : Fin 2) * 4096 + 4096
    rw [i0]; omega
  | ⟨1, _⟩ =>
    show win2_4.index thePoint (1 : Fin 2) * 1 ≤ (i 1).val ∧ (i 1).val < win2_4.index thePoint (1 : Fin 2) * 1 + 1
    rw [i1]; omega

/-- The one block covers the destination terms' array. -/
private theorem dst_covered (i : S1x4096.Idx) :
    ∃ t : Fin cfg2.N, (cfg2.win 5).flush t = true ∧ i ∈ ((cfg2.win 5).blk t).view.set := by
  have hi0 : (i 0).val < 1 := (i 0).isLt
  have hi1 : (i 1).val < 4096 := (i 1).isLt
  obtain ⟨-, -, -, -, -, -, -, -, -, -, i0, i1⟩ := blockIndices thePoint
  refine ⟨thePoint, flush2_5 thePoint, ?_⟩
  show i ∈ ((View.whole main_call0_v2_2).slice (win2_5.rect thePoint)).set
  rw [View.set_slice_whole, Rect.mem_set_unit]
  intro a
  match a with
  | ⟨0, _⟩ =>
    show win2_5.index thePoint (0 : Fin 2) * 1 ≤ (i 0).val ∧ (i 0).val < win2_5.index thePoint (0 : Fin 2) * 1 + 1
    rw [i0]; omega
  | ⟨1, _⟩ =>
    show win2_5.index thePoint (1 : Fin 2) * 4096 ≤ (i 1).val ∧ (i 1).val < win2_5.index thePoint (1 : Fin 2) * 4096 + 4096
    rw [i1]; omega

/-- The projected features. -/
theorem feat (c : Dev nD) : (dat2 V c).arrAt 3 cfg2.N = Gat.arr2 (Gat.proj64 (V c main_v0_1) (V c main_arg4)) := by
  exact (dat2 V c).arrAt_eq_of_cover 3 _ (fun t _ => feat_flushed V c t) feat_covered

/-- The source terms, a column. -/
theorem src (c : Dev nD) :
    (dat2 V c).arrAt 4 cfg2.N = Gat.srcCol (Gat.arr2 (Gat.proj64 (V c main_v0_1) (V c main_arg4))) (V c main_arg5) := by
  exact (dat2 V c).arrAt_eq_of_cover 4 _ (fun t _ => src_flushed V c t) src_covered

/-- The destination terms, a row. -/
theorem dst (c : Dev nD) :
    (dat2 V c).arrAt 5 cfg2.N = Gat.dstRow (Gat.arr2 (Gat.proj64 (V c main_v0_1) (V c main_arg4))) (V c main_arg5) := by
  exact (dat2 V c).arrAt_eq_of_cover 5 _ (fun t _ => dst_flushed V c t) dst_covered

end Cert.KernelIdeal.Prep2

end
-- ==== Proof.AttBlock.lean ====
/-
  The attention block both layer kernels compute on a block of 256 rows: from the block's source terms (a column), the
  destination terms (a row) and the block of the adjacency matrix, entry (r, q) is the softmax, along row r, of the masked
  leaky logits. Read here at an entry, on the extended reals.
-/
import proofs.«141706_g69887707840728_cont_9to1c4b_820_3_alg».proof.Proof.Gen.KernelIdeal.Skeleton
import proofs.«141706_g69887707840728_cont_9to1c4b_820_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.AttBlock

open Cert.KernelIdeal Cert.KernelIdeal.Gen Cert.Gat
open Idealize.ShloMosaic Idealize.ShloMosaic.ValueIdx

/-! ## The layout operations of the block, read at an entry -/

/-- A vector of 256 entries cast to a column reads, at row r, entry r. -/
private theorem col_cast_apply {α : Type} (x : S256.Idx → α) (h : S256.ShapeCasts S256x1) (r : Fin 256) (c : Fin 1) :
    shapeCast S256x1 x h (ix2 r c) = x (ix1 r) :=
  shapeCast_apply x h _ _ (by
    have hc : c.val = 0 := by omega
    rw [Shape.rowMajor_val_two, Shape.rowMajor_val_one]
    show r.val = r.val * 1 + c.val
    rw [hc, Nat.mul_one, Nat.add_zero])

/-- A column broadcast along the rows reads, at (r, q), the column's entry r. -/
private theorem col_bcast_apply {α : Type} (x : S256x1.Idx → α) (h : S256x1.Broadcasts S256x4096) (r : Fin 256) (q : Fin 4096) :
    broadcastTo S256x4096 x h (ix2 r q) = x (ix2 r (0 : Fin 1)) := by
  refine broadcastTo_apply x h (ix2 r q) (ix2 r (0 : Fin 1)) fun ax => ?_
  match ax with
  | ⟨0, _⟩ => rfl
  | ⟨1, _⟩ => rfl

/-- A row broadcast down the columns reads, at (r, q), the row's entry q. -/
private theorem row_bcast_apply {α : Type} (x : S1x4096.Idx → α) (h : S1x4096.Broadcasts S256x4096) (r : Fin 256) (q : Fin 4096) :
    broadcastTo S256x4096 x h (ix2 r q) = x (ix2 (0 : Fin 1) q) :=
  broadcastTo_1b_ab_apply x h r q

/-- The index over row r with column j inserted is (r, j). -/
private theorem lift_row (h : S256x4096.Reduces [1] S256) (r : Fin 256) (j : Fin 4096) :
    h.lift (ix1 r) j = ix2 r j := by
  funext c
  refine Fin.ext ?_
  match c with
  | ⟨0, _⟩ => rfl
  | ⟨1, _⟩ => rfl

/-- The maximum over the columns, at row r, is the row's maximum folded from minus infinity. -/
private theorem rowmax_apply (z : FVec Ideal S256x4096 .f32) (h : S256x4096.Reduces [1] S256) (hφ : FKind.Formats .f32)
    (hacc : (0xFF800000#32 : BitVec 32) = FKind.maximumf.neutral .f32 hφ) (r : Fin 256) :
    multiReduction (F := Ideal) .maximumf [1] S256 z 0xFF800000#32 h hφ hacc (ix1 r) = Gat.rowMax fun j => z (ix2 r j) := by
  refine (Ideal.multiReduction_maximumf_single z _ h hφ hacc (ix1 r)).trans ?_
  have e : (z ∘ h.lift (ix1 r)) = fun j : Fin 4096 => z (ix2 r j) := funext fun j => congrArg z (lift_row h r j)
  rw [e]
  rfl

/-- The sum over the columns, at row r, is the row's sum. -/
private theorem rowsum_apply (z : FVec Ideal S256x4096 .f32) (h : S256x4096.Reduces [1] S256) (hφ : FKind.Formats .f32)
    (hacc : (0x00000000#32 : BitVec 32) = FKind.add.neutral .f32 hφ) (r : Fin 256) :
    multiReduction (F := Ideal) .add [1] S256 z 0x00000000#32 h hφ hacc (ix1 r) = ∑ j : Fin 4096, z (ix2 r j) := by
  refine (Ideal.multiReduction_add_single z _ h hφ hacc (ix1 r)).trans ?_
  exact Finset.sum_congr rfl fun j _ => congrArg z (lift_row h r j)

/-! ## The logits of the block -/

/-- The block's masked leaky logits: the source column plus the destination row, rectified with slope 0.2, kept where the
    adjacency entry is positive and replaced by the large negative stand-in elsewhere. -/
private def blockLogits (v0 : FVec Ideal S256x1 .f32) (v2 : FVec Ideal S1x4096 .f32) (v12 : FVec Ideal S256x4096 .f32)
    (c1 : S256x1.ShapeCasts S256x1) (c2 : S1x4096.ShapeCasts S1x4096)
    (b1 : S256x1.Broadcasts S256x4096) (b2 : S1x4096.Broadcasts S256x4096) : FVec Ideal S256x4096 .f32 :=
  select (cmpf .ogt v12 (broadcast S256x4096 (Scalar.ofBits (F := Ideal) .f32 0x00000000#32)))
    (select
      (cmpf .oge (addf (broadcastTo S256x4096 (shapeCast S256x1 v0 c1) b1) (broadcastTo S256x4096 (shapeCast S1x4096 v2 c2) b2))
        (broadcast S256x4096 (Scalar.ofBits (F := Ideal) .f32 0x00000000#32)))
      (addf (broadcastTo S256x4096 (shapeCast S256x1 v0 c1) b1) (broadcastTo S256x4096 (shapeCast S1x4096 v2 c2) b2))
      (mulf (addf (broadcastTo S256x4096 (shapeCast S256x1 v0 c1) b1) (broadcastTo S256x4096 (shapeCast S1x4096 v2 c2) b2))
        (broadcast S256x4096 (Scalar.ofBits (F := Ideal) .f32 0x3E4CCCCD#32))))
    (broadcast S256x4096 (Scalar.ofBits (F := Ideal) .f32 0xD9FFCB9E#32))

/-- Entry (r, j) of the logits block is the logit of the adjacency entry, row r's source term and column j's destination
    term. -/
private theorem blockLogits_apply (v0 : FVec Ideal S256x1 .f32) (v2 : FVec Ideal S1x4096 .f32) (v12 : FVec Ideal S256x4096 .f32)
    (c1 : S256x1.ShapeCasts S256x1) (c2 : S1x4096.ShapeCasts S1x4096)
    (b1 : S256x1.Broadcasts S256x4096) (b2 : S1x4096.Broadcasts S256x4096) (r : Fin 256) (j : Fin 4096) :
    blockLogits v0 v2 v12 c1 c2 b1 b2 (ix2 r j)
      = Gat.logitEntry (v12 (ix2 r j)) (v0 (ix2 r (0 : Fin 1))) (v2 (ix2 (0 : Fin 1) j)) := by
  have es : (addf (broadcastTo S256x4096 (shapeCast S256x1 v0 c1) b1) (broadcastTo S256x4096 (shapeCast S1x4096 v2 c2) b2)) (ix2 r j)
      = v0 (ix2 r (0 : Fin 1)) + v2 (ix2 (0 : Fin 1) j) := by
    rw [addf_apply, col_bcast_apply, row_bcast_apply, shapeCast_self, shapeCast_self]
  unfold blockLogits Gat.logitEntry Gat.leaky
  rw [select_apply, select_apply, cmpf_apply, cmpf_apply, mulf_apply, es]
  rfl

/-! ## The row softmax of a block -/

/-- The exponential of a block at an entry is the exponential of the entry. -/
private theorem exp_apply (x : FVec Ideal S256x4096 .f32) (i : S256x4096.Idx) : exp x i = Ideal.exp (x i) := rfl

/-- A block's entries less their row's maximum, exponentiated. -/
private def expShift (z : FVec Ideal S256x4096 .f32) (hr : S256x4096.Reduces [1] S256) (hφ : FKind.Formats .f32)
    (hm : (0xFF800000#32 : BitVec 32) = FKind.maximumf.neutral .f32 hφ) (hc : S256.ShapeCasts S256x1)
    (hb : S256x1.Broadcasts S256x4096) : FVec Ideal S256x4096 .f32 :=
  exp (subf z (broadcastTo S256x4096
    (shapeCast S256x1 (multiReduction (F := Ideal) .maximumf [1] S256 z 0xFF800000#32 hr hφ hm) hc) hb))

private theorem expShift_apply (z : FVec Ideal S256x4096 .f32) (hr : S256x4096.Reduces [1] S256) (hφ : FKind.Formats .f32)
    (hm : (0xFF800000#32 : BitVec 32) = FKind.maximumf.neutral .f32 hφ) (hc : S256.ShapeCasts S256x1)
    (hb : S256x1.Broadcasts S256x4096) (r : Fin 256) (j : Fin 4096) :
    expShift z hr hφ hm hc hb (ix2 r j) = Ideal.exp (z (ix2 r j) - Gat.rowMax fun k => z (ix2 r k)) := by
  unfold expShift
  rw [exp_apply, subf_apply, col_bcast_apply, col_cast_apply, rowmax_apply]

/-- The exponentials over their row sums. -/
private def softmaxBlock (z : FVec Ideal S256x4096 .f32) (hr : S256x4096.Reduces [1] S256) (hφ : FKind.Formats .f32)
    (hm : (0xFF800000#32 : BitVec 32) = FKind.maximumf.neutral .f32 hφ)
    (ha : (0x00000000#32 : BitVec 32) = FKind.add.neutral .f32 hφ) (hc : S256.ShapeCasts S256x1)
    (hb : S256x1.Broadcasts S256x4096) : FVec Ideal S256x4096 .f32 :=
  divf (expShift z hr hφ hm hc hb) (broadcastTo S256x4096
    (shapeCast S256x1 (multiReduction (F := Ideal) .add [1] S256 (expShift z hr hφ hm hc hb) 0x00000000#32 hr hφ ha) hc) hb)

/-- Entry (r, q) of the softmax block is the softmax of row r at q. -/
private theorem softmaxBlock_apply (z : FVec Ideal S256x4096 .f32) (hr : S256x4096.Reduces [1] S256) (hφ : FKind.Formats .f32)
    (hm : (0xFF800000#32 : BitVec 32) = FKind.maximumf.neutral .f32 hφ)
    (ha : (0x00000000#32 : BitVec 32) = FKind.add.neutral .f32 hφ) (hc : S256.ShapeCasts S256x1)
    (hb : S256x1.Broadcasts S256x4096) (r : Fin 256) (q : Fin 4096) :
    softmaxBlock z hr hφ hm ha hc hb (ix2 r q) = Gat.softmaxRow (fun j => z (ix2 r j)) q := by
  unfold softmaxBlock Gat.softmaxRow
  rw [divf_apply, col_bcast_apply, col_cast_apply, rowsum_apply, expShift_apply]
  exact congrArg _ (Finset.sum_congr rfl fun j _ => expShift_apply z hr hφ hm hc hb r j)

/-! ## The attention block -/

/-- Entry (r, q) of the attention block: the row softmax of the block's logits. -/
theorem att_apply (v0 : Vec Ideal S256x1 .f32) (v2 : Vec Ideal S1x4096 .f32) (v12 : Vec Ideal S256x4096 .f32)
    (r : Fin 256) (q : Fin 4096) :
    k3_pay1 (F := Ideal) v0 v2 v12 (ix2 r q)
      = Gat.softmaxRow (fun j => Gat.logitEntry (v12 (ix2 r j)) (v0 (ix2 r (0 : Fin 1))) (v2 (ix2 (0 : Fin 1) j))) q := by
  have e : k3_pay1 (F := Ideal) v0 v2 v12
      = softmaxBlock (blockLogits v0 v2 v12 shapeCasts_S256x1_S256x1 shapeCasts_S1x4096_S1x4096 broadcasts_S256x1_S256x4096
          broadcasts_S1x4096_S256x4096) reduces_S256x4096_S256 (.inl rfl) rfl rfl shapeCasts_S256_S256x1
          broadcasts_S256x1_S256x4096 := rfl
  refine (congrFun e (ix2 r q)).trans ((softmaxBlock_apply _ _ _ _ _ _ _ r q).trans ?_)
  exact congrArg (fun z => Gat.softmaxRow z q) (funext fun j => blockLogits_apply v0 v2 v12 _ _ _ _ r j)

/-! ## The two products, read at an entry

Each contracts one axis: the left operand's columns against the right operand's rows. The operand indices at an output
entry and a contraction position are read axis by axis, then the sum is re-indexed by the contraction coordinate. -/

/-- Row axis of the left operand: the output's row. -/
private theorem lhs_agg_0 (i : S256x64.Idx) (k : dot_S256x4096_S4096x64_S256x64_1_0_0_1_n_n.contr.Idx) :
    (dot_S256x4096_S4096x64_S256x64_1_0_0_1_n_n.lhsIdx i k 0).val = (i 0).val := by
  unfold DotDims.lhsIdx
  rw [dif_neg (show ¬(0 : Fin S256x4096.rank) ∈ dot_S256x4096_S4096x64_S256x64_1_0_0_1_n_n.lhsBatch by decide),
    dif_pos (show (0 : Fin S256x4096.rank) ∈ dot_S256x4096_S4096x64_S256x64_1_0_0_1_n_n.lhsNonContracting by decide)]
  rfl

/-- Column axis of the left operand: the contraction position. -/
private theorem lhs_agg_1 (i : S256x64.Idx) (k : dot_S256x4096_S4096x64_S256x64_1_0_0_1_n_n.contr.Idx) :
    (dot_S256x4096_S4096x64_S256x64_1_0_0_1_n_n.lhsIdx i k 1).val = (k ⟨0, by decide⟩).val :=
  dot_S256x4096_S4096x64_S256x64_1_0_0_1_n_n.lhsIdx_val_of_single rfl i k

/-- Row axis of the right operand: the contraction position. -/
private theorem rhs_agg_0 (i : S256x64.Idx) (k : dot_S256x4096_S4096x64_S256x64_1_0_0_1_n_n.contr.Idx) :
    (dot_S256x4096_S4096x64_S256x64_1_0_0_1_n_n.rhsIdx i k 0).val = (k ⟨0, by decide⟩).val :=
  dot_S256x4096_S4096x64_S256x64_1_0_0_1_n_n.rhsIdx_val_of_single rfl i k

/-- Column axis of the right operand: the output's column. -/
private theorem rhs_agg_1 (i : S256x64.Idx) (k : dot_S256x4096_S4096x64_S256x64_1_0_0_1_n_n.contr.Idx) :
    (dot_S256x4096_S4096x64_S256x64_1_0_0_1_n_n.rhsIdx i k 1).val = (i 1).val := by
  unfold DotDims.rhsIdx
  rw [dif_neg (show ¬(1 : Fin S4096x64.rank) ∈ dot_S256x4096_S4096x64_S256x64_1_0_0_1_n_n.rhsBatch by decide),
    dif_pos (show (1 : Fin S4096x64.rank) ∈ dot_S256x4096_S4096x64_S256x64_1_0_0_1_n_n.rhsNonContracting by decide)]
  rfl

/-- A 256×4096 block times 4096×64 features, from zero: entry (r, q) is the sum over the 4096 columns. -/
private theorem agg_apply (A : FVec Ideal S256x4096 .f32) (B : FVec Ideal S4096x64 .f32) (r : Fin 256) (q : Fin 64) :
    matmul dot_S256x4096_S4096x64_S256x64_1_0_0_1_n_n none A B (constant (F := Ideal) S256x64 .f32 0x00000000#32) (ix2 r q)
      = ∑ k : Fin 4096, A (ix2 r k) * B (ix2 k q) := by
  refine (Ideal.matmul_constant_zero_apply dot_S256x4096_S4096x64_S256x64_1_0_0_1_n_n none A B (ix2 r q)).trans ?_
  rw [← Equiv.sum_comp (contrEquiv1 dot_S256x4096_S4096x64_S256x64_1_0_0_1_n_n 4096 rfl rfl).symm]
  refine Finset.sum_congr rfl fun k _ => ?_
  have hk := contrEquiv1_symm_val dot_S256x4096_S4096x64_S256x64_1_0_0_1_n_n 4096 rfl rfl k
  have el : dot_S256x4096_S4096x64_S256x64_1_0_0_1_n_n.lhsIdx (ix2 r q) ((contrEquiv1 dot_S256x4096_S4096x64_S256x64_1_0_0_1_n_n 4096 rfl rfl).symm k) = ix2 r k :=
    funext fun a => Fin.ext (by
      match a with
      | ⟨0, _⟩ => exact lhs_agg_0 _ _
      | ⟨1, _⟩ => exact (lhs_agg_1 _ _).trans hk)
  have er : dot_S256x4096_S4096x64_S256x64_1_0_0_1_n_n.rhsIdx (ix2 r q) ((contrEquiv1 dot_S256x4096_S4096x64_S256x64_1_0_0_1_n_n 4096 rfl rfl).symm k) = ix2 k q :=
    funext fun a => Fin.ext (by
      match a with
      | ⟨0, _⟩ => exact (rhs_agg_0 _ _).trans hk
      | ⟨1, _⟩ => exact rhs_agg_1 _ _)
  rw [el, er]

/-- Row axis of the left operand: the output's row. -/
private theorem lhs_cls_0 (i : S256x64.Idx) (k : dot_S256x64_S64x64_S256x64_1_0_0_1_n_n.contr.Idx) :
    (dot_S256x64_S64x64_S256x64_1_0_0_1_n_n.lhsIdx i k 0).val = (i 0).val := by
  unfold DotDims.lhsIdx
  rw [dif_neg (show ¬(0 : Fin S256x64.rank) ∈ dot_S256x64_S64x64_S256x64_1_0_0_1_n_n.lhsBatch by decide),
    dif_pos (show (0 : Fin S256x64.rank) ∈ dot_S256x64_S64x64_S256x64_1_0_0_1_n_n.lhsNonContracting by decide)]
  rfl

/-- Column axis of the left operand: the contraction position. -/
private theorem lhs_cls_1 (i : S256x64.Idx) (k : dot_S256x64_S64x64_S256x64_1_0_0_1_n_n.contr.Idx) :
    (dot_S256x64_S64x64_S256x64_1_0_0_1_n_n.lhsIdx i k 1).val = (k ⟨0, by decide⟩).val :=
  dot_S256x64_S64x64_S256x64_1_0_0_1_n_n.lhsIdx_val_of_single rfl i k

/-- Row axis of the right operand: the contraction position. -/
private theorem rhs_cls_0 (i : S256x64.Idx) (k : dot_S256x64_S64x64_S256x64_1_0_0_1_n_n.contr.Idx) :
    (dot_S256x64_S64x64_S256x64_1_0_0_1_n_n.rhsIdx i k 0).val = (k ⟨0, by decide⟩).val :=
  dot_S256x64_S64x64_S256x64_1_0_0_1_n_n.rhsIdx_val_of_single rfl i k

/-- Column axis of the right operand: the output's column. -/
private theorem rhs_cls_1 (i : S256x64.Idx) (k : dot_S256x64_S64x64_S256x64_1_0_0_1_n_n.contr.Idx) :
    (dot_S256x64_S64x64_S256x64_1_0_0_1_n_n.rhsIdx i k 1).val = (i 1).val := by
  unfold DotDims.rhsIdx
  rw [dif_neg (show ¬(1 : Fin S64x64.rank) ∈ dot_S256x64_S64x64_S256x64_1_0_0_1_n_n.rhsBatch by decide),
    dif_pos (show (1 : Fin S64x64.rank) ∈ dot_S256x64_S64x64_S256x64_1_0_0_1_n_n.rhsNonContracting by decide)]
  rfl

/-- A 256×64 block times a 64×64 matrix, from zero: entry (r, q) is the sum over the 64 columns. -/
private theorem cls_apply (A : FVec Ideal S256x64 .f32) (B : FVec Ideal S64x64 .f32) (r : Fin 256) (q : Fin 64) :
    matmul dot_S256x64_S64x64_S256x64_1_0_0_1_n_n none A B (constant (F := Ideal) S256x64 .f32 0x00000000#32) (ix2 r q)
      = ∑ k : Fin 64, A (ix2 r k) * B (ix2 k q) := by
  refine (Ideal.matmul_constant_zero_apply dot_S256x64_S64x64_S256x64_1_0_0_1_n_n none A B (ix2 r q)).trans ?_
  rw [← Equiv.sum_comp (contrEquiv1 dot_S256x64_S64x64_S256x64_1_0_0_1_n_n 64 rfl rfl).symm]
  refine Finset.sum_congr rfl fun k _ => ?_
  have hk := contrEquiv1_symm_val dot_S256x64_S64x64_S256x64_1_0_0_1_n_n 64 rfl rfl k
  have el : dot_S256x64_S64x64_S256x64_1_0_0_1_n_n.lhsIdx (ix2 r q) ((contrEquiv1 dot_S256x64_S64x64_S256x64_1_0_0_1_n_n 64 rfl rfl).symm k) = ix2 r k :=
    funext fun a => Fin.ext (by
      match a with
      | ⟨0, _⟩ => exact lhs_cls_0 _ _
      | ⟨1, _⟩ => exact (lhs_cls_1 _ _).trans hk)
  have er : dot_S256x64_S64x64_S256x64_1_0_0_1_n_n.rhsIdx (ix2 r q) ((contrEquiv1 dot_S256x64_S64x64_S256x64_1_0_0_1_n_n 64 rfl rfl).symm k) = ix2 k q :=
    funext fun a => Fin.ext (by
      match a with
      | ⟨0, _⟩ => exact (rhs_cls_0 _ _).trans hk
      | ⟨1, _⟩ => exact rhs_cls_1 _ _)
  rw [el, er]

/-! ## The two layers' payloads -/

/-- Layer one's payload is the rectified product of that block with the features. -/
theorem pay_layer1 (v0 : Vec Ideal S256x1 .f32) (v2 : Vec Ideal S1x4096 .f32) (v12 : Vec Ideal S256x4096 .f32)
    (v26 : Vec Ideal S4096x64 .f32) (r : Fin 256) (q : Fin 64) :
    k1_pay1 (F := Ideal) v0 v2 v12 v26 (ix2 r q)
      = max (∑ j : Fin 4096, k3_pay1 (F := Ideal) v0 v2 v12 (ix2 r j) * v26 (ix2 j q)) (Ideal.ofBits .f32 0x00000000#32) := by
  have e : k1_pay1 (F := Ideal) v0 v2 v12 v26
      = maximumf (matmul dot_S256x4096_S4096x64_S256x64_1_0_0_1_n_n none (k3_pay1 (F := Ideal) v0 v2 v12)
            (shapeCast S4096x64 v26 shapeCasts_S4096x64_S4096x64) (constant (F := Ideal) S256x64 .f32 0x00000000#32))
          (broadcast S256x64 (Scalar.ofBits (F := Ideal) .f32 0x00000000#32)) := rfl
  have hB : shapeCast S4096x64 v26 shapeCasts_S4096x64_S4096x64 = v26 := shapeCast_self _ _
  refine (congrFun e (ix2 r q)).trans ?_
  rw [hB]
  exact congrArg (fun x => max x (Ideal.ofBits .f32 0x00000000#32)) (agg_apply _ v26 r q)

/-- Layer two's second payload is the product of that block with the features, through the classifier, plus the bias. -/
theorem pay_layer2 (v0 : Vec Ideal S256x1 .f32) (v2 : Vec Ideal S1x4096 .f32) (v12 : Vec Ideal S256x4096 .f32)
    (v27 : Vec Ideal S4096x64 .f32) (v30 : Vec Ideal S64x64 .f32) (v32 : Vec Ideal S1x64 .f32) (r : Fin 256) (q : Fin 64) :
    k3_pay2 (F := Ideal) v0 v2 v12 v27 v30 v32 (ix2 r q)
      = (∑ k : Fin 64, (∑ j : Fin 4096, k3_pay1 (F := Ideal) v0 v2 v12 (ix2 r j) * v27 (ix2 j k)) * v30 (ix2 k q))
        + v32 (ix2 (0 : Fin 1) q) := by
  have e : k3_pay2 (F := Ideal) v0 v2 v12 v27 v30 v32
      = addf (matmul dot_S256x64_S64x64_S256x64_1_0_0_1_n_n none
            (matmul dot_S256x4096_S4096x64_S256x64_1_0_0_1_n_n none (k3_pay1 (F := Ideal) v0 v2 v12)
              (shapeCast S4096x64 v27 shapeCasts_S4096x64_S4096x64) (constant (F := Ideal) S256x64 .f32 0x00000000#32))
            v30 (constant (F := Ideal) S256x64 .f32 0x00000000#32))
          (broadcastTo S256x64 v32 broadcasts_S1x64_S256x64) := rfl
  have hB : shapeCast S4096x64 v27 shapeCasts_S4096x64_S4096x64 = v27 := shapeCast_self _ _
  refine (congrFun e (ix2 r q)).trans ?_
  rw [hB, addf_apply, broadcastTo_1b_ab_apply]
  refine congrArg (· + v32 (ix2 (0 : Fin 1) q)) ((cls_apply _ v30 r q).trans ?_)
  exact Finset.sum_congr rfl fun k _ => congrArg (· * v30 (ix2 k q)) (agg_apply _ v27 r k)

end Cert.KernelIdeal.AttBlock

end
-- ==== Proof.KernelLayer1.lean ====
/-
  The first attention region read as a whole array: sixteen blocks of 256 rows, each the rectified product of its rows'
  attention coefficients with the projected features; together the layer's output.
-/
import proofs.«141706_g69887707840728_cont_9to1c4b_820_3_alg».proof.Proof.Gen.KernelIdeal.Frame
import proofs.«141706_g69887707840728_cont_9to1c4b_820_3_alg».proof.Proof.Spec
import proofs.«141706_g69887707840728_cont_9to1c4b_820_3_alg».proof.Proof.AttBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer1

open Cert.KernelIdeal Cert.KernelIdeal.Gen Cert.Gat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of a whole-buffer access, as the constant function. -/
private theorem zeroOffsets : (![0, 0] : Fin 2 → Nat) = fun _ => 0 := funext fun a => by fin_cases a <;> rfl

/-- The grid has sixteen points. -/
private theorem point_lt (t : Fin cfg1.N) : t.val < 16 := by
  exact lt_of_lt_of_eq t.isLt N_1

/-- Row `r` of the block of point `t` is row `256 t + r` of the graph. -/
private def nodeOf (t : Fin cfg1.N) (r : Fin 256) : Fin 4096 := ⟨256 * t.val + r.val, by have := point_lt t; omega⟩

/-- The windows' index maps over the sixteen points: the adjacency block, the block of source terms and the output block are
    the point's own block of rows; the features and the row of destination terms are whole at every point. -/
private theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One entry of a block of rows. When row `r` of the adjacency block is row `p` of the adjacency matrix, the block's source
    term at `r` is node `p`'s, and the features and the destination terms are the whole arrays, entry `(r, q)` of the block's
    rectified product is the layer's output at `(p, q)`: the two rows of logits agree entry by entry, so their softmax rows do. -/
private theorem block_entry (x0 : Vec Ideal S256x4096 .f32) (x1 : Vec Ideal S4096x64 .f32) (x2 : Vec Ideal S256x1 .f32)
    (x3 : Vec Ideal S1x4096 .f32)
    (adj : S4096x4096.Idx → EReal) (h : S4096x64.Idx → EReal) (f1 : S4096x1.Idx → EReal) (f2 : S1x4096.Idx → EReal)
    (r : Fin 256) (p : Fin 4096) (q : Fin 64)
    (e0 : ∀ j : Fin 4096, x0 (ix2 r j) = adj (ix2 p j))
    (e1 : ∀ j : Fin 4096, x1 (ix2 j q) = h (ix2 j q))
    (e2 : x2 (ix2 r (0 : Fin 1)) = f1 (ix2 p (0 : Fin 1)))
    (e3 : ∀ j : Fin 4096, x3 (ix2 (0 : Fin 1) j) = f2 (ix2 (0 : Fin 1) j)) :
    k1_pay1 (F := Ideal) x2 x3 x0 x1 (ix2 r q) = Gat.hidden adj h f1 f2 (ix2 p q) := by
  rw [AttBlock.pay_layer1]
  show _ = max (∑ j : Fin 4096, Gat.softmaxRow (Gat.logitRow adj f1 f2 p) j * h (ix2 j q)) _
  have hrow : (fun j => Gat.logitEntry (x0 (ix2 r j)) (x2 (ix2 r (0 : Fin 1))) (x3 (ix2 (0 : Fin 1) j)))
      = Gat.logitRow adj f1 f2 p := by
    funext j
    rw [e0, e2, e3]
    rfl
  refine congrArg (fun s => max s _) (Finset.sum_congr rfl fun j _ => ?_)
  rw [AttBlock.att_apply, hrow, e1]

/-- The adjacency block of point `t`, at `(r, j)`, is the adjacency matrix at `(256 t + r, j)`. -/
private theorem adj_block (c : Dev nD) (t : Fin cfg1.N) (r : Fin 256) (j : Fin 4096) :
    (iblk1 V c 0 t : Vec Ideal S256x4096 .f32) (ix2 r j) = (V c main_arg1 : S4096x4096.Idx → EReal) (ix2 (nodeOf t r) j) := by
  obtain ⟨a0, a1, -⟩ := blockIndices t
  unfold iblk1
  rw [View.read_apply]
  show V c main_arg1 _ = V c main_arg1 _
  congr 1
  funext a
  apply Fin.ext
  match a with
  | ⟨0, _⟩ => show win1_0.index t (0 : Fin 2) * 256 + 1 * r.val = 256 * t.val + r.val; rw [a0]; omega
  | ⟨1, _⟩ => show win1_0.index t (1 : Fin 2) * 4096 + 1 * j.val = j.val; rw [a1]; omega

/-- The features' window is the whole array at every point. -/
private theorem feat_block (c : Dev nD) (t : Fin cfg1.N) (j : Fin 4096) (q : Fin 64) :
    (iblk1 V c 1 t : Vec Ideal S4096x64 .f32) (ix2 j q) = (V c main_call0_v0_0 : S4096x64.Idx → EReal) (ix2 j q) := by
  obtain ⟨-, -, b0, b1, -⟩ := blockIndices t
  unfold iblk1
  rw [View.read_apply]
  show V c main_call0_v0_0 _ = V c main_call0_v0_0 _
  congr 1
  funext a
  apply Fin.ext
  match a with
  | ⟨0, _⟩ => show win1_1.index t (0 : Fin 2) * 4096 + 1 * j.val = j.val; rw [b0]; omega
  | ⟨1, _⟩ => show win1_1.index t (1 : Fin 2) * 64 + 1 * q.val = q.val; rw [b1]; omega

/-- The block of source terms of point `t`, at row `r`, is the source term of node `256 t + r`. -/
private theorem src_block (c : Dev nD) (t : Fin cfg1.N) (r : Fin 256) :
    (iblk1 V c 2 t : Vec Ideal S256x1 .f32) (ix2 r (0 : Fin 1))
      = (V c main_call0_v0_1 : S4096x1.Idx → EReal) (ix2 (nodeOf t r) (0 : Fin 1)) := by
  obtain ⟨-, -, -, -, c0, c1, -⟩ := blockIndices t
  unfold iblk1
  rw [View.read_apply]
  show V c main_call0_v0_1 _ = V c main_call0_v0_1 _
  congr 1
  funext a
  apply Fin.ext
  match a with
  | ⟨0, _⟩ => show win1_2.index t (0 : Fin 2) * 256 + 1 * r.val = 256 * t.val + r.val; rw [c0]; omega
  | ⟨1, _⟩ => show win1_2.index t (1 : Fin 2) * 1 + 1 * 0 = 0; rw [c1]

/-- The destination terms' window is the whole row at every point. -/
private theorem dst_block (c : Dev nD) (t : Fin cfg1.N) (j : Fin 4096) :
    (iblk1 V c 3 t : Vec Ideal S1x4096 .f32) (ix2 (0 : Fin 1) j)
      = (V c main_call0_v0_2 : S1x4096.Idx → EReal) (ix2 (0 : Fin 1) j) := by
  obtain ⟨-, -, -, -, -, -, d0, d1, -⟩ := blockIndices t
  unfold iblk1
  rw [View.read_apply]
  show V c main_call0_v0_2 _ = V c main_call0_v0_2 _
  congr 1
  funext a
  apply Fin.ext
  match a with
  | ⟨0, _⟩ => show win1_3.index t (0 : Fin 2) * 1 + 1 * 0 = 0; rw [d0]
  | ⟨1, _⟩ => show win1_3.index t (1 : Fin 2) * 4096 + 1 * j.val = j.val; rw [d1]; omega

/-- What point `t` writes back is its block of rows of the layer's output. -/
private theorem flushed_eq (c : Dev nD) (t : Fin cfg1.N) :
    (dat1 V c).flushed 4 t = ((cfg1.win 4).blk t).view.read (Elt Ideal)
      (Gat.hidden (V c main_arg1) (V c main_call0_v0_0) (V c main_call0_v0_1) (V c main_call0_v0_2)) := by
  show (cfg1.win 4).cut (grid1.coords t) ((dat1 V c).after 4 t) = _
  rw [after1_4]
  unfold out1_4
  rw [View.canon_unit_zero zeroOffsets]
  simp only [View.ld_unit_zero (S := S256x4096) zeroOffsets, View.ld_unit_zero (S := S4096x64) zeroOffsets,
    View.ld_unit_zero (S := S256x1) zeroOffsets, View.ld_unit_zero (S := S1x4096) zeroOffsets]
  obtain ⟨-, -, -, -, -, -, -, -, o0, o1⟩ := blockIndices t
  funext y
  obtain ⟨r, q, rfl⟩ : ∃ (r : Fin 256) (q : Fin 64), y = ix2 r q := ⟨y 0, y 1, eq_ix2 y⟩
  have hemb : (((cfg1.win 4).blk t).view.emb (ix2 r q) : S4096x64.Idx) = ix2 (nodeOf t r) q := by
    funext a
    apply Fin.ext
    match a with
    | ⟨0, _⟩ => show win1_4.index t (0 : Fin 2) * 256 + 1 * r.val = 256 * t.val + r.val; rw [o0]; omega
    | ⟨1, _⟩ => show win1_4.index t (1 : Fin 2) * 64 + 1 * q.val = q.val; rw [o1]; omega
  show k1_pay1 (F := Ideal) (iblk1 V c 2 t) (iblk1 V c 3 t) (iblk1 V c 0 t) (iblk1 V c 1 t) (ix2 r q)
    = Gat.hidden (V c main_arg1) (V c main_call0_v0_0) (V c main_call0_v0_1) (V c main_call0_v0_2)
        (((cfg1.win 4).blk t).view.emb (ix2 r q))
  rw [hemb]
  exact block_entry _ _ _ _ _ _ _ _ r (nodeOf t r) q (fun j => adj_block V c t r j) (fun j => feat_block V c t j q)
    (src_block V c t r) (fun j => dst_block V c t j)

/-- An index of the output array is in point `t`'s block iff each coordinate is in the block's range on its axis. -/
private theorem mem_blk (t : Fin cfg1.N) (i : S4096x64.Idx) :
    i ∈ ((cfg1.win 4).blk t).view.set ↔ ∀ a : Fin 2, win1_4.index t a * S256x64.size a ≤ (i a).val
      ∧ (i a).val < win1_4.index t a * S256x64.size a + S256x64.size a := by
  show i ∈ ((View.whole main_v0_1).slice (win1_4.rect t)).set ↔ _
  rw [View.set_slice_whole, Rect.mem_set_unit]
  exact Iff.rfl

/-- Every row of the output is in the block of the point its node number divided by 256 names. -/
private theorem covered (i : S4096x64.Idx) :
    ∃ t : Fin cfg1.N, (cfg1.win 4).flush t = true ∧ i ∈ ((cfg1.win 4).blk t).view.set := by
  have hi0 : (i 0).val < 4096 := (i 0).isLt
  have hi1 : (i 1).val < 64 := (i 1).isLt
  have hN : cfg1.N = 16 := N_1
  let t : Fin cfg1.N := ⟨(i 0).val / 256, by rw [hN]; omega⟩
  obtain ⟨-, -, -, -, -, -, -, -, o0, o1⟩ := blockIndices t
  have ht : t.val = (i 0).val / 256 := rfl
  refine ⟨t, flush1_4 t, ?_⟩
  rw [mem_blk]
  intro a
  match a with
  | ⟨0, _⟩ =>
    show win1_4.index t (0 : Fin 2) * 256 ≤ (i 0).val ∧ (i 0).val < win1_4.index t (0 : Fin 2) * 256 + 256
    rw [o0, ht]; omega
  | ⟨1, _⟩ =>
    show win1_4.index t (1 : Fin 2) * 64 ≤ (i 1).val ∧ (i 1).val < win1_4.index t (1 : Fin 2) * 64 + 64
    rw [o1]; omega

/-- Layer one's output array. -/
theorem out (c : Dev nD) :
    (dat1 V c).arrAt 4 cfg1.N
      = Gat.hidden (V c main_arg1) (V c main_call0_v0_0) (V c main_call0_v0_1) (V c main_call0_v0_2) := by
  exact (dat1 V c).arrAt_eq_of_cover 4 _ (fun t _ => flushed_eq V c t) covered

end Cert.KernelIdeal.Layer1

end
-- ==== Proof.KernelLayer2.lean ====
/-
  The second attention region read as whole arrays: sixteen blocks of 256 rows; the attention matrix itself, and the
  class scores (the rows' attention coefficients times the projected features, through the classifier, plus the bias).
-/
import proofs.«141706_g69887707840728_cont_9to1c4b_820_3_alg».proof.Proof.Gen.KernelIdeal.Frame
import proofs.«141706_g69887707840728_cont_9to1c4b_820_3_alg».proof.Proof.Spec
import proofs.«141706_g69887707840728_cont_9to1c4b_820_3_alg».proof.Proof.AttBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Layer2

open Cert.KernelIdeal Cert.KernelIdeal.Gen Cert.Gat
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offsets of every access of the body, as a constant function. -/
private theorem zero_off : (![0, 0] : Fin 2 → Nat) = fun _ => 0 := funext fun a => by fin_cases a <;> rfl

/-- The block indices of the eight windows at grid point `t`: the adjacency block, the source column block and the two
    output blocks are block `t` along the rows; every other window is its whole array. -/
private theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- The grid has sixteen points. -/
private theorem grid_points : cfg3.N = 16 := N_3

/-! ## The input blocks, entry by entry -/

/-- Entry (r, j) of the adjacency block at point `t` is the adjacency matrix at row `256 t + r`, column `j`. -/
private theorem adj_block (c : Dev nD) (t : Fin cfg3.N) (r : Fin 256) (j : Fin 4096) (p : Fin 4096)
    (hp : p.val = 256 * t.val + r.val) :
    (iblk3 V c 0 t : Vec Ideal S256x4096 .f32) (ix2 r j) = V c main_arg1 (ix2 p j) := by
  obtain ⟨e0, e1, -⟩ := block_index t
  unfold iblk3
  rw [View.read_apply]
  show V c main_arg1 (((cfg3.win 0).blk t).view.emb (ix2 r j)) = V c main_arg1 (ix2 p j)
  congr 1
  funext a; apply Fin.ext
  match a with
  | ⟨0, _⟩ => show win3_0.index t (0 : Fin 2) * 256 + 1 * r.val = p.val; omega
  | ⟨1, _⟩ => show win3_0.index t (1 : Fin 2) * 4096 + 1 * j.val = j.val; omega

/-- Entry (r, 0) of the source column block at point `t` is the source column at row `256 t + r`. -/
private theorem src_block (c : Dev nD) (t : Fin cfg3.N) (r : Fin 256) (p : Fin 4096)
    (hp : p.val = 256 * t.val + r.val) :
    (iblk3 V c 2 t : Vec Ideal S256x1 .f32) (ix2 r (0 : Fin 1)) = V c main_call0_v2_1 (ix2 p (0 : Fin 1)) := by
  obtain ⟨-, -, -, -, e0, e1, -⟩ := block_index t
  unfold iblk3
  rw [View.read_apply]
  show V c main_call0_v2_1 (((cfg3.win 2).blk t).view.emb (ix2 r (0 : Fin 1))) = V c main_call0_v2_1 (ix2 p (0 : Fin 1))
  congr 1
  funext a; apply Fin.ext
  match a with
  | ⟨0, _⟩ => show win3_2.index t (0 : Fin 2) * 256 + 1 * r.val = p.val; omega
  | ⟨1, _⟩ => show win3_2.index t (1 : Fin 2) * 1 + 1 * 0 = 0; omega

/-- The destination row's window is its whole array at every point. -/
private theorem dst_block (c : Dev nD) (t : Fin cfg3.N) (j : Fin 4096) :
    (iblk3 V c 3 t : Vec Ideal S1x4096 .f32) (ix2 (0 : Fin 1) j) = V c main_call0_v2_2 (ix2 (0 : Fin 1) j) := by
  obtain ⟨-, -, -, -, -, -, e0, e1, -⟩ := block_index t
  unfold iblk3
  rw [View.read_apply]
  show V c main_call0_v2_2 (((cfg3.win 3).blk t).view.emb (ix2 (0 : Fin 1) j)) = V c main_call0_v2_2 (ix2 (0 : Fin 1) j)
  congr 1
  funext a; apply Fin.ext
  match a with
  | ⟨0, _⟩ => show win3_3.index t (0 : Fin 2) * 1 + 1 * 0 = 0; omega
  | ⟨1, _⟩ => show win3_3.index t (1 : Fin 2) * 4096 + 1 * j.val = j.val; omega

/-- Row `r` of the block's logits at point `t` is row `256 t + r` of the whole logits. -/
private theorem logit_block (c : Dev nD) (t : Fin cfg3.N) (r : Fin 256) (p : Fin 4096)
    (hp : p.val = 256 * t.val + r.val) :
    (fun j : Fin 4096 => Gat.logitEntry ((iblk3 V c 0 t : Vec Ideal S256x4096 .f32) (ix2 r j))
        ((iblk3 V c 2 t : Vec Ideal S256x1 .f32) (ix2 r (0 : Fin 1)))
        ((iblk3 V c 3 t : Vec Ideal S1x4096 .f32) (ix2 (0 : Fin 1) j)))
      = Gat.logitRow (V c main_arg1) (V c main_call0_v2_1) (V c main_call0_v2_2) p := by
  funext j
  rw [adj_block V c t r j p hp, src_block V c t r p hp, dst_block V c t j]
  rfl

/-! ## The attention matrix -/

/-- What point `t` writes back to the attention matrix is block `t` of the attention coefficients. -/
private theorem att_flushed (c : Dev nD) (t : Fin cfg3.N) :
    (dat3 V c).flushed 6 t = ((cfg3.win 6).blk t).view.read (Elt Ideal)
      (Gat.arr2 (Gat.attention (V c main_arg1) (V c main_call0_v2_1) (V c main_call0_v2_2))) := by
  show (cfg3.win 6).cut (grid3.coords t) ((dat3 V c).after 6 t) = _
  rw [after3_6]
  unfold out3_6
  rw [View.canon_unit_zero zero_off]
  simp only [View.ld_unit_zero (S := S256x1) zero_off, View.ld_unit_zero (S := S1x4096) zero_off,
    View.ld_unit_zero (S := S256x4096) zero_off]
  funext y
  obtain ⟨r, q, rfl⟩ : ∃ (r : Fin 256) (q : Fin 4096), y = ix2 r q := ⟨y 0, y 1, eq_ix2 y⟩
  have hN : cfg3.N = 16 := grid_points
  have ht : t.val < cfg3.N := t.isLt
  obtain ⟨p, hp⟩ : ∃ p : Fin 4096, p.val = 256 * t.val + r.val := ⟨⟨256 * t.val + r.val, by omega⟩, rfl⟩
  obtain ⟨-, -, -, -, -, -, -, -, -, -, -, -, e0, e1, -⟩ := block_index t
  have hemb : ((cfg3.win 6).blk t).view.emb (ix2 r q) = ix2 p q := by
    funext a; apply Fin.ext
    match a with
    | ⟨0, _⟩ => show win3_6.index t (0 : Fin 2) * 256 + 1 * r.val = p.val; omega
    | ⟨1, _⟩ => show win3_6.index t (1 : Fin 2) * 4096 + 1 * q.val = q.val; omega
  refine (AttBlock.att_apply _ _ _ r q).trans ?_
  rw [logit_block V c t r p hp, View.read_apply, hemb]
  rfl

/-- An index of the attention matrix is in point `t`'s block iff each coordinate is in the block's range on its axis. -/
private theorem att_mem_block (t : Fin cfg3.N) (i : S4096x4096.Idx) :
    i ∈ ((cfg3.win 6).blk t).view.set ↔ ∀ a : Fin 2, win3_6.index t a * S256x4096.size a ≤ (i a).val
      ∧ (i a).val < win3_6.index t a * S256x4096.size a + S256x4096.size a := by
  show i ∈ ((View.whole main_v0_2).slice (win3_6.rect t)).set ↔ _
  rw [View.set_slice_whole, Rect.mem_set_unit]
  exact Iff.rfl

/-- Every entry of the attention matrix is in the block of the point its row falls to: row `i` belongs to point `i / 256`. -/
private theorem att_cover (i : S4096x4096.Idx) :
    ∃ t : Fin cfg3.N, (cfg3.win 6).flush t = true ∧ i ∈ ((cfg3.win 6).blk t).view.set := by
  have hN : cfg3.N = 16 := grid_points
  have hi0 : (i 0).val < 4096 := idx2_lt0 i
  have hi1 : (i 1).val < 4096 := idx2_lt1 i
  obtain ⟨t, htv⟩ : ∃ t : Fin cfg3.N, t.val = (i 0).val / 256 := ⟨⟨(i 0).val / 256, by omega⟩, rfl⟩
  obtain ⟨-, -, -, -, -, -, -, -, -, -, -, -, e0, e1, -⟩ := block_index t
  refine ⟨t, flush3_6 t, ?_⟩
  rw [att_mem_block]
  intro a
  match a with
  | ⟨0, _⟩ => show win3_6.index t (0 : Fin 2) * 256 ≤ (i 0).val ∧ (i 0).val < win3_6.index t (0 : Fin 2) * 256 + 256; omega
  | ⟨1, _⟩ => show win3_6.index t (1 : Fin 2) * 4096 ≤ (i 1).val ∧ (i 1).val < win3_6.index t (1 : Fin 2) * 4096 + 4096; omega

/-- The attention matrix. -/
theorem att (c : Dev nD) :
    (dat3 V c).arrAt 6 cfg3.N
      = Gat.arr2 (Gat.attention (V c main_arg1) (V c main_call0_v2_1) (V c main_call0_v2_2)) :=
  (dat3 V c).arrAt_eq_of_cover 6 _ (fun t _ => att_flushed V c t) att_cover

/-! ## The class scores -/

/-- The features' window is its whole array at every point. -/
private theorem feat_block (c : Dev nD) (t : Fin cfg3.N) (j : Fin 4096) (k : Fin 64) :
    (iblk3 V c 1 t : Vec Ideal S4096x64 .f32) (ix2 j k) = V c main_call0_v2_0 (ix2 j k) := by
  obtain ⟨-, -, e0, e1, -⟩ := block_index t
  unfold iblk3
  rw [View.read_apply]
  show V c main_call0_v2_0 (((cfg3.win 1).blk t).view.emb (ix2 j k)) = V c main_call0_v2_0 (ix2 j k)
  congr 1
  funext a; apply Fin.ext
  match a with
  | ⟨0, _⟩ => show win3_1.index t (0 : Fin 2) * 4096 + 1 * j.val = j.val; omega
  | ⟨1, _⟩ => show win3_1.index t (1 : Fin 2) * 64 + 1 * k.val = k.val; omega

/-- The classifier's window is its whole array at every point. -/
private theorem cls_block (c : Dev nD) (t : Fin cfg3.N) (k : Fin 64) (q : Fin 64) :
    (iblk3 V c 4 t : Vec Ideal S64x64 .f32) (ix2 k q) = V c main_arg6 (ix2 k q) := by
  obtain ⟨-, -, -, -, -, -, -, -, e0, e1, -⟩ := block_index t
  unfold iblk3
  rw [View.read_apply]
  show V c main_arg6 (((cfg3.win 4).blk t).view.emb (ix2 k q)) = V c main_arg6 (ix2 k q)
  congr 1
  funext a; apply Fin.ext
  match a with
  | ⟨0, _⟩ => show win3_4.index t (0 : Fin 2) * 64 + 1 * k.val = k.val; omega
  | ⟨1, _⟩ => show win3_4.index t (1 : Fin 2) * 64 + 1 * q.val = q.val; omega

/-- The bias row's window is its whole array at every point. -/
private theorem bias_block (c : Dev nD) (t : Fin cfg3.N) (q : Fin 64) :
    (iblk3 V c 5 t : Vec Ideal S1x64 .f32) (ix2 (0 : Fin 1) q) = V c main_arg7 (ix2 (0 : Fin 1) q) := by
  obtain ⟨-, -, -, -, -, -, -, -, -, -, e0, e1, -⟩ := block_index t
  unfold iblk3
  rw [View.read_apply]
  show V c main_arg7 (((cfg3.win 5).blk t).view.emb (ix2 (0 : Fin 1) q)) = V c main_arg7 (ix2 (0 : Fin 1) q)
  congr 1
  funext a; apply Fin.ext
  match a with
  | ⟨0, _⟩ => show win3_5.index t (0 : Fin 2) * 1 + 1 * 0 = 0; omega
  | ⟨1, _⟩ => show win3_5.index t (1 : Fin 2) * 64 + 1 * q.val = q.val; omega

/-- Entry (r, j) of the block's attention coefficients at point `t` is the attention matrix at row `256 t + r`. -/
private theorem att_block (c : Dev nD) (t : Fin cfg3.N) (r : Fin 256) (p : Fin 4096)
    (hp : p.val = 256 * t.val + r.val) (j : Fin 4096) :
    k3_pay1 (F := Ideal) (iblk3 V c 2 t) (iblk3 V c 3 t) (iblk3 V c 0 t) (ix2 r j)
      = Gat.attention (V c main_arg1) (V c main_call0_v2_1) (V c main_call0_v2_2) p j := by
  refine (AttBlock.att_apply _ _ _ r j).trans ?_
  rw [logit_block V c t r p hp]
  rfl

/-- Entry (r, q) of the block of class scores at point `t` is the class score of node `256 t + r`. -/
private theorem score_block (c : Dev nD) (t : Fin cfg3.N) (r : Fin 256) (p : Fin 4096)
    (hp : p.val = 256 * t.val + r.val) (q : Fin 64) :
    k3_pay2 (F := Ideal) (iblk3 V c 2 t) (iblk3 V c 3 t) (iblk3 V c 0 t) (iblk3 V c 1 t) (iblk3 V c 4 t)
        (iblk3 V c 5 t) (ix2 r q)
      = Gat.scores (V c main_arg1) (V c main_call0_v2_0) (V c main_call0_v2_1) (V c main_call0_v2_2)
          (V c main_arg6) (V c main_arg7) (ix2 p q) := by
  refine (AttBlock.pay_layer2 _ _ _ _ _ _ r q).trans ?_
  show _ = (∑ k : Fin 64, (∑ j : Fin 4096, Gat.attention (V c main_arg1) (V c main_call0_v2_1) (V c main_call0_v2_2) p j
      * V c main_call0_v2_0 (ix2 j k)) * V c main_arg6 (ix2 k q)) + V c main_arg7 (ix2 (0 : Fin 1) q)
  rw [bias_block V c t q]
  refine congrArg (fun s => s + V c main_arg7 (ix2 (0 : Fin 1) q)) ?_
  refine Finset.sum_congr rfl fun k _ => ?_
  rw [cls_block V c t k q]
  refine congrArg (fun s => s * V c main_arg6 (ix2 k q)) ?_
  refine Finset.sum_congr rfl fun j _ => ?_
  rw [att_block V c t r p hp j, feat_block V c t j k]

/-- What point `t` writes back to the class scores is block `t` of the scores. -/
private theorem score_flushed (c : Dev nD) (t : Fin cfg3.N) :
    (dat3 V c).flushed 7 t = ((cfg3.win 7).blk t).view.read (Elt Ideal)
      (Gat.scores (V c main_arg1) (V c main_call0_v2_0) (V c main_call0_v2_1) (V c main_call0_v2_2)
        (V c main_arg6) (V c main_arg7)) := by
  show (cfg3.win 7).cut (grid3.coords t) ((dat3 V c).after 7 t) = _
  rw [after3_7]
  unfold out3_7
  rw [View.canon_unit_zero zero_off]
  simp only [View.ld_unit_zero (S := S256x1) zero_off, View.ld_unit_zero (S := S1x4096) zero_off,
    View.ld_unit_zero (S := S256x4096) zero_off, View.ld_unit_zero (S := S4096x64) zero_off,
    View.ld_unit_zero (S := S64x64) zero_off, View.ld_unit_zero (S := S1x64) zero_off]
  funext y
  obtain ⟨r, q, rfl⟩ : ∃ (r : Fin 256) (q : Fin 64), y = ix2 r q := ⟨y 0, y 1, eq_ix2 y⟩
  have hN : cfg3.N = 16 := grid_points
  have ht : t.val < cfg3.N := t.isLt
  obtain ⟨p, hp⟩ : ∃ p : Fin 4096, p.val = 256 * t.val + r.val := ⟨⟨256 * t.val + r.val, by omega⟩, rfl⟩
  obtain ⟨-, -, -, -, -, -, -, -, -, -, -, -, -, -, e0, e1⟩ := block_index t
  have hemb : ((cfg3.win 7).blk t).view.emb (ix2 r q) = ix2 p q := by
    funext a; apply Fin.ext
    match a with
    | ⟨0, _⟩ => show win3_7.index t (0 : Fin 2) * 256 + 1 * r.val = p.val; omega
    | ⟨1, _⟩ => show win3_7.index t (1 : Fin 2) * 64 + 1 * q.val = q.val; omega
  rw [View.read_apply, hemb]
  exact score_block V c t r p hp q

/-- An index of the class scores is in point `t`'s block iff each coordinate is in the block's range on its axis. -/
private theorem score_mem_block (t : Fin cfg3.N) (i : S4096x64.Idx) :
    i ∈ ((cfg3.win 7).blk t).view.set ↔ ∀ a : Fin 2, win3_7.index t a * S256x64.size a ≤ (i a).val
      ∧ (i a).val < win3_7.index t a * S256x64.size a + S256x64.size a := by
  show i ∈ ((View.whole main_v0_0).slice (win3_7.rect t)).set ↔ _
  rw [View.set_slice_whole, Rect.mem_set_unit]
  exact Iff.rfl

/-- Every entry of the class scores is in the block of the point its row falls to: row `i` belongs to point `i / 256`. -/
private theorem score_cover (i : S4096x64.Idx) :
    ∃ t : Fin cfg3.N, (cfg3.win 7).flush t = true ∧ i ∈ ((cfg3.win 7).blk t).view.set := by
  have hN : cfg3.N = 16 := grid_points
  have hi0 : (i 0).val < 4096 := idx2_lt0 i
  have hi1 : (i 1).val < 64 := idx2_lt1 i
  obtain ⟨t, htv⟩ : ∃ t : Fin cfg3.N, t.val = (i 0).val / 256 := ⟨⟨(i 0).val / 256, by omega⟩, rfl⟩
  obtain ⟨-, -, -, -, -, -, -, -, -, -, -, -, -, -, e0, e1⟩ := block_index t
  refine ⟨t, flush3_7 t, ?_⟩
  rw [score_mem_block]
  intro a
  match a with
  | ⟨0, _⟩ => show win3_7.index t (0 : Fin 2) * 256 ≤ (i 0).val ∧ (i 0).val < win3_7.index t (0 : Fin 2) * 256 + 256; omega
  | ⟨1, _⟩ => show win3_7.index t (1 : Fin 2) * 64 ≤ (i 1).val ∧ (i 1).val < win3_7.index t (1 : Fin 2) * 64 + 64; omega

/-- The class scores. -/
theorem score (c : Dev nD) :
    (dat3 V c).arrAt 7 cfg3.N
      = Gat.scores (V c main_arg1) (V c main_call0_v2_0) (V c main_call0_v2_1) (V c main_call0_v2_2) (V c main_arg6) (V c main_arg7) :=
  (dat3 V c).arrAt_eq_of_cover 7 _ (fun t _ => score_flushed V c t) score_cover

end Cert.KernelIdeal.Layer2

end
-- ==== Proof.KernelChain.lean ====
/-
  The kernel program's three results as functions of its arguments: the boundary contents between the four regions are
  walked from the last back to the launch — each region's output arrays are what its whole-array reading says of the
  arrays it found, every array a region does not write is as the region found it — and the readings compose into the
  network's embedding, attention matrix and class scores.
-/
import proofs.«141706_g69887707840728_cont_9to1c4b_820_3_alg».proof.Proof.KernelPrep1
import proofs.«141706_g69887707840728_cont_9to1c4b_820_3_alg».proof.Proof.KernelPrep2
import proofs.«141706_g69887707840728_cont_9to1c4b_820_3_alg».proof.Proof.KernelLayer1
import proofs.«141706_g69887707840728_cont_9to1c4b_820_3_alg».proof.Proof.KernelLayer2

set_option maxRecDepth 16384

noncomputable section

namespace Cert.KernelIdeal.Chain

open Cert.KernelIdeal Cert.KernelIdeal.Gen Cert.Gat
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## After the first projection region -/

/-- The adjacency matrix is not an array of the first region. -/
theorem adj1 (c : Dev nD) : V1 m ρ c main_arg1 = (m ((c.tc : Thread nD τ).loc main_arg1)) :=
  W1_of_ne m ρ c main_arg1 (by decide)

/-- Layer one's projected features, source column and destination row. -/
theorem feat1 (c : Dev nD) : V1 m ρ c main_call0_v0_0 = Gat.feat1 (m ((c.tc : Thread nD τ).loc main_arg0)) (m ((c.tc : Thread nD τ).loc main_arg2)) :=
  (W1_arr m ρ c 3).trans (Prep1.feat (V0 m ρ) c)
theorem src1 (c : Dev nD) : V1 m ρ c main_call0_v0_1 = Gat.srcCol (Gat.feat1 (m ((c.tc : Thread nD τ).loc main_arg0)) (m ((c.tc : Thread nD τ).loc main_arg2))) (m ((c.tc : Thread nD τ).loc main_arg3)) :=
  (W1_arr m ρ c 4).trans (Prep1.src (V0 m ρ) c)
theorem dst1 (c : Dev nD) : V1 m ρ c main_call0_v0_2 = Gat.dstRow (Gat.feat1 (m ((c.tc : Thread nD τ).loc main_arg0)) (m ((c.tc : Thread nD τ).loc main_arg2))) (m ((c.tc : Thread nD τ).loc main_arg3)) :=
  (W1_arr m ρ c 5).trans (Prep1.dst (V0 m ρ) c)

/-! ## After the first attention region -/

/-- The embedding. -/
theorem embd2 (c : Dev nD) : V2 m ρ c main_v0_1 = Gat.embd (m ((c.tc : Thread nD τ).loc main_arg0)) (m ((c.tc : Thread nD τ).loc main_arg1)) (m ((c.tc : Thread nD τ).loc main_arg2)) (m ((c.tc : Thread nD τ).loc main_arg3)) := by
  refine (W2_arr m ρ c 4).trans ((Layer1.out (V1 m ρ) c).trans ?_)
  rw [adj1 m ρ c, feat1 m ρ c, src1 m ρ c, dst1 m ρ c]
  rfl

/-- The adjacency matrix is an input of the region: it leaves as it entered. -/
theorem adj2 (c : Dev nD) : V2 m ρ c main_arg1 = (m ((c.tc : Thread nD τ).loc main_arg1)) :=
  (W2_arr m ρ c 0).trans ((((dat1 (V1 m ρ) c).arrAt_in 0 rfl _).trans (A_eq1 (V1 m ρ) c 0)).trans (adj1 m ρ c))

/-- The second layer's weights and attention vector are arrays of neither region so far. -/
theorem w2 (c : Dev nD) : V2 m ρ c main_arg4 = (m ((c.tc : Thread nD τ).loc main_arg4)) :=
  (W2_of_ne m ρ c main_arg4 (by decide)).trans (W1_of_ne m ρ c main_arg4 (by decide))
theorem a2 (c : Dev nD) : V2 m ρ c main_arg5 = (m ((c.tc : Thread nD τ).loc main_arg5)) :=
  (W2_of_ne m ρ c main_arg5 (by decide)).trans (W1_of_ne m ρ c main_arg5 (by decide))

/-! ## After the second projection region -/

theorem feat3 (c : Dev nD) :
    V3 m ρ c main_call0_v2_0 = Gat.feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W3_arr m ρ c 3).trans ((Prep2.feat (V2 m ρ) c).trans ?_)
  rw [embd2 m ρ c, w2 m ρ c]
  rfl
theorem src3 (c : Dev nD) :
    V3 m ρ c main_call0_v2_1 = Gat.srcCol (Gat.feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) := by
  refine (W3_arr m ρ c 4).trans ((Prep2.src (V2 m ρ) c).trans ?_)
  rw [embd2 m ρ c, w2 m ρ c, a2 m ρ c]
  rfl
theorem dst3 (c : Dev nD) :
    V3 m ρ c main_call0_v2_2 = Gat.dstRow (Gat.feat2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) := by
  refine (W3_arr m ρ c 5).trans ((Prep2.dst (V2 m ρ) c).trans ?_)
  rw [embd2 m ρ c, w2 m ρ c, a2 m ρ c]
  rfl

/-- The adjacency matrix, the classifier and the bias are not arrays of the second projection region. -/
theorem adj3 (c : Dev nD) : V3 m ρ c main_arg1 = (m ((c.tc : Thread nD τ).loc main_arg1)) :=
  (W3_of_ne m ρ c main_arg1 (by decide)).trans (adj2 m ρ c)
theorem cls3 (c : Dev nD) : V3 m ρ c main_arg6 = (m ((c.tc : Thread nD τ).loc main_arg6)) :=
  (W3_of_ne m ρ c main_arg6 (by decide)).trans ((W2_of_ne m ρ c main_arg6 (by decide)).trans (W1_of_ne m ρ c main_arg6 (by decide)))
theorem bias3 (c : Dev nD) : V3 m ρ c main_arg7 = (m ((c.tc : Thread nD τ).loc main_arg7)) :=
  (W3_of_ne m ρ c main_arg7 (by decide)).trans ((W2_of_ne m ρ c main_arg7 (by decide)).trans (W1_of_ne m ρ c main_arg7 (by decide)))

/-- The embedding is an input of the second projection region: it leaves as it entered. -/
theorem embd3 (c : Dev nD) : V3 m ρ c main_v0_1 = Gat.embd (m ((c.tc : Thread nD τ).loc main_arg0)) (m ((c.tc : Thread nD τ).loc main_arg1)) (m ((c.tc : Thread nD τ).loc main_arg2)) (m ((c.tc : Thread nD τ).loc main_arg3)) :=
  (W3_arr m ρ c 0).trans ((((dat2 (V2 m ρ) c).arrAt_in 0 rfl _).trans (A_eq2 (V2 m ρ) c 0)).trans (embd2 m ρ c))

/-! ## After the second attention region: the results -/

/-- The embedding: layer one's output, untouched by the two later regions. -/
theorem res_embd (c : Dev nD) :
    W4 m ρ c (Proc.devRef .tc main_v0_1) = Gat.embd (m ((c.tc : Thread nD τ).loc main_arg0)) (m ((c.tc : Thread nD τ).loc main_arg1)) (m ((c.tc : Thread nD τ).loc main_arg2)) (m ((c.tc : Thread nD τ).loc main_arg3)) :=
  (W4_of_ne m ρ c main_v0_1 (by decide)).trans (embd3 m ρ c)

/-- Layer two's attention matrix. -/
theorem res_att (c : Dev nD) :
    W4 m ρ c (Proc.devRef .tc main_v0_2) = Gat.att2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W4_arr m ρ c 6).trans ((Layer2.att (V3 m ρ) c).trans ?_)
  rw [adj3 m ρ c, src3 m ρ c, dst3 m ρ c]
  rfl

/-- The class scores. -/
theorem res_logits (c : Dev nD) :
    W4 m ρ c (Proc.devRef .tc main_v0_0) = Gat.logits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 7).trans ((Layer2.score (V3 m ρ) c).trans ?_)
  rw [adj3 m ρ c, feat3 m ρ c, src3 m ρ c, dst3 m ρ c, cls3 m ρ c, bias3 m ρ c]
  rfl

end Cert.KernelIdeal.Chain

end
-- ==== Proof.RefTerm.lean ====
/-
  The reference's host operations grouped by what they compute, as functions of whole arrays: the feature projection, the
  two attention terms, the masked leaky logits, the row softmax, the aggregation, and the two layers' last steps; then the
  three results of the network as their composition. Nothing is proved here: the reference's run ends at these terms, and
  each is read entry by entry elsewhere.
-/
import proofs.«141706_g69887707840728_cont_9to1c4b_820_3_alg».proof.ReferenceIdeal

noncomputable section

namespace Cert.ReferenceIdeal.RefValue

open Cert.ReferenceIdeal Idealize.ShloMosaic

variable {F : FTy → Type} [FloatOps F] [Facts]
open Facts₀ Facts

/-- `x · W`, 128 input features. -/
def projA (x : FVec F S4096x128 .f32) (w : FVec F S128x64 .f32) : FVec F S4096x64 .f32 :=
  Host.dotGeneral dot_S4096x128_S128x64_S4096x64_1_0_0_1_n_n none x w

/-- `x · W`, 64 input features. -/
def projB (x : FVec F S4096x64 .f32) (w : FVec F S64x64 .f32) : FVec F S4096x64 .f32 :=
  Host.dotGeneral dot_S4096x64_S64x64_S4096x64_1_0_0_1_n_n none x w

/-- The source terms: the features against the first 64 entries of the attention vector, a column. -/
def srcT (h : FVec F S4096x64 .f32) (a : FVec F S128x1 .f32) : FVec F S4096x1 .f32 :=
  Host.dotGeneral dot_S4096x64_S64x1_S4096x1_1_0_0_1_n_n none h (extractStridedSlice S64x1 ![0, 0] a slices_S128x1_S64x1_0_0)

/-- The destination terms: the features against the last 64 entries, transposed to a row. -/
def dstT (h : FVec F S4096x64 .f32) (a : FVec F S128x1 .f32) : FVec F S1x4096 .f32 :=
  transpose S1x4096 [1, 0]
    (Host.dotGeneral dot_S4096x64_S64x1_S4096x1_1_0_0_1_n_n none h (extractStridedSlice S64x1 ![64, 0] a slices_S128x1_S64x1_64_0))
    transposes_S4096x1_S1x4096_1_0

/-- A scalar constant spread over the node-by-node square. -/
def splatN (b : BitVec 32) : FVec F S4096x4096 .f32 :=
  broadcastInDim S4096x4096 ![] bcast_S_S4096x4096 (constant S_ .f32 b)

/-- The leaky rectifier: `e` where `e ≥ 0`, `0.2 · e` elsewhere. -/
def leakyT (e : FVec F S4096x4096 .f32) : FVec F S4096x4096 .f32 :=
  select (cmpf .oge e (splatN 0x00000000#32)) e (mulf (splatN 0x3E4CCCCD#32) e)

/-- The masked logits: column plus row, rectified, where the adjacency entry is positive; the stand-in elsewhere. -/
def logitsT (adj : FVec F S4096x4096 .f32) (f1 : FVec F S4096x1 .f32) (f2 : FVec F S1x4096 .f32) : FVec F S4096x4096 .f32 :=
  select (cmpf .ogt adj (splatN 0x00000000#32))
    (leakyT (addf (broadcastInDim S4096x4096 ![0, 1] bcast_S4096x1_S4096x4096_0_1 f1)
      (broadcastInDim S4096x4096 ![0, 1] bcast_S1x4096_S4096x4096_0_1 f2)))
    (splatN 0xD9FFCB9E#32)

/-- A per-row value spread back along its row. -/
def alongRows (v : FVec F S4096 .f32) : FVec F S4096x4096 .f32 :=
  broadcastInDim S4096x4096 ![0, 1] bcast_S4096x1_S4096x4096_0_1 (broadcastInDim S4096x1 ![0] bcast_S4096_S4096x1_0 v)

/-- The exponentials of a row softmax: `exp (z − row maximum)`. -/
def expT (z : FVec F S4096x4096 .f32) : FVec F S4096x4096 .f32 :=
  Host.exp (subf z (alongRows (maximumf (broadcastInDim S4096 ![] bcast_S_S4096 (constant S_ .f32 0xFF800000#32))
    (Host.reduce FloatOps.maximumf z (constant S_ .f32 0xFF800000#32) reducesTo_S4096x4096_S4096_d1 h_S_))))

/-- The row softmax: the exponentials over their row sums. -/
def softmaxT (z : FVec F S4096x4096 .f32) : FVec F S4096x4096 .f32 :=
  Host.divf (expT z) (alongRows (Host.reduceAdd (expT z) (constant S_ .f32 0x00000000#32) reducesTo_S4096x4096_S4096_d1 h_S_))

/-- `att · h`. -/
def aggT (p : FVec F S4096x4096 .f32) (h : FVec F S4096x64 .f32) : FVec F S4096x64 .f32 :=
  Host.dotGeneral dot_S4096x4096_S4096x64_S4096x64_1_0_0_1_n_n none p h

/-- `max (·, 0)`. -/
def reluT (x : FVec F S4096x64 .f32) : FVec F S4096x64 .f32 :=
  maximumf x (broadcastInDim S4096x64 ![] bcast_S_S4096x64 (constant S_ .f32 0x00000000#32))

/-- The classifier product plus the bias row. -/
def scoreT (x : FVec F S4096x64 .f32) (cls : FVec F S64x64 .f32) (bias : FVec F S1x64 .f32) : FVec F S4096x64 .f32 :=
  addf (projB x cls) (broadcastInDim S4096x64 ![0, 1] bcast_S1x64_S4096x64_0_1 bias)

/-- One layer's attention matrix from its projected features. -/
def attT (adj : FVec F S4096x4096 .f32) (h : FVec F S4096x64 .f32) (a : FVec F S128x1 .f32) : FVec F S4096x4096 .f32 :=
  softmaxT (logitsT adj (srcT h a) (dstT h a))

/-! ## The network's three results -/

section Net
variable (ft : FVec F S4096x128 .f32) (adj : FVec F S4096x4096 .f32) (W1 : FVec F S128x64 .f32) (a1 : FVec F S128x1 .f32)
  (W2 : FVec F S64x64 .f32) (a2 : FVec F S128x1 .f32) (cls : FVec F S64x64 .f32) (bias : FVec F S1x64 .f32)

def netEmbd : FVec F S4096x64 .f32 := reluT (aggT (attT adj (projA ft W1) a1) (projA ft W1))
def netAtt : FVec F S4096x4096 .f32 := attT adj (projB (netEmbd ft adj W1 a1) W2) a2
def netLogits : FVec F S4096x64 .f32 :=
  scoreT (aggT (netAtt ft adj W1 a1 W2 a2) (projB (netEmbd ft adj W1 a1) W2)) cls bias
end Net

end Cert.ReferenceIdeal.RefValue

end
-- ==== Proof.RefRun.lean ====
/-
  The reference program's run, read back: @main is a straight line of host operations (the outlined helper functions
  unfolded at their calls); every weakly fair execution terminates with each result array at the composed term of the
  arguments, and the arguments unchanged.
-/
import proofs.«141706_g69887707840728_cont_9to1c4b_820_3_alg».proof.Proof.Gen.ReferenceIdeal
import proofs.«141706_g69887707840728_cont_9to1c4b_820_3_alg».proof.Proof.RefTerm
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]
/-- @main's operations in order, the calls unfolded: the leaky rectifier is seven (the zero, its spread, the comparison,
    the slope passed through its change of format, its spread, the product, the choice), the masking choice two (the
    stand-in's spread, the choice), the final rectifier of layer one three (the zero, its spread, the maximum). -/
abbrev ops : List (HloOp τ sig (Elt F)) :=
  [ binary main_arg0 main_arg2 main_v0 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    unary main_arg3 main_v1 ((extractStridedSlice S64x1 ![0, 0] · slices_S128x1_S64x1_0_0) : (⟨S128x1, .f32⟩ : BufTy).Contents (Elt F) → (⟨S64x1, .f32⟩ : BufTy).Contents (Elt F)),
    binary main_v0 main_v1 main_v2 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg3 main_v3 ((extractStridedSlice S64x1 ![64, 0] · slices_S128x1_S64x1_64_0) : (⟨S128x1, .f32⟩ : BufTy).Contents (Elt F) → (⟨S64x1, .f32⟩ : BufTy).Contents (Elt F)),
    binary main_v0 main_v3 main_v4 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v4 main_v5 ((transpose S1x4096 [1, 0] · transposes_S4096x1_S1x4096_1_0) : (⟨S4096x1, .f32⟩ : BufTy).Contents (Elt F) → (⟨S1x4096, .f32⟩ : BufTy).Contents (Elt F)),
    unary main_v2 main_v6 (broadcastInDim S4096x4096 ![0, 1] bcast_S4096x1_S4096x4096_0_1 : (⟨S4096x1, .f32⟩ : BufTy).Contents (Elt F) → (⟨S4096x4096, .f32⟩ : BufTy).Contents (Elt F)),
    unary main_v5 main_v7 (broadcastInDim S4096x4096 ![0, 1] bcast_S1x4096_S4096x4096_0_1 : (⟨S1x4096, .f32⟩ : BufTy).Contents (Elt F) → (⟨S4096x4096, .f32⟩ : BufTy).Contents (Elt F)),
    binary main_v6 main_v7 main_v8 (addf : (⟨S4096x4096, .f32⟩ : BufTy).Contents (Elt F) → (⟨S4096x4096, .f32⟩ : BufTy).Contents (Elt F) → (⟨S4096x4096, .f32⟩ : BufTy).Contents (Elt F)),
    nullary main_cst (constant S_ .f32 0x3E4CCCCD#32),
    TRef.nullary main_call0.cst (constant S_ .f32 0x00000000#32),
    TRef.unary main_call0.cst main_call0.v0 (broadcastInDim S4096x4096 ![] bcast_S_S4096x4096),
    TRef.binary (.of main_v8 : TRef sig ⟨S4096x4096, .f32⟩) main_call0.v0 main_call0.v1 (cmpf .oge),
    TRef.unary (.of main_cst : TRef sig ⟨S_, .f32⟩) main_call0.v2 id,
    TRef.unary main_call0.v2 main_call0.v3 (broadcastInDim S4096x4096 ![] bcast_S_S4096x4096),
    TRef.binary main_call0.v3 (.of main_v8 : TRef sig ⟨S4096x4096, .f32⟩) main_call0.v4 mulf,
    TRef.ternary main_call0.v1 (.of main_v8 : TRef sig ⟨S4096x4096, .f32⟩) main_call0.v4 main_call0.call0.v0 select,
    nullary main_cst_0 (constant S_ .f32 0x00000000#32),
    unary main_cst_0 main_v10 (broadcastInDim S4096x4096 ![] bcast_S_S4096x4096 : (⟨S_, .f32⟩ : BufTy).Contents (Elt F) → (⟨S4096x4096, .f32⟩ : BufTy).Contents (Elt F)),
    binary main_arg1 main_v10 main_v11 (cmpf .ogt : (⟨S4096x4096, .f32⟩ : BufTy).Contents (Elt F) → (⟨S4096x4096, .f32⟩ : BufTy).Contents (Elt F) → (⟨S4096x4096, .i1⟩ : BufTy).Contents (Elt F)),
    nullary main_cst_1 (constant S_ .f32 0xD9FFCB9E#32),
    TRef.unary (.of main_cst_1 : TRef sig ⟨S_, .f32⟩) main_call1.v0 (broadcastInDim S4096x4096 ![] bcast_S_S4096x4096),
    TRef.ternary (.of main_v11 : TRef sig ⟨S4096x4096, .i1⟩) (.of main_v9 : TRef sig ⟨S4096x4096, .f32⟩) main_call1.v0 main_call1.v1 select,
    nullary main_cst_2 (constant S_ .f32 0xFF800000#32),
    binary main_v12 main_cst_2 main_v13 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_3 (constant S_ .f32 0xFF800000#32),
    unary main_cst_3 main_v14 (broadcastInDim S4096 ![] bcast_S_S4096 : (⟨S_, .f32⟩ : BufTy).Contents (Elt F) → (⟨S4096, .f32⟩ : BufTy).Contents (Elt F)),
    binary main_v14 main_v13 main_v15 (maximumf : (⟨S4096, .f32⟩ : BufTy).Contents (Elt F) → (⟨S4096, .f32⟩ : BufTy).Contents (Elt F) → (⟨S4096, .f32⟩ : BufTy).Contents (Elt F)),
    unary main_v15 main_v16 (broadcastInDim S4096x1 ![0] bcast_S4096_S4096x1_0 : (⟨S4096, .f32⟩ : BufTy).Contents (Elt F) → (⟨S4096x1, .f32⟩ : BufTy).Contents (Elt F)),
    unary main_v16 main_v17 (broadcastInDim S4096x4096 ![0, 1] bcast_S4096x1_S4096x4096_0_1 : (⟨S4096x1, .f32⟩ : BufTy).Contents (Elt F) → (⟨S4096x4096, .f32⟩ : BufTy).Contents (Elt F)),
    binary main_v12 main_v17 main_v18 (subf : (⟨S4096x4096, .f32⟩ : BufTy).Contents (Elt F) → (⟨S4096x4096, .f32⟩ : BufTy).Contents (Elt F) → (⟨S4096x4096, .f32⟩ : BufTy).Contents (Elt F)),
    unary main_v18 main_v19 (Host.exp : (⟨S4096x4096, .f32⟩ : BufTy).Contents (Elt F) → (⟨S4096x4096, .f32⟩ : BufTy).Contents (Elt F)),
    nullary main_cst_4 (constant S_ .f32 0x00000000#32),
    binary main_v19 main_cst_4 main_v20 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v20 main_v21 (broadcastInDim S4096x1 ![0] bcast_S4096_S4096x1_0 : (⟨S4096, .f32⟩ : BufTy).Contents (Elt F) → (⟨S4096x1, .f32⟩ : BufTy).Contents (Elt F)),
    unary main_v21 main_v22 (broadcastInDim S4096x4096 ![0, 1] bcast_S4096x1_S4096x4096_0_1 : (⟨S4096x1, .f32⟩ : BufTy).Contents (Elt F) → (⟨S4096x4096, .f32⟩ : BufTy).Contents (Elt F)),
    binary main_v19 main_v22 main_v23 (Host.divf : (⟨S4096x4096, .f32⟩ : BufTy).Contents (Elt F) → (⟨S4096x4096, .f32⟩ : BufTy).Contents (Elt F) → (⟨S4096x4096, .f32⟩ : BufTy).Contents (Elt F)),
    binary main_v23 main_v0 main_v24 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    TRef.nullary main_call2.cst (constant S_ .f32 0x00000000#32),
    TRef.unary main_call2.cst main_call2.v0 (broadcastInDim S4096x64 ![] bcast_S_S4096x64),
    TRef.binary (.of main_v24 : TRef sig ⟨S4096x64, .f32⟩) main_call2.v0 main_call2.v1 maximumf,
    binary main_v25 main_arg4 main_v26 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg5 main_v27 ((extractStridedSlice S64x1 ![0, 0] · slices_S128x1_S64x1_0_0) : (⟨S128x1, .f32⟩ : BufTy).Contents (Elt F) → (⟨S64x1, .f32⟩ : BufTy).Contents (Elt F)),
    binary main_v26 main_v27 main_v28 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg5 main_v29 ((extractStridedSlice S64x1 ![64, 0] · slices_S128x1_S64x1_64_0) : (⟨S128x1, .f32⟩ : BufTy).Contents (Elt F) → (⟨S64x1, .f32⟩ : BufTy).Contents (Elt F)),
    binary main_v26 main_v29 main_v30 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_v30 main_v31 ((transpose S1x4096 [1, 0] · transposes_S4096x1_S1x4096_1_0) : (⟨S4096x1, .f32⟩ : BufTy).Contents (Elt F) → (⟨S1x4096, .f32⟩ : BufTy).Contents (Elt F)),
    unary main_v28 main_v32 (broadcastInDim S4096x4096 ![0, 1] bcast_S4096x1_S4096x4096_0_1 : (⟨S4096x1, .f32⟩ : BufTy).Contents (Elt F) → (⟨S4096x4096, .f32⟩ : BufTy).Contents (Elt F)),
    unary main_v31 main_v33 (broadcastInDim S4096x4096 ![0, 1] bcast_S1x4096_S4096x4096_0_1 : (⟨S1x4096, .f32⟩ : BufTy).Contents (Elt F) → (⟨S4096x4096, .f32⟩ : BufTy).Contents (Elt F)),
    binary main_v32 main_v33 main_v34 (addf : (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x3E4CCCCD#32),
    TRef.nullary main_call3.cst (constant S_ .f32 0x00000000#32),
    TRef.unary main_call3.cst main_call3.v0 (broadcastInDim S4096x4096 ![] bcast_S_S4096x4096),
    TRef.binary (.of main_v34 : TRef sig ⟨S4096x4096, .f32⟩) main_call3.v0 main_call3.v1 (cmpf .oge),
    TRef.unary (.of main_cst_5 : TRef sig ⟨S_, .f32⟩) main_call3.v2 id,
    TRef.unary main_call3.v2 main_call3.v3 (broadcastInDim S4096x4096 ![] bcast_S_S4096x4096),
    TRef.binary main_call3.v3 (.of main_v34 : TRef sig ⟨S4096x4096, .f32⟩) main_call3.v4 mulf,
    TRef.ternary main_call3.v1 (.of main_v34 : TRef sig ⟨S4096x4096, .f32⟩) main_call3.v4 main_call3.call0.v0 select,
    nullary main_cst_6 (constant S_ .f32 0x00000000#32),
    unary main_cst_6 main_v36 (broadcastInDim S4096x4096 ![] bcast_S_S4096x4096 : (⟨S_, .f32⟩ : BufTy).Contents (Elt F) → (⟨S4096x4096, .f32⟩ : BufTy).Contents (Elt F)),
    binary main_arg1 main_v36 main_v37 (cmpf .ogt : (⟨S4096x4096, .f32⟩ : BufTy).Contents (Elt F) → (⟨S4096x4096, .f32⟩ : BufTy).Contents (Elt F) → (⟨S4096x4096, .i1⟩ : BufTy).Contents (Elt F)),
    nullary main_cst_7 (constant S_ .f32 0xD9FFCB9E#32),
    TRef.unary (.of main_cst_7 : TRef sig ⟨S_, .f32⟩) main_call4.v0 (broadcastInDim S4096x4096 ![] bcast_S_S4096x4096),
    TRef.ternary (.of main_v37 : TRef sig ⟨S4096x4096, .i1⟩) (.of main_v35 : TRef sig ⟨S4096x4096, .f32⟩) main_call4.v0 main_call4.v1 select,
    nullary main_cst_8 (constant S_ .f32 0xFF800000#32),
    binary main_v38 main_cst_8 main_v39 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_cst_9 (constant S_ .f32 0xFF800000#32),
    unary main_cst_9 main_v40 (broadcastInDim S4096 ![] bcast_S_S4096 : (⟨S_, .f32⟩ : BufTy).Contents (Elt F) → (⟨S4096, .f32⟩ : BufTy).Contents (Elt F)),
    binary main_v40 main_v39 main_v41 (maximumf : (⟨S4096, .f32⟩ : BufTy).Contents (Elt F) → (⟨S4096, .f32⟩ : BufTy).Contents (Elt F) → (⟨S4096, .f32⟩ : BufTy).Contents (Elt F)),
    unary main_v41 main_v42 (broadcastInDim S4096x1 ![0] bcast_S4096_S4096x1_0 : (⟨S4096, .f32⟩ : BufTy).Contents (Elt F) → (⟨S4096x1, .f32⟩ : BufTy).Contents (Elt F)),
    unary main_v42 main_v43 (broadcastInDim S4096x4096 ![0, 1] bcast_S4096x1_S4096x4096_0_1 : (⟨S4096x1, .f32⟩ : BufTy).Contents (Elt F) → (⟨S4096x4096, .f32⟩ : BufTy).Contents (Elt F)),
    binary main_v38 main_v43 main_v44 (subf : (⟨S4096x4096, .f32⟩ : BufTy).Contents (Elt F) → (⟨S4096x4096, .f32⟩ : BufTy).Contents (Elt F) → (⟨S4096x4096, .f32⟩ : BufTy).Contents (Elt F)),
    unary main_v44 main_v45 (Host.exp : (⟨S4096x4096, .f32⟩ : BufTy).Contents (Elt F) → (⟨S4096x4096, .f32⟩ : BufTy).Contents (Elt F)),
    nullary main_cst_10 (constant S_ .f32 0x00000000#32),
    binary main_v45 main_cst_10 main_v46 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_v46 main_v47 (broadcastInDim S4096x1 ![0] bcast_S4096_S4096x1_0 : (⟨S4096, .f32⟩ : BufTy).Contents (Elt F) → (⟨S4096x1, .f32⟩ : BufTy).Contents (Elt F)),
    unary main_v47 main_v48 (broadcastInDim S4096x4096 ![0, 1] bcast_S4096x1_S4096x4096_0_1 : (⟨S4096x1, .f32⟩ : BufTy).Contents (Elt F) → (⟨S4096x4096, .f32⟩ : BufTy).Contents (Elt F)),
    binary main_v45 main_v48 main_v49 (Host.divf : (⟨S4096x4096, .f32⟩ : BufTy).Contents (Elt F) → (⟨S4096x4096, .f32⟩ : BufTy).Contents (Elt F) → (⟨S4096x4096, .f32⟩ : BufTy).Contents (Elt F)),
    binary main_v49 main_v26 main_v50 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    binary main_v50 main_arg6 main_v51 ((fun l r => Host.dotGeneral dot_S4096x64_S64x64_S4096x64_1_0_0_1_n_n none l r) : (⟨S4096x64, .f32⟩ : BufTy).Contents (Elt F) → (⟨S64x64, .f32⟩ : BufTy).Contents (Elt F) → (⟨S4096x64, .f32⟩ : BufTy).Contents (Elt F)),
    unary main_arg7 main_v52 (broadcastInDim S4096x64 ![0, 1] bcast_S1x64_S4096x64_0_1 : (⟨S1x64, .f32⟩ : BufTy).Contents (Elt F) → (⟨S4096x64, .f32⟩ : BufTy).Contents (Elt F)),
    binary main_v51 main_v52 main_v53 (addf : (⟨S4096x64, .f32⟩ : BufTy).Contents (Elt F) → (⟨S4096x64, .f32⟩ : BufTy).Contents (Elt F) → (⟨S4096x64, .f32⟩ : BufTy).Contents (Elt F)) ]

-- eighty-two binds re-associated: the rewrite under the chain recurses once per statement
set_option maxRecDepth 4096 in
set_option maxHeartbeats 4000000 in
/-- @main is that straight line: its two windows, the functions' definitions unfolded at their calls and the records at
    their fields, are one chain of steps once sequencing is reassociated. -/
theorem main_eq (c : Dev nD) : main (F := F) c = seq ops := by
  simp only [main, main_part0, main_part1, fn_leaky_relu.body, fn_where.body, fn_where_0.body, fn_relu.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨binary_bufs_sub .., unary_bufs_sub .., binary_bufs_sub .., unary_bufs_sub .., binary_bufs_sub .., unary_bufs_sub ..,
    unary_bufs_sub .., unary_bufs_sub .., binary_bufs_sub .., nullary_bufs_sub .., nullary_bufs_sub .., unary_bufs_sub ..,
    binary_bufs_sub .., unary_bufs_sub .., unary_bufs_sub .., binary_bufs_sub .., ternary_bufs_sub .., nullary_bufs_sub ..,
    unary_bufs_sub .., binary_bufs_sub .., nullary_bufs_sub .., unary_bufs_sub .., ternary_bufs_sub .., nullary_bufs_sub ..,
    binary_bufs_sub .., nullary_bufs_sub .., unary_bufs_sub .., binary_bufs_sub .., unary_bufs_sub .., unary_bufs_sub ..,
    binary_bufs_sub .., unary_bufs_sub .., nullary_bufs_sub .., binary_bufs_sub .., unary_bufs_sub .., unary_bufs_sub ..,
    binary_bufs_sub .., binary_bufs_sub .., nullary_bufs_sub .., unary_bufs_sub .., binary_bufs_sub .., binary_bufs_sub ..,
    unary_bufs_sub .., binary_bufs_sub .., unary_bufs_sub .., binary_bufs_sub .., unary_bufs_sub .., unary_bufs_sub ..,
    unary_bufs_sub .., binary_bufs_sub .., nullary_bufs_sub .., nullary_bufs_sub .., unary_bufs_sub .., binary_bufs_sub ..,
    unary_bufs_sub .., unary_bufs_sub .., binary_bufs_sub .., ternary_bufs_sub .., nullary_bufs_sub .., unary_bufs_sub ..,
    binary_bufs_sub .., nullary_bufs_sub .., unary_bufs_sub .., ternary_bufs_sub .., nullary_bufs_sub .., binary_bufs_sub ..,
    nullary_bufs_sub .., unary_bufs_sub .., binary_bufs_sub .., unary_bufs_sub .., unary_bufs_sub .., binary_bufs_sub ..,
    unary_bufs_sub .., nullary_bufs_sub .., binary_bufs_sub .., unary_bufs_sub .., unary_bufs_sub .., binary_bufs_sub ..,
    binary_bufs_sub .., binary_bufs_sub .., unary_bufs_sub .., binary_bufs_sub ..⟩

set_option maxRecDepth 8192 in
set_option maxHeartbeats 4000000 in
/-- The class scores: the fold read at its buffer is the operations' composed term (each operation's result at its own
    buffer its function's value, every other buffer what it held); the typed references' transports are the identity at
    these literal references and the change of format is the identity function; the grouped terms unfolded, the two
    sides are one term. -/
theorem v53_eq (V : Valuation τ sig (Elt F)) :
    after ops V (main_v53 : DevRef τ sig)
      = netLogits (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  after_results_simp
  simp only [TRef.toBuf, TRef.ofBuf, cast_eq, id_eq]
  simp only [netLogits, netAtt, netEmbd, scoreT, reluT, aggT, attT, softmaxT, expT, alongRows, logitsT, leakyT, splatN, srcT, dstT,
    projA, projB]

set_option maxRecDepth 8192 in
set_option maxHeartbeats 4000000 in
/-- The embedding, the same way. -/
theorem v25_eq (V : Valuation τ sig (Elt F)) :
    after ops V (main_v25 : DevRef τ sig)
      = netEmbd (V (main_arg0 : DevRef τ sig)) (V (main_arg1 : DevRef τ sig)) (V (main_arg2 : DevRef τ sig)) (V (main_arg3 : DevRef τ sig)) := by
  after_results_simp
  simp only [TRef.toBuf, TRef.ofBuf, cast_eq, id_eq]
  simp only [netEmbd, reluT, aggT, attT, softmaxT, expT, alongRows, logitsT, leakyT, splatN, srcT, dstT, projA]

set_option maxRecDepth 8192 in
set_option maxHeartbeats 4000000 in
/-- Layer two's attention matrix, the same way. -/
theorem v49_eq (V : Valuation τ sig (Elt F)) :
    after ops V (main_v49 : DevRef τ sig)
      = netAtt (V (main_arg0 : DevRef τ sig)) (V (main_arg1 : DevRef τ sig)) (V (main_arg2 : DevRef τ sig)) (V (main_arg3 : DevRef τ sig))
          (V (main_arg4 : DevRef τ sig)) (V (main_arg5 : DevRef τ sig)) := by
  after_results_simp
  simp only [TRef.toBuf, TRef.ofBuf, cast_eq, id_eq]
  simp only [netAtt, netEmbd, reluT, aggT, attT, softmaxT, expT, alongRows, logitsT, leakyT, splatN, srcT, dstT, projA, projB]

/-! No operation writes an argument: each keeps its launch contents. -/

set_option maxRecDepth 8192 in
set_option maxHeartbeats 1000000 in
theorem arg0_eq (V : Valuation τ sig (Elt F)) :
    after ops V (main_arg0 : DevRef τ sig) = V (main_arg0 : DevRef τ sig) := by
  after_results_simp

set_option maxRecDepth 8192 in
set_option maxHeartbeats 1000000 in
theorem arg1_eq (V : Valuation τ sig (Elt F)) :
    after ops V (main_arg1 : DevRef τ sig) = V (main_arg1 : DevRef τ sig) := by
  after_results_simp

set_option maxRecDepth 8192 in
set_option maxHeartbeats 1000000 in
theorem arg2_eq (V : Valuation τ sig (Elt F)) :
    after ops V (main_arg2 : DevRef τ sig) = V (main_arg2 : DevRef τ sig) := by
  after_results_simp

set_option maxRecDepth 8192 in
set_option maxHeartbeats 1000000 in
theorem arg3_eq (V : Valuation τ sig (Elt F)) :
    after ops V (main_arg3 : DevRef τ sig) = V (main_arg3 : DevRef τ sig) := by
  after_results_simp

set_option maxRecDepth 8192 in
set_option maxHeartbeats 1000000 in
theorem arg4_eq (V : Valuation τ sig (Elt F)) :
    after ops V (main_arg4 : DevRef τ sig) = V (main_arg4 : DevRef τ sig) := by
  after_results_simp

set_option maxRecDepth 8192 in
set_option maxHeartbeats 1000000 in
theorem arg5_eq (V : Valuation τ sig (Elt F)) :
    after ops V (main_arg5 : DevRef τ sig) = V (main_arg5 : DevRef τ sig) := by
  after_results_simp

set_option maxRecDepth 8192 in
set_option maxHeartbeats 1000000 in
theorem arg6_eq (V : Valuation τ sig (Elt F)) :
    after ops V (main_arg6 : DevRef τ sig) = V (main_arg6 : DevRef τ sig) := by
  after_results_simp

set_option maxRecDepth 8192 in
set_option maxHeartbeats 1000000 in
theorem arg7_eq (V : Valuation τ sig (Elt F)) :
    after ops V (main_arg7 : DevRef τ sig) = V (main_arg7 : DevRef τ sig) := by
  after_results_simp

/-- The run: the three results at the network's terms of the launch contents, the eight arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v53) = netLogits (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v25) = netEmbd (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v49) = netAtt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v53).trans (v53_eq _), (h c main_v25).trans (v25_eq _),
      (h c main_v49).trans (v49_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _), (h c main_arg7).trans (arg7_eq _)⟩)
    (run_seq scopedRefs_eq scopedSems_eq defs main (fun _ => ops) main_eq (fun _ => ops_sub) m ρ)

end Cert.ReferenceIdeal.RefValue

end
-- ==== Proof.RefRead.lean ====
/-
  The reference's terms read entry by entry on the extended reals: each group of host operations is the corresponding
  function of the specification, and so are the three results of the network.
-/
import proofs.«141706_g69887707840728_cont_9to1c4b_820_3_alg».proof.Proof.Gen.ReferenceIdeal
import proofs.«141706_g69887707840728_cont_9to1c4b_820_3_alg».proof.Proof.RefTerm
import proofs.«141706_g69887707840728_cont_9to1c4b_820_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.RefRead

open Cert.ReferenceIdeal Cert.ReferenceIdeal.RefValue Cert.Gat
open Idealize.ShloMosaic Idealize.ShloMosaic.ValueIdx
open scoped BigOperators

/-! ## The four matrix products

Each host product has one contracted axis: its entry at (p, q) is the sum over that axis's coordinate k of the left
operand at (p, k) times the right operand at (k, q). Per product: the operand indices' coordinates, then the sum
re-indexed from the one-axis contraction index to its coordinate. -/

/-! ### The product `4096x128 · 128x64` read at an index -/

private theorem lhsA_0 (i : S4096x64.Idx) (q : dot_S4096x128_S128x64_S4096x64_1_0_0_1_n_n.contr.Idx) :
    (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide),
    dif_pos (show (0 : Fin S4096x128.rank) ∈ dot_S4096x128_S128x64_S4096x64_1_0_0_1_n_n.lhsNonContracting by decide)]
  rfl
private theorem lhsA_1 (i : S4096x64.Idx) (q : dot_S4096x128_S128x64_S4096x64_1_0_0_1_n_n.contr.Idx) :
    (dot_S4096x128_S128x64_S4096x64_1_0_0_1_n_n.lhsIdx i q 1).val = (q ⟨0, by decide⟩).val :=
  dot_S4096x128_S128x64_S4096x64_1_0_0_1_n_n.lhsIdx_val_of_single rfl i q
private theorem rhsA_0 (i : S4096x64.Idx) (q : dot_S4096x128_S128x64_S4096x64_1_0_0_1_n_n.contr.Idx) :
    (dot_S4096x128_S128x64_S4096x64_1_0_0_1_n_n.rhsIdx i q 0).val = (q ⟨0, by decide⟩).val :=
  dot_S4096x128_S128x64_S4096x64_1_0_0_1_n_n.rhsIdx_val_of_single rfl i q
private theorem rhsA_1 (i : S4096x64.Idx) (q : dot_S4096x128_S128x64_S4096x64_1_0_0_1_n_n.contr.Idx) :
    (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide),
    dif_pos (show (1 : Fin S128x64.rank) ∈ dot_S4096x128_S128x64_S4096x64_1_0_0_1_n_n.rhsNonContracting by decide)]
  rfl

/-- A product of 128 terms per entry. -/
theorem dotA_apply (x : FVec Ideal S4096x128 .f32) (y : FVec Ideal S128x64 .f32) (p : Fin 4096) (q : Fin 64) :
    Host.dotGeneral dot_S4096x128_S128x64_S4096x64_1_0_0_1_n_n none x y (ix2 p q) = ∑ k : Fin 128, x (ix2 p k) * y (ix2 k q) := by
  simp only [Host.dotGeneral]
  rw [Ideal.dotGeneral_apply, ← Equiv.sum_comp (contrEquiv1 dot_S4096x128_S128x64_S4096x64_1_0_0_1_n_n 128 rfl rfl).symm]
  refine Finset.sum_congr rfl fun k _ => ?_
  have hk := contrEquiv1_symm_val dot_S4096x128_S128x64_S4096x64_1_0_0_1_n_n 128 rfl rfl k
  have el : dot_S4096x128_S128x64_S4096x64_1_0_0_1_n_n.lhsIdx (ix2 p q) ((contrEquiv1 dot_S4096x128_S128x64_S4096x64_1_0_0_1_n_n 128 rfl rfl).symm k) = ix2 p k :=
    funext fun a => Fin.ext (by
      match a with
      | ⟨0, _⟩ => exact lhsA_0 _ _
      | ⟨1, _⟩ => exact (lhsA_1 _ _).trans hk)
  have er : dot_S4096x128_S128x64_S4096x64_1_0_0_1_n_n.rhsIdx (ix2 p q) ((contrEquiv1 dot_S4096x128_S128x64_S4096x64_1_0_0_1_n_n 128 rfl rfl).symm k) = ix2 k q :=
    funext fun a => Fin.ext (by
      match a with
      | ⟨0, _⟩ => exact (rhsA_0 _ _).trans hk
      | ⟨1, _⟩ => exact rhsA_1 _ _)
  rw [el, er]

/-! ### The product `4096x64 · 64x64` read at an index -/

private theorem lhsB_0 (i : S4096x64.Idx) (q : dot_S4096x64_S64x64_S4096x64_1_0_0_1_n_n.contr.Idx) :
    (dot_S4096x64_S64x64_S4096x64_1_0_0_1_n_n.lhsIdx i q 0).val = (i 0).val := by
  unfold DotDims.lhsIdx
  rw [dif_neg (show ¬(0 : Fin S4096x64.rank) ∈ dot_S4096x64_S64x64_S4096x64_1_0_0_1_n_n.lhsBatch by decide),
    dif_pos (show (0 : Fin S4096x64.rank) ∈ dot_S4096x64_S64x64_S4096x64_1_0_0_1_n_n.lhsNonContracting by decide)]
  rfl
private theorem lhsB_1 (i : S4096x64.Idx) (q : dot_S4096x64_S64x64_S4096x64_1_0_0_1_n_n.contr.Idx) :
    (dot_S4096x64_S64x64_S4096x64_1_0_0_1_n_n.lhsIdx i q 1).val = (q ⟨0, by decide⟩).val :=
  dot_S4096x64_S64x64_S4096x64_1_0_0_1_n_n.lhsIdx_val_of_single rfl i q
private theorem rhsB_0 (i : S4096x64.Idx) (q : dot_S4096x64_S64x64_S4096x64_1_0_0_1_n_n.contr.Idx) :
    (dot_S4096x64_S64x64_S4096x64_1_0_0_1_n_n.rhsIdx i q 0).val = (q ⟨0, by decide⟩).val :=
  dot_S4096x64_S64x64_S4096x64_1_0_0_1_n_n.rhsIdx_val_of_single rfl i q
private theorem rhsB_1 (i : S4096x64.Idx) (q : dot_S4096x64_S64x64_S4096x64_1_0_0_1_n_n.contr.Idx) :
    (dot_S4096x64_S64x64_S4096x64_1_0_0_1_n_n.rhsIdx i q 1).val = (i 1).val := by
  unfold DotDims.rhsIdx
  rw [dif_neg (show ¬(1 : Fin S64x64.rank) ∈ dot_S4096x64_S64x64_S4096x64_1_0_0_1_n_n.rhsBatch by decide),
    dif_pos (show (1 : Fin S64x64.rank) ∈ dot_S4096x64_S64x64_S4096x64_1_0_0_1_n_n.rhsNonContracting by decide)]
  rfl

/-- A product of 64 terms per entry, into 64 columns. -/
theorem dotB_apply (x : FVec Ideal S4096x64 .f32) (y : FVec Ideal S64x64 .f32) (p : Fin 4096) (q : Fin 64) :
    Host.dotGeneral dot_S4096x64_S64x64_S4096x64_1_0_0_1_n_n none x y (ix2 p q) = ∑ k : Fin 64, x (ix2 p k) * y (ix2 k q) := by
  simp only [Host.dotGeneral]
  rw [Ideal.dotGeneral_apply, ← Equiv.sum_comp (contrEquiv1 dot_S4096x64_S64x64_S4096x64_1_0_0_1_n_n 64 rfl rfl).symm]
  refine Finset.sum_congr rfl fun k _ => ?_
  have hk := contrEquiv1_symm_val dot_S4096x64_S64x64_S4096x64_1_0_0_1_n_n 64 rfl rfl k
  have el : dot_S4096x64_S64x64_S4096x64_1_0_0_1_n_n.lhsIdx (ix2 p q) ((contrEquiv1 dot_S4096x64_S64x64_S4096x64_1_0_0_1_n_n 64 rfl rfl).symm k) = ix2 p k :=
    funext fun a => Fin.ext (by
      match a with
      | ⟨0, _⟩ => exact lhsB_0 _ _
      | ⟨1, _⟩ => exact (lhsB_1 _ _).trans hk)
  have er : dot_S4096x64_S64x64_S4096x64_1_0_0_1_n_n.rhsIdx (ix2 p q) ((contrEquiv1 dot_S4096x64_S64x64_S4096x64_1_0_0_1_n_n 64 rfl rfl).symm k) = ix2 k q :=
    funext fun a => Fin.ext (by
      match a with
      | ⟨0, _⟩ => exact (rhsB_0 _ _).trans hk
      | ⟨1, _⟩ => exact rhsB_1 _ _)
  rw [el, er]

/-! ### The product `4096x64 · 64x1` read at an index -/

private theorem lhsC_0 (i : S4096x1.Idx) (q : dot_S4096x64_S64x1_S4096x1_1_0_0_1_n_n.contr.Idx) :
    (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide),
    dif_pos (show (0 : Fin S4096x64.rank) ∈ dot_S4096x64_S64x1_S4096x1_1_0_0_1_n_n.lhsNonContracting by decide)]
  rfl
private theorem lhsC_1 (i : S4096x1.Idx) (q : dot_S4096x64_S64x1_S4096x1_1_0_0_1_n_n.contr.Idx) :
    (dot_S4096x64_S64x1_S4096x1_1_0_0_1_n_n.lhsIdx i q 1).val = (q ⟨0, by decide⟩).val :=
  dot_S4096x64_S64x1_S4096x1_1_0_0_1_n_n.lhsIdx_val_of_single rfl i q
private theorem rhsC_0 (i : S4096x1.Idx) (q : dot_S4096x64_S64x1_S4096x1_1_0_0_1_n_n.contr.Idx) :
    (dot_S4096x64_S64x1_S4096x1_1_0_0_1_n_n.rhsIdx i q 0).val = (q ⟨0, by decide⟩).val :=
  dot_S4096x64_S64x1_S4096x1_1_0_0_1_n_n.rhsIdx_val_of_single rfl i q
private theorem rhsC_1 (i : S4096x1.Idx) (q : dot_S4096x64_S64x1_S4096x1_1_0_0_1_n_n.contr.Idx) :
    (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide),
    dif_pos (show (1 : Fin S64x1.rank) ∈ dot_S4096x64_S64x1_S4096x1_1_0_0_1_n_n.rhsNonContracting by decide)]
  rfl

/-- A product of 64 terms per entry, into one column. -/
theorem dotC_apply (x : FVec Ideal S4096x64 .f32) (y : FVec Ideal S64x1 .f32) (p : Fin 4096) (q : Fin 1) :
    Host.dotGeneral dot_S4096x64_S64x1_S4096x1_1_0_0_1_n_n none x y (ix2 p q) = ∑ k : Fin 64, x (ix2 p k) * y (ix2 k q) := by
  simp only [Host.dotGeneral]
  rw [Ideal.dotGeneral_apply, ← Equiv.sum_comp (contrEquiv1 dot_S4096x64_S64x1_S4096x1_1_0_0_1_n_n 64 rfl rfl).symm]
  refine Finset.sum_congr rfl fun k _ => ?_
  have hk := contrEquiv1_symm_val dot_S4096x64_S64x1_S4096x1_1_0_0_1_n_n 64 rfl rfl k
  have el : dot_S4096x64_S64x1_S4096x1_1_0_0_1_n_n.lhsIdx (ix2 p q) ((contrEquiv1 dot_S4096x64_S64x1_S4096x1_1_0_0_1_n_n 64 rfl rfl).symm k) = ix2 p k :=
    funext fun a => Fin.ext (by
      match a with
      | ⟨0, _⟩ => exact lhsC_0 _ _
      | ⟨1, _⟩ => exact (lhsC_1 _ _).trans hk)
  have er : dot_S4096x64_S64x1_S4096x1_1_0_0_1_n_n.rhsIdx (ix2 p q) ((contrEquiv1 dot_S4096x64_S64x1_S4096x1_1_0_0_1_n_n 64 rfl rfl).symm k) = ix2 k q :=
    funext fun a => Fin.ext (by
      match a with
      | ⟨0, _⟩ => exact (rhsC_0 _ _).trans hk
      | ⟨1, _⟩ => exact rhsC_1 _ _)
  rw [el, er]

/-! ### The product `4096x4096 · 4096x64` read at an index -/

private theorem lhsD_0 (i : S4096x64.Idx) (q : dot_S4096x4096_S4096x64_S4096x64_1_0_0_1_n_n.contr.Idx) :
    (dot_S4096x4096_S4096x64_S4096x64_1_0_0_1_n_n.lhsIdx i q 0).val = (i 0).val := by
  unfold DotDims.lhsIdx
  rw [dif_neg (show ¬(0 : Fin S4096x4096.rank) ∈ dot_S4096x4096_S4096x64_S4096x64_1_0_0_1_n_n.lhsBatch by decide),
    dif_pos (show (0 : Fin S4096x4096.rank) ∈ dot_S4096x4096_S4096x64_S4096x64_1_0_0_1_n_n.lhsNonContracting by decide)]
  rfl
private theorem lhsD_1 (i : S4096x64.Idx) (q : dot_S4096x4096_S4096x64_S4096x64_1_0_0_1_n_n.contr.Idx) :
    (dot_S4096x4096_S4096x64_S4096x64_1_0_0_1_n_n.lhsIdx i q 1).val = (q ⟨0, by decide⟩).val :=
  dot_S4096x4096_S4096x64_S4096x64_1_0_0_1_n_n.lhsIdx_val_of_single rfl i q
private theorem rhsD_0 (i : S4096x64.Idx) (q : dot_S4096x4096_S4096x64_S4096x64_1_0_0_1_n_n.contr.Idx) :
    (dot_S4096x4096_S4096x64_S4096x64_1_0_0_1_n_n.rhsIdx i q 0).val = (q ⟨0, by decide⟩).val :=
  dot_S4096x4096_S4096x64_S4096x64_1_0_0_1_n_n.rhsIdx_val_of_single rfl i q
private theorem rhsD_1 (i : S4096x64.Idx) (q : dot_S4096x4096_S4096x64_S4096x64_1_0_0_1_n_n.contr.Idx) :
    (dot_S4096x4096_S4096x64_S4096x64_1_0_0_1_n_n.rhsIdx i q 1).val = (i 1).val := by
  unfold DotDims.rhsIdx
  rw [dif_neg (show ¬(1 : Fin S4096x64.rank) ∈ dot_S4096x4096_S4096x64_S4096x64_1_0_0_1_n_n.rhsBatch by decide),
    dif_pos (show (1 : Fin S4096x64.rank) ∈ dot_S4096x4096_S4096x64_S4096x64_1_0_0_1_n_n.rhsNonContracting by decide)]
  rfl

/-- A product of 4096 terms per entry. -/
theorem dotD_apply (x : FVec Ideal S4096x4096 .f32) (y : FVec Ideal S4096x64 .f32) (p : Fin 4096) (q : Fin 64) :
    Host.dotGeneral dot_S4096x4096_S4096x64_S4096x64_1_0_0_1_n_n none x y (ix2 p q) = ∑ k : Fin 4096, x (ix2 p k) * y (ix2 k q) := by
  simp only [Host.dotGeneral]
  rw [Ideal.dotGeneral_apply, ← Equiv.sum_comp (contrEquiv1 dot_S4096x4096_S4096x64_S4096x64_1_0_0_1_n_n 4096 rfl rfl).symm]
  refine Finset.sum_congr rfl fun k _ => ?_
  have hk := contrEquiv1_symm_val dot_S4096x4096_S4096x64_S4096x64_1_0_0_1_n_n 4096 rfl rfl k
  have el : dot_S4096x4096_S4096x64_S4096x64_1_0_0_1_n_n.lhsIdx (ix2 p q) ((contrEquiv1 dot_S4096x4096_S4096x64_S4096x64_1_0_0_1_n_n 4096 rfl rfl).symm k) = ix2 p k :=
    funext fun a => Fin.ext (by
      match a with
      | ⟨0, _⟩ => exact lhsD_0 _ _
      | ⟨1, _⟩ => exact (lhsD_1 _ _).trans hk)
  have er : dot_S4096x4096_S4096x64_S4096x64_1_0_0_1_n_n.rhsIdx (ix2 p q) ((contrEquiv1 dot_S4096x4096_S4096x64_S4096x64_1_0_0_1_n_n 4096 rfl rfl).symm k) = ix2 k q :=
    funext fun a => Fin.ext (by
      match a with
      | ⟨0, _⟩ => exact (rhsD_0 _ _).trans hk
      | ⟨1, _⟩ => exact rhsD_1 _ _)
  rw [el, er]

/-! ## Layout operations read at an index

A slice reads its operand at the offset plus the coordinate, a transpose swaps the two coordinates, a broadcast along
a unit axis reads coordinate 0 there, and a scalar constant spread over an array reads its one value everywhere. -/

/-- The slice at offset 0 holds the first 64 entries of the attention vector. -/
private theorem sliceLo_apply (a : FVec Ideal S128x1 .f32) (h : S128x1.Slices ![0, 0] S64x1) (k : Fin 64) (z : Fin 1) :
    extractStridedSlice S64x1 ![0, 0] a h (ix2 k z) = a (ix2 (lo k) (0 : Fin 1)) := by
  refine extractStridedSlice_apply _ a h (ix2 k z) (ix2 (lo k) (0 : Fin 1)) fun b => ?_
  match b with
  | ⟨0, _⟩ => show k.val = 0 + k.val; omega
  | ⟨1, _⟩ => show 0 = 0 + z.val; have := z.isLt; omega

/-- The slice at offset 64 holds the last 64 entries. -/
private theorem sliceHi_apply (a : FVec Ideal S128x1 .f32) (h : S128x1.Slices ![64, 0] S64x1) (k : Fin 64) (z : Fin 1) :
    extractStridedSlice S64x1 ![64, 0] a h (ix2 k z) = a (ix2 (hi k) (0 : Fin 1)) := by
  refine extractStridedSlice_apply _ a h (ix2 k z) (ix2 (hi k) (0 : Fin 1)) fun b => ?_
  match b with
  | ⟨0, _⟩ => show 64 + k.val = 64 + k.val; rfl
  | ⟨1, _⟩ => show 0 = 0 + z.val; have := z.isLt; omega

/-- A column transposed to a row. -/
private theorem transposeCol_apply (v : FVec Ideal S4096x1 .f32) (h : S4096x1.Transposes [1, 0] S1x4096) (z : Fin 1)
    (q : Fin 4096) : transpose S1x4096 [1, 0] v h (ix2 z q) = v (ix2 q (0 : Fin 1)) := by
  refine transpose_apply [1, 0] v h (ix2 z q) (ix2 q (0 : Fin 1)) fun b => ?_
  match b with
  | ⟨0, _⟩ => show 0 = z.val; have := z.isLt; omega
  | ⟨1, _⟩ => rfl

/-- A column spread along the rows' second coordinate. -/
private theorem bcastCol_apply (f : FVec Ideal S4096x1 .f32)
    (h : S4096x1.BroadcastsInDim S4096x4096 (![0, 1] : Fin 2 → Fin S4096x4096.rank)) (p q : Fin 4096) :
    broadcastInDim S4096x4096 ![0, 1] h f (ix2 p q) = f (ix2 p (0 : Fin 1)) := by
  refine broadcastInDim_apply _ h f (ix2 p q) (ix2 p (0 : Fin 1)) fun a => ?_
  match a with
  | ⟨0, _⟩ => show p.val = if (4096 : ℕ) = 1 then 0 else p.val; rw [if_neg (by decide)]
  | ⟨1, _⟩ => show (0 : ℕ) = if (1 : ℕ) = 1 then 0 else q.val; rw [if_pos rfl]

/-- A row spread along the first coordinate. -/
private theorem bcastRow_apply (f : FVec Ideal S1x4096 .f32)
    (h : S1x4096.BroadcastsInDim S4096x4096 (![0, 1] : Fin 2 → Fin S4096x4096.rank)) (p q : Fin 4096) :
    broadcastInDim S4096x4096 ![0, 1] h f (ix2 p q) = f (ix2 (0 : Fin 1) q) := by
  refine broadcastInDim_apply _ h f (ix2 p q) (ix2 (0 : Fin 1) q) fun a => ?_
  match a with
  | ⟨0, _⟩ => show (0 : ℕ) = if (1 : ℕ) = 1 then 0 else p.val; rw [if_pos rfl]
  | ⟨1, _⟩ => show q.val = if (4096 : ℕ) = 1 then 0 else q.val; rw [if_neg (by decide)]

/-- The bias row spread over the nodes. -/
private theorem bcastBias_apply (f : FVec Ideal S1x64 .f32)
    (h : S1x64.BroadcastsInDim S4096x64 (![0, 1] : Fin 2 → Fin S4096x64.rank)) (p : Fin 4096) (q : Fin 64) :
    broadcastInDim S4096x64 ![0, 1] h f (ix2 p q) = f (ix2 (0 : Fin 1) q) := by
  refine broadcastInDim_apply _ h f (ix2 p q) (ix2 (0 : Fin 1) q) fun a => ?_
  match a with
  | ⟨0, _⟩ => show (0 : ℕ) = if (1 : ℕ) = 1 then 0 else p.val; rw [if_pos rfl]
  | ⟨1, _⟩ => show q.val = if (64 : ℕ) = 1 then 0 else q.val; rw [if_neg (by decide)]

/-- A vector of per-row values as a column. -/
private theorem bcastVec_apply (v : FVec Ideal S4096 .f32)
    (h : S4096.BroadcastsInDim S4096x1 (![0] : Fin 1 → Fin S4096x1.rank)) (p : Fin 4096) (z : Fin 1) :
    broadcastInDim S4096x1 ![0] h v (ix2 p z) = v (ix1 p) := by
  refine broadcastInDim_apply _ h v (ix2 p z) (ix1 p) fun a => ?_
  match a with
  | ⟨0, _⟩ => show p.val = if (4096 : ℕ) = 1 then 0 else p.val; rw [if_neg (by decide)]

/-- A scalar constant spread over the node-by-node square reads its value everywhere. -/
private theorem splatN_apply (b : BitVec 32) (i : S4096x4096.Idx) : splatN (F := Ideal) b i = Ideal.ofBits .f32 b := rfl

/-- A per-row value spread back along its row. -/
private theorem alongRows_apply (v : FVec Ideal S4096 .f32) (p q : Fin 4096) : alongRows v (ix2 p q) = v (ix1 p) := by
  unfold alongRows
  rw [bcastCol_apply, bcastVec_apply]

/-! ## The groups of host operations, entry by entry -/

/-- The feature projection with 128 input features. -/
theorem projA_eq (x : FVec Ideal S4096x128 .f32) (w : FVec Ideal S128x64 .f32) : projA x w = arr2 (proj128 x w) := by
  funext i
  obtain ⟨p, q, rfl⟩ : ∃ (p : Fin 4096) (q : Fin 64), i = ix2 p q := ⟨i 0, i 1, eq_ix2 i⟩
  unfold projA
  exact dotA_apply x w p q

/-- The feature projection with 64 input features. -/
theorem projB_eq (x : FVec Ideal S4096x64 .f32) (w : FVec Ideal S64x64 .f32) : projB x w = arr2 (proj64 x w) := by
  funext i
  obtain ⟨p, q, rfl⟩ : ∃ (p : Fin 4096) (q : Fin 64), i = ix2 p q := ⟨i 0, i 1, eq_ix2 i⟩
  unfold projB
  exact dotB_apply x w p q

/-- The source terms: the product with the slice at offset 0 sums against the first half of the attention vector. -/
theorem srcT_eq (h : FVec Ideal S4096x64 .f32) (a : FVec Ideal S128x1 .f32) : srcT h a = srcCol h a := by
  funext i
  obtain ⟨p, z, rfl⟩ : ∃ (p : Fin 4096) (z : Fin 1), i = ix2 p z := ⟨i 0, i 1, eq_ix2 i⟩
  unfold srcT
  rw [dotC_apply]
  show _ = ∑ k : Fin 64, h (ix2 p k) * a (ix2 (lo k) (0 : Fin 1))
  exact Finset.sum_congr rfl fun k _ => by rw [sliceLo_apply]

/-- The destination terms: the product with the slice at offset 64, transposed; the factors commute. -/
theorem dstT_eq (h : FVec Ideal S4096x64 .f32) (a : FVec Ideal S128x1 .f32) : dstT h a = dstRow h a := by
  funext i
  obtain ⟨z, q, rfl⟩ : ∃ (z : Fin 1) (q : Fin 4096), i = ix2 z q := ⟨i 0, i 1, eq_ix2 i⟩
  unfold dstT
  rw [transposeCol_apply, dotC_apply]
  show _ = ∑ k : Fin 64, a (ix2 (hi k) (0 : Fin 1)) * h (ix2 q k)
  exact Finset.sum_congr rfl fun k _ => by rw [sliceHi_apply, mul_comm]

/-- The leaky rectifier at an entry: the slope multiplies from the left here, from the right in the specification. -/
theorem leakyT_apply (e : FVec Ideal S4096x4096 .f32) (i : S4096x4096.Idx) : leakyT e i = leaky (e i) := by
  unfold leakyT
  rw [select_apply, cmpf_apply, mulf_apply, splatN_apply, splatN_apply, mul_comm]
  rfl

/-- The masked logits at an entry. -/
theorem logitsT_apply (adj : FVec Ideal S4096x4096 .f32) (f1 : FVec Ideal S4096x1 .f32) (f2 : FVec Ideal S1x4096 .f32)
    (p q : Fin 4096) : logitsT adj f1 f2 (ix2 p q) = logitRow adj f1 f2 p q := by
  unfold logitsT
  rw [select_apply, cmpf_apply, leakyT_apply, addf_apply, bcastCol_apply, bcastRow_apply, splatN_apply, splatN_apply]
  rfl

/-! ### The two row reductions -/

/-- Row `p` with the column coordinate put back is the entry (p, k). -/
private theorem lift_row (h : S4096x4096.Reduces [1] S4096) (p : Fin 4096) (k : Fin (S4096x4096.size 1)) :
    h.lift (ix1 p) k = ix2 p (⟨k.val, k.isLt⟩ : Fin 4096) := by
  funext c; apply Fin.ext
  match c with
  | ⟨0, _⟩ => rfl
  | ⟨1, _⟩ => rfl

/-- The maximum over the columns, from minus infinity, is the fold of `max` over the row. -/
theorem reduceMax_apply (z : FVec Ideal S4096x4096 .f32) (h' : S4096x4096.ReducesTo [1] S4096) (hu : 0 < S_.numel)
    (p : Fin 4096) :
    Host.reduce FloatOps.maximumf z (constant (F := Ideal) S_ .f32 0xFF800000#32) h' hu (ix1 p)
      = rowMax fun j => z (ix2 p j) := by
  have h : S4096x4096.Reduces [1] S4096 := by decide
  rw [Host.reduce_eq_fold_single FloatOps.maximumf z _ h' h hu]
  have hf : (z ∘ h.lift (ix1 p)) = fun j : Fin 4096 => z (ix2 p j) := funext fun k => congrArg z (lift_row h p k)
  unfold rowMax
  exact congrArg (fun f => Finset.fold max (Ideal.ofBits .f32 0xFF800000#32) f (Finset.univ : Finset (Fin 4096))) hf

/-- The sum over the columns, from zero, is the sum over the row. -/
theorem reduceAdd_apply (e : FVec Ideal S4096x4096 .f32) (h' : S4096x4096.ReducesTo [1] S4096) (hu : 0 < S_.numel)
    (p : Fin 4096) :
    Host.reduceAdd e (constant (F := Ideal) S_ .f32 0x00000000#32) h' hu (ix1 p) = ∑ j : Fin 4096, e (ix2 p j) := by
  have h : S4096x4096.Reduces [1] S4096 := by decide
  unfold Host.reduceAdd
  simp only [Ideal.hostReduceAdd_def]
  rw [Ideal.hostReduceAdd_single h' h]
  show Ideal.ofBits .f32 0x00000000#32 + _ = _
  rw [Ideal.ofBits_zero_f32, zero_add]
  exact Finset.sum_congr rfl fun k _ => congrArg e (lift_row h p k)

/-- A fold of `max` is at least its initial value, so taking the maximum with that value again changes nothing. -/
private theorem max_init_rowMax (f : Fin 4096 → EReal) : max (Ideal.ofBits .f32 0xFF800000#32) (rowMax f) = rowMax f := by
  unfold rowMax
  exact max_eq_right ((Finset.le_fold_max _).mpr (Or.inl le_rfl))

/-! ### The row softmax, the aggregation and the layers' last steps -/

/-- The exponentials of a row softmax at an entry. -/
theorem expT_apply (z : FVec Ideal S4096x4096 .f32) (p q : Fin 4096) :
    expT z (ix2 p q) = Ideal.exp (z (ix2 p q) - rowMax fun j => z (ix2 p j)) := by
  unfold expT Host.exp
  rw [Ideal.hostUnary_exp_def, subf_apply, alongRows_apply, maximumf_apply, reduceMax_apply]
  show Ideal.exp (z (ix2 p q) - max (Ideal.ofBits .f32 0xFF800000#32) (rowMax fun j => z (ix2 p j))) = _
  rw [max_init_rowMax]

/-- The row softmax at an entry. -/
theorem softmaxT_apply (z : FVec Ideal S4096x4096 .f32) (p q : Fin 4096) :
    softmaxT z (ix2 p q) = softmaxRow (fun j => z (ix2 p j)) q := by
  unfold softmaxT Host.divf
  rw [Ideal.hostDivf_def, alongRows_apply, reduceAdd_apply, expT_apply]
  unfold softmaxRow
  exact congrArg (Ideal.div _) (Finset.sum_congr rfl fun j _ => expT_apply z p j)

/-- One layer's attention matrix. -/
theorem attT_eq (adj : FVec Ideal S4096x4096 .f32) (h : FVec Ideal S4096x64 .f32) (a : FVec Ideal S128x1 .f32) :
    attT adj h a = arr2 (attention adj (srcCol h a) (dstRow h a)) := by
  funext i
  obtain ⟨p, q, rfl⟩ : ∃ (p : Fin 4096) (q : Fin 4096), i = ix2 p q := ⟨i 0, i 1, eq_ix2 i⟩
  unfold attT
  rw [softmaxT_apply, srcT_eq, dstT_eq]
  show _ = softmaxRow (logitRow adj (srcCol h a) (dstRow h a) p) q
  exact congrArg (fun r => softmaxRow r q) (funext fun j => logitsT_apply adj _ _ p j)

/-- The aggregation of features by an attention matrix given by its entries. -/
theorem aggT_eq (att : Fin 4096 → Fin 4096 → EReal) (h : FVec Ideal S4096x64 .f32) :
    aggT (arr2 att) h = arr2 (aggregate att h) := by
  funext i
  obtain ⟨p, q, rfl⟩ : ∃ (p : Fin 4096) (q : Fin 64), i = ix2 p q := ⟨i 0, i 1, eq_ix2 i⟩
  unfold aggT
  exact dotD_apply (arr2 att) h p q

/-- Layer one's last step: the maximum with zero. -/
theorem reluT_eq (f : Fin 4096 → Fin 64 → EReal) :
    reluT (F := Ideal) (arr2 f) = arr2 fun p q => max (f p q) (Ideal.ofBits .f32 0x00000000#32) := by
  funext i
  obtain ⟨p, q, rfl⟩ : ∃ (p : Fin 4096) (q : Fin 64), i = ix2 p q := ⟨i 0, i 1, eq_ix2 i⟩
  rfl

/-- Layer two's last step: the classifier product plus the bias row. -/
theorem scoreT_eq (f : Fin 4096 → Fin 64 → EReal) (cls : FVec Ideal S64x64 .f32) (bias : FVec Ideal S1x64 .f32) :
    scoreT (arr2 f) cls bias
      = arr2 fun p q => (∑ k : Fin 64, f p k * cls (ix2 k q)) + bias (ix2 (0 : Fin 1) q) := by
  funext i
  obtain ⟨p, q, rfl⟩ : ∃ (p : Fin 4096) (q : Fin 64), i = ix2 p q := ⟨i 0, i 1, eq_ix2 i⟩
  unfold scoreT projB
  rw [addf_apply, dotB_apply, bcastBias_apply]
  rfl

/-! ## The network's three results -/

variable (ft : FVec Ideal S4096x128 .f32) (adj : FVec Ideal S4096x4096 .f32) (W1 : FVec Ideal S128x64 .f32) (a1 : FVec Ideal S128x1 .f32)
  (W2 : FVec Ideal S64x64 .f32) (a2 : FVec Ideal S128x1 .f32) (cls : FVec Ideal S64x64 .f32) (bias : FVec Ideal S1x64 .f32)

/-- The embedding. -/
theorem netEmbd_eq : netEmbd (F := Ideal) ft adj W1 a1 = Gat.embd ft adj W1 a1 := by
  unfold netEmbd Gat.embd Gat.hidden Gat.feat1
  rw [projA_eq, attT_eq, aggT_eq, reluT_eq]

/-- Layer two's attention matrix. -/
theorem netAtt_eq : netAtt (F := Ideal) ft adj W1 a1 W2 a2 = Gat.att2 ft adj W1 a1 W2 a2 := by
  unfold netAtt Gat.att2 Gat.feat2
  rw [netEmbd_eq, projB_eq, attT_eq]

/-- The class scores. -/
theorem netLogits_eq : netLogits (F := Ideal) ft adj W1 a1 W2 a2 cls bias = Gat.logits ft adj W1 a1 W2 a2 cls bias := by
  unfold netLogits Gat.logits Gat.scores
  rw [netAtt_eq, netEmbd_eq, projB_eq]
  unfold Gat.att2 Gat.feat2
  rw [aggT_eq, scoreT_eq]

end Cert.ReferenceIdeal.RefRead

end
-- ==== Proof.lean ====
/-
  A two-layer dense graph-attention network, fused into four kernel regions (per layer: a projection region computing
  `h = x · W` with its source column and destination row, and an attention region that streams the adjacency matrix in
  blocks of 256 rows — masked leaky logits, a row softmax, the product with `h`), against the plain array program.

  On the extended reals the two compute the same function of the arguments, entry by entry: both are stated against one
  specification (Spec.lean). The kernel side reads each region's output arrays as whole-array functions of the arrays
  the region found and composes them along the four regions; the reference side reads its host operations group by group.
  The only laws used between the two spellings are the commutativity of a product (the slope times the logit; the
  destination term's factors), `max (−∞, x) = x` for the softmax's guarded row maximum, `0 + x = x` for a sum's
  initial value, and the tiling of the rows by blocks. No entry's finiteness is needed.

  The frames of the two kernel programs are the generated ones; the reference's frame is its run with the results
  dropped; the idealization rewrote nothing, so the preservation claim is trivial.
-/
import proofs.«141706_g69887707840728_cont_9to1c4b_820_3_alg».proof.Defs
import proofs.«141706_g69887707840728_cont_9to1c4b_820_3_alg».proof.Proof.Gen.Kernel
import proofs.«141706_g69887707840728_cont_9to1c4b_820_3_alg».proof.Proof.Gen.Kernel.Frame
import proofs.«141706_g69887707840728_cont_9to1c4b_820_3_alg».proof.Proof.Gen.KernelIdeal
import proofs.«141706_g69887707840728_cont_9to1c4b_820_3_alg».proof.Proof.Gen.KernelIdeal.Frame
import proofs.«141706_g69887707840728_cont_9to1c4b_820_3_alg».proof.Proof.Gen.ReferenceIdeal
import proofs.«141706_g69887707840728_cont_9to1c4b_820_3_alg».proof.Proof.Gen.Pre_finite_inputs
import proofs.«141706_g69887707840728_cont_9to1c4b_820_3_alg».proof.Proof.KernelRun
import proofs.«141706_g69887707840728_cont_9to1c4b_820_3_alg».proof.Proof.KernelChain
import proofs.«141706_g69887707840728_cont_9to1c4b_820_3_alg».proof.Proof.RefRun
import proofs.«141706_g69887707840728_cont_9to1c4b_820_3_alg».proof.Proof.RefRead
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the results dropped. -/
theorem frame_ri : Cert.frame_ReferenceIdeal := fun m ρ _ =>
  (θ_run Cert.ReferenceIdeal.defs _ _).mono (fun _ h c => (h c).2.2.2) (Cert.ReferenceIdeal.RefValue.run (F := Ideal) m ρ)

/-- Both programs end with the class scores, the embedding and the attention matrix of the specification. -/
theorem algebraic : Cert.algebraic_KernelIdeal_ReferenceIdeal := by
  intro m ρ m' ρ' _ hagree
  refine ⟨fun c => Cert.Gat.logits (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gat.embd (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Gat.att2 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.res_logits m ρ c),
        (h c).2.1.trans (Cert.KernelIdeal.Chain.res_embd m ρ c),
        (h c).2.2.1.trans (Cert.KernelIdeal.Chain.res_att m ρ c), (h c).2.2.2⟩)
      (Cert.KernelIdeal.RunValue.run_results m ρ)
  · refine (θ_run Cert.ReferenceIdeal.defs _ _).mono (fun r h c => ?_) (Cert.ReferenceIdeal.RefValue.run (F := Ideal) m' ρ')
    obtain ⟨h0, h1, h2, hk⟩ := h c
    obtain ⟨e0, e1, e2, e3, e4, e5, e6, e7⟩ := hagree c
    refine ⟨h0.trans ?_, h1.trans ?_, h2.trans ?_, hk⟩
    · rw [e0, e1, e2, e3, e4, e5, e6, e7]
      exact Cert.ReferenceIdeal.RefRead.netLogits_eq _ _ _ _ _ _ _ _
    · rw [e0, e1, e2, e3]
      exact Cert.ReferenceIdeal.RefRead.netEmbd_eq _ _ _ _
    · rw [e0, e1, e2, e3, e4, e5]
      exact Cert.ReferenceIdeal.RefRead.netAtt_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
